-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v212) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S2x400000 : Shape := ⟨2, ![2, 400000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part9 {F : FTy → Type} [FloatOps F] (main_arg2 : IVec S2x400000 32) (main_v152 : IVec S_ 1) (main_c_60 : IVec S_ 32) : IVec S_ 1 :=
  let main_v153 : IVec S2x400000 32 := broadcastInDim S2x400000 ![] bcast_S_S2x400000 main_c_60
  let main_v154 : IVec S2x400000 1 := cmpi .slt main_arg2 main_v153
  let main_c_61 : IVec S_ 1 := constantI S_ 1 1#1
  let main_v155 : IVec S_ 1 := (fun x v => Host.reduce IntOp.andi x v reducesTo_S2x400000_S_d0_1 h_S_) main_v154 main_c_61
  let main_v156 : IVec S_ 1 := andi main_v152 main_v155
  main_v156

def fn_part8 {F : FTy → Type} [FloatOps F] (main_arg2 : IVec S2x400000 32) (main_arg29 : FVec F S128 .f32) (main_arg30 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg29
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg30
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_c_58 : IVec S_ 32 := constantI S_ 32 0#32
  let main_v149 : IVec S2x400000 32 := broadcastInDim S2x400000 ![] bcast_S_S2x400000 main_c_58
  let main_v150 : IVec S2x400000 1 := cmpi .sge main_arg2 main_v149
  let main_c_59 : IVec S_ 1 := constantI S_ 1 1#1
  let main_v151 : IVec S_ 1 := (fun x v => Host.reduce IntOp.andi x v reducesTo_S2x400000_S_d0_1 h_S_) main_v150 main_c_59
  let main_v152 : IVec S_ 1 := andi main_v148 main_v151
  let main_c_60 : IVec S_ 32 := constantI S_ 32 50000#32
  fn_part9 (F := F) main_arg2 main_v152 main_c_60

def fn_part7 {F : FTy → Type} [FloatOps F] (main_arg2 : IVec S2x400000 32) (main_arg26 : FVec F S128 .f32) (main_arg27 : FVec F S128 .f32) (main_arg28 : FVec F S128 .f32) (main_arg29 : FVec F S128 .f32) (main_arg30 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg28
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg2 main_arg29 main_arg30 main_v133 main_v136

def fn_part6 {F : FTy → Type} [FloatOps F] (main_arg2 : IVec S2x400000 32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_arg2 main_arg26 main_arg27 main_arg28 main_arg29 main_arg30 main_v118 main_v119

def fn_part5 {F : FTy → Type} [FloatOps F] (main_arg2 : IVec S2x400000 32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg2 main_arg22 main_arg23 main_arg24 main_arg25 main_arg26 main_arg27 main_arg28 main_arg29 main_arg30 main_v98 main_v101 main_c_39

def fn_part4 {F : FTy → Type} [FloatOps F] (main_arg2 : IVec S2x400000 32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg2 main_arg19 main_arg20 main_arg21 main_arg22 main_arg23 main_arg24 main_arg25 main_arg26 main_arg27 main_arg28 main_arg29 main_arg30 main_v83 main_v84 main_cst_32

def fn_part3 {F : FTy → Type} [FloatOps F] (main_arg2 : IVec S2x400000 32) (main_arg12 : FVec F S128 .f32) (main_arg13 : FVec F S128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg2 : IVec S2x400000 32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg2 : IVec S2x400000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x128 .f32) (main_arg1 : FVec F S400000x128 .f32) (main_arg2 : IVec S2x400000 32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S256x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128 .f32) (main_arg26 : FVec F S128 .f32) (main_arg27 : FVec F S128 .f32) (main_arg28 : FVec F S128 .f32) (main_arg29 : FVec F S128 .f32) (main_arg30 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x128 : Shape := ⟨2, ![50000, 128]⟩
abbrev S400000x128 : Shape := ⟨2, ![400000, 128]⟩
abbrev S2x400000 : Shape := ⟨2, ![2, 400000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S8000x128 : Shape := ⟨2, ![8000, 128]⟩
abbrev S1x128 : Shape := ⟨2, ![1, 128]⟩
abbrev S8000 : Shape := ⟨1, ![8000]⟩
abbrev S8000x1 : Shape := ⟨2, ![8000, 1]⟩
abbrev S10000x128 : Shape := ⟨2, ![10000, 128]⟩
abbrev S10000 : Shape := ⟨1, ![10000]⟩
abbrev S10000x1 : Shape := ⟨2, ![10000, 1]⟩

abbrev nBuf : Space → Nat
  | .hbm => 93
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S2x400000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S256x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x400000, .i32⟩
  | .hbm, ⟨32, _⟩ => ⟨S400000, .i32⟩
  | .hbm, ⟨33, _⟩ => ⟨S1x400000, .i32⟩
  | .hbm, ⟨34, _⟩ => ⟨S400000, .i32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S1, .i32⟩
  | .hbm, ⟨44, _⟩ => ⟨S_, .i32⟩
  | .hbm, ⟨45, _⟩ => ⟨S400000x1, .i32⟩
  | .hbm, ⟨46, _⟩ => ⟨S400000x1, .i1⟩
  | .hbm, ⟨47, _⟩ => ⟨S1x1, .i32⟩
  | .hbm, ⟨48, _⟩ => ⟨S400000x1, .i32⟩
  | .hbm, ⟨49, _⟩ => ⟨S400000x1, .i1⟩
  | .hbm, ⟨50, _⟩ => ⟨S400000x1, .i1⟩
  | .hbm, ⟨51, _⟩ => ⟨S_, .i1⟩
  | .hbm, ⟨52, _⟩ => ⟨S400000, .i1⟩
  | .hbm, ⟨53, _⟩ => ⟨S400000x128, .f32⟩
  | .hbm, ⟨54, _⟩ => ⟨S400000x128, .i1⟩
  | .hbm, ⟨55, _⟩ => ⟨S_, .f32⟩
  | .hbm, ⟨56, _⟩ => ⟨S400000x128, .f32⟩
  | .hbm, ⟨57, _⟩ => ⟨S400000x128, .f32⟩
  | .hbm, ⟨58, _⟩ => ⟨S_, .i32⟩
  | .hbm, ⟨59, _⟩ => ⟨S400000, .i32⟩
  | .hbm, ⟨60, _⟩ => ⟨S400000, .i1⟩
  | .hbm, ⟨61, _⟩ => ⟨S_, .i32⟩
  | .hbm, ⟨62, _⟩ => ⟨S400000, .i32⟩
  | .hbm, ⟨63, _⟩ => ⟨S400000, .i32⟩
  | .hbm, ⟨64, _⟩ => ⟨S400000, .i32⟩
  | .hbm, ⟨65, _⟩ => ⟨S400000x1, .i32⟩
  | .hbm, ⟨66, _⟩ => ⟨S1, .i32⟩
  | .hbm, ⟨67, _⟩ => ⟨S_, .i32⟩
  | .hbm, ⟨68, _⟩ => ⟨S400000x1, .i32⟩
  | .hbm, ⟨69, _⟩ => ⟨S400000x1, .i1⟩
  | .hbm, ⟨70, _⟩ => ⟨S1x1, .i32⟩
  | .hbm, ⟨71, _⟩ => ⟨S400000x1, .i32⟩
  | .hbm, ⟨72, _⟩ => ⟨S400000x1, .i1⟩
  | .hbm, ⟨73, _⟩ => ⟨S400000x1, .i1⟩
  | .hbm, ⟨74, _⟩ => ⟨S_, .i1⟩
  | .hbm, ⟨75, _⟩ => ⟨S400000, .i1⟩
  | .hbm, ⟨76, _⟩ => ⟨S400000x128, .f32⟩
  | .hbm, ⟨77, _⟩ => ⟨S400000x128, .i1⟩
  | .hbm, ⟨78, _⟩ => ⟨S_, .f32⟩
  | .hbm, ⟨79, _⟩ => ⟨S400000x128, .f32⟩
  | .hbm, ⟨80, _⟩ => ⟨S400000x128, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S400000x128, .f32⟩
  | .hbm, ⟨85, _⟩ => ⟨S400000x128, .f32⟩
  | .hbm, ⟨86, _⟩ => ⟨S_, .f32⟩
  | .hbm, ⟨87, _⟩ => ⟨S50000x128, .f32⟩
  | .hbm, ⟨88, _⟩ => ⟨S400000x1, .i32⟩
  | .hbm, ⟨89, _⟩ => ⟨S50000x128, .f32⟩
  | .hbm, ⟨90, _⟩ => ⟨S128x128, .f32⟩
  | .hbm, ⟨91, _⟩ => ⟨S128x128, .f32⟩
  | .hbm, ⟨92, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128x128, .f32⟩
  | .local _ .vmem, ⟨36, _⟩ => ⟨S128, .f32⟩
  | .local _ .vmem, ⟨37, _⟩ => ⟨S128x128, .f32⟩
  | .local _ .vmem, ⟨38, _⟩ => ⟨S128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S10000x128, .f32⟩
  | .local _ .vmem, ⟨46, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v4 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_v8 : Ref sig .tc := ⟨.hbm, 83, rfl⟩
abbrev main_v9_0 : Ref sig .tc := ⟨.hbm, 84, rfl⟩
abbrev main_v9_1 : Ref sig .tc := ⟨.hbm, 85, rfl⟩
abbrev main_cst : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg12_0 : Ref sig .tc := ⟨.vmem, 40, rfl⟩
abbrev cc1_stg13_0 : Ref sig .tc := ⟨.vmem, 41, rfl⟩
abbrev cc1_stg14_0 : Ref sig .tc := ⟨.vmem, 42, rfl⟩
abbrev cc1_stg15_0 : Ref sig .tc := ⟨.vmem, 43, rfl⟩
abbrev cc1_stg16_0 : Ref sig .tc := ⟨.vmem, 44, rfl⟩
abbrev cc1_stg17_0 : Ref sig .tc := ⟨.vmem, 45, rfl⟩
abbrev cc1_stg17_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem12_0 : DmaSem sig := 40
abbrev cc1_sem13_0 : DmaSem sig := 41
abbrev cc1_sem14_0 : DmaSem sig := 42
abbrev cc1_sem15_0 : DmaSem sig := 43
abbrev cc1_sem16_0 : DmaSem sig := 44
abbrev cc1_sem17_0 : DmaSem sig := 45
abbrev cc1_sem17_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8000x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S10000x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  gather_S50000x128_S400000x1_S400000x128_1_0_n_n_0_1_1128_wf : GatherDims.WF S50000x128 S400000x1 S400000x128 [1] [0] [] [0] [] 1 ![1, 128]
  dot_S8000x128_S128x128_S8000x128_1_0_0_1_n_n_wf : DotDims.WF S8000x128 S128x128 S8000x128 [1] [0] [0] [1] [] []
  scatter_S50000x128_S400000x1_S400000x128_1_0_0_1_wf : ScatterDims.WF S50000x128 S400000x1 S400000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .f32 = 32 ∨ (Rect.block (s := S400000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S400000x128.size a
  hwx0_2 : ∀ i : grid0.Coords, EltTy.bits .f32 = 32 ∨ (Rect.block (s := S400000x128) S8000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S8000x128.size a ≤ S400000x128.size a
  hwx0_19 : ∀ i : grid0.Coords, EltTy.bits .f32 = 32 ∨ (Rect.block (s := S400000x128) S8000x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S8000x128.size a ≤ S400000x128.size a
  hwx0_20 : ∀ i : grid0.Coords, EltTy.bits .f32 = 32 ∨ (Rect.block (s := S400000x128) S8000x128.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128.size a ≤ S128.size a
  hwx1_15 : ∀ i : grid1.Coords, EltTy.bits .f32 = 32 ∨ (Rect.block (s := S128) S128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128.size a ≤ S128.size a
  hwx1_16 : ∀ i : grid1.Coords, EltTy.bits .f32 = 32 ∨ (Rect.block (s := S128) S128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S10000x128.size a ≤ S50000x128.size a
  hwx1_17 : ∀ i : grid1.Coords, EltTy.bits .f32 = 32 ∨ (Rect.block (s := S50000x128) S10000x128.size (cc1_transform_17 i) (hinb1_17 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9_0) S8000x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v9_1) S8000x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg18) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg19) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg20) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg21) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg22) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg23) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg24) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg25) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg26) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg27) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg28) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg29) S128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_arg30) S128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v15) S10000x128.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S2x400000 : Shape := ⟨2, ![2, 400000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 285
  | .vmem => 0
  | .smem => 0
  | _ => 0

abbrev hbmTy0_0 (i : Nat) : BufTy := match i % 128 with
  | 0 => ⟨S50000x128, .f32⟩
  | 1 => ⟨S400000x128, .f32⟩
  | 2 => ⟨S2x400000, .i32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S256x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128, .f32⟩
  | 26 => ⟨S128, .f32⟩
  | 27 => ⟨S128, .f32⟩
  | 28 => ⟨S128, .f32⟩
  | 29 => ⟨S128, .f32⟩
  | 30 => ⟨S128, .f32⟩
  | 31 => ⟨S1x400000, .i32⟩
  | 32 => ⟨S400000, .i32⟩
  | 33 => ⟨S1x400000, .i32⟩
  | 34 => ⟨S400000, .i32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x128, .f32⟩
  | 53 => ⟨S400000x384, .f32⟩
  | 54 => ⟨S400000x128, .f32⟩
  | 55 => ⟨S1x128, .f32⟩
  | 56 => ⟨S400000x128, .f32⟩
  | 57 => ⟨S400000x128, .f32⟩
  | 58 => ⟨S_, .f32⟩
  | 59 => ⟨S400000x128, .f32⟩
  | 60 => ⟨S400000x128, .f32⟩
  | 61 => ⟨S_, .f32⟩
  | 62 => ⟨S400000, .f32⟩
  | 63 => ⟨S400000x1, .f32⟩
  | 64 => ⟨S_, .f32⟩
  | 65 => ⟨S400000x1, .f32⟩
  | 66 => ⟨S400000x1, .f32⟩
  | 67 => ⟨S400000x128, .f32⟩
  | 68 => ⟨S400000x128, .f32⟩
  | 69 => ⟨S400000x128, .f32⟩
  | 70 => ⟨S_, .f32⟩
  | 71 => ⟨S400000, .f32⟩
  | 72 => ⟨S400000x1, .f32⟩
  | 73 => ⟨S_, .f32⟩
  | 74 => ⟨S400000x1, .f32⟩
  | 75 => ⟨S400000x1, .f32⟩
  | 76 => ⟨S400000x128, .f32⟩
  | 77 => ⟨S400000x128, .f32⟩
  | 78 => ⟨S_, .f32⟩
  | 79 => ⟨S400000x1, .f32⟩
  | 80 => ⟨S400000x1, .f32⟩
  | 81 => ⟨S400000x1, .f32⟩
  | 82 => ⟨S400000x128, .f32⟩
  | 83 => ⟨S400000x128, .f32⟩
  | 84 => ⟨S1x128, .f32⟩
  | 85 => ⟨S400000x128, .f32⟩
  | 86 => ⟨S400000x128, .f32⟩
  | 87 => ⟨S1x128, .f32⟩
  | 88 => ⟨S400000x128, .f32⟩
  | 89 => ⟨S400000x128, .f32⟩
  | 90 => ⟨S400000x128, .f32⟩
  | 91 => ⟨S1x128, .f32⟩
  | 92 => ⟨S400000x128, .f32⟩
  | 93 => ⟨S400000x128, .f32⟩
  | 94 => ⟨S_, .f32⟩
  | 95 => ⟨S400000x128, .f32⟩
  | 96 => ⟨S400000x128, .f32⟩
  | 97 => ⟨S_, .f32⟩
  | 98 => ⟨S400000, .f32⟩
  | 99 => ⟨S400000x1, .f32⟩
  | 100 => ⟨S_, .f32⟩
  | 101 => ⟨S400000x1, .f32⟩
  | 102 => ⟨S400000x1, .f32⟩
  | 103 => ⟨S400000x128, .f32⟩
  | 104 => ⟨S400000x128, .f32⟩
  | 105 => ⟨S400000x128, .f32⟩
  | 106 => ⟨S_, .f32⟩
  | 107 => ⟨S400000, .f32⟩
  | 108 => ⟨S400000x1, .f32⟩
  | 109 => ⟨S_, .f32⟩
  | 110 => ⟨S400000x1, .f32⟩
  | 111 => ⟨S400000x1, .f32⟩
  | 112 => ⟨S400000x128, .f32⟩
  | 113 => ⟨S400000x128, .f32⟩
  | 114 => ⟨S_, .f32⟩
  | 115 => ⟨S400000x1, .f32⟩
  | 116 => ⟨S400000x1, .f32⟩
  | 117 => ⟨S400000x1, .f32⟩
  | 118 => ⟨S400000x128, .f32⟩
  | 119 => ⟨S400000x128, .f32⟩
  | 120 => ⟨S1x128, .f32⟩
  | 121 => ⟨S400000x128, .f32⟩
  | 122 => ⟨S400000x128, .f32⟩
  | 123 => ⟨S1x128, .f32⟩
  | 124 => ⟨S400000x128, .f32⟩
  | 125 => ⟨S400000x128, .f32⟩
  | 126 => ⟨S400000x128, .f32⟩
  | 127 => ⟨S1x128, .f32⟩
  | _ => ⟨S50000x128, .f32⟩

abbrev hbmTy0_1 (i : Nat) : BufTy := match i % 128 with
  | 0 => ⟨S400000x128, .f32⟩
  | 1 => ⟨S400000x128, .f32⟩
  | 2 => ⟨S_, .f32⟩
  | 3 => ⟨S400000x128, .f32⟩
  | 4 => ⟨S400000x128, .f32⟩
  | 5 => ⟨S_, .f32⟩
  | 6 => ⟨S400000, .f32⟩
  | 7 => ⟨S400000x1, .f32⟩
  | 8 => ⟨S_, .f32⟩
  | 9 => ⟨S400000x1, .f32⟩
  | 10 => ⟨S400000x1, .f32⟩
  | 11 => ⟨S400000x128, .f32⟩
  | 12 => ⟨S400000x128, .f32⟩
  | 13 => ⟨S400000x128, .f32⟩
  | 14 => ⟨S_, .f32⟩
  | 15 => ⟨S400000, .f32⟩
  | 16 => ⟨S400000x1, .f32⟩
  | 17 => ⟨S_, .f32⟩
  | 18 => ⟨S400000x1, .f32⟩
  | 19 => ⟨S400000x1, .f32⟩
  | 20 => ⟨S400000x128, .f32⟩
  | 21 => ⟨S400000x128, .f32⟩
  | 22 => ⟨S_, .f32⟩
  | 23 => ⟨S400000x1, .f32⟩
  | 24 => ⟨S400000x1, .f32⟩
  | 25 => ⟨S400000x1, .f32⟩
  | 26 => ⟨S400000x128, .f32⟩
  | 27 => ⟨S400000x128, .f32⟩
  | 28 => ⟨S1x128, .f32⟩
  | 29 => ⟨S400000x128, .f32⟩
  | 30 => ⟨S400000x128, .f32⟩
  | 31 => ⟨S1x128, .f32⟩
  | 32 => ⟨S400000x128, .f32⟩
  | 33 => ⟨S400000x128, .f32⟩
  | 34 => ⟨S400000x128, .f32⟩
  | 35 => ⟨S1x128, .f32⟩
  | 36 => ⟨S400000x128, .f32⟩
  | 37 => ⟨S400000x128, .f32⟩
  | 38 => ⟨S_, .f32⟩
  | 39 => ⟨S50000x128, .f32⟩
  | 40 => ⟨S400000x1, .i32⟩
  | 41 => ⟨S50000x128, .f32⟩
  | 42 => ⟨S50000x256, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .f32⟩
  | 51 => ⟨S50000, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S50000x128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S50000x1, .f32⟩
  | 69 => ⟨S50000x1, .f32⟩
  | 70 => ⟨S50000x1, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S_, .f32⟩
  | 104 => ⟨S50000x1, .f32⟩
  | 105 => ⟨S50000x1, .f32⟩
  | 106 => ⟨S50000x1, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x128, .f32⟩
  | 10 => ⟨S50000x128, .f32⟩
  | 11 => ⟨S_, .f32⟩
  | 12 => ⟨S50000x1, .f32⟩
  | 13 => ⟨S50000x1, .f32⟩
  | 14 => ⟨S50000x1, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S400000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_c_1 : Ref sig .tc := ⟨.hbm, 44, rfl⟩
abbrev main_v11 : Ref sig .tc := ⟨.hbm, 45, rfl⟩
abbrev main_v12 : Ref sig .tc := ⟨.hbm, 46, rfl⟩
abbrev main_c_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_5 : Ref sig .tc := ⟨.hbm, 70, rfl⟩
abbrev main_v32 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_8 : Ref sig .tc := ⟨.hbm, 94, rfl⟩
abbrev main_v53 : Ref sig .tc := ⟨.hbm, 95, rfl⟩
abbrev main_v54 : Ref sig .tc := ⟨.hbm, 96, rfl⟩
abbrev main_cst_9 : Ref sig .tc := ⟨.hbm, 97, rfl⟩
abbrev main_v55 : Ref sig .tc := ⟨.hbm, 98, rfl⟩
abbrev main_v56 : Ref sig .tc := ⟨.hbm, 99, rfl⟩
abbrev main_cst_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_11 : Ref sig .tc := ⟨.hbm, 106, rfl⟩
abbrev main_v62 : Ref sig .tc := ⟨.hbm, 107, rfl⟩
abbrev main_v63 : Ref sig .tc := ⟨.hbm, 108, rfl⟩
abbrev main_cst_12 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_13 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_14 : Ref sig .tc := ⟨.hbm, 130, rfl⟩
abbrev main_v83 : Ref sig .tc := ⟨.hbm, 131, rfl⟩
abbrev main_v84 : Ref sig .tc := ⟨.hbm, 132, rfl⟩
abbrev main_cst_15 : Ref sig .tc := ⟨.hbm, 133, rfl⟩
abbrev main_v85 : Ref sig .tc := ⟨.hbm, 134, rfl⟩
abbrev main_v86 : Ref sig .tc := ⟨.hbm, 135, rfl⟩
abbrev main_cst_16 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_17 : Ref sig .tc := ⟨.hbm, 142, rfl⟩
abbrev main_v92 : Ref sig .tc := ⟨.hbm, 143, rfl⟩
abbrev main_v93 : Ref sig .tc := ⟨.hbm, 144, rfl⟩
abbrev main_cst_18 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_19 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_20 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_21 : Ref sig .tc := ⟨.hbm, 175, rfl⟩
abbrev main_v121 : Ref sig .tc := ⟨.hbm, 176, rfl⟩
abbrev main_v122 : Ref sig .tc := ⟨.hbm, 177, rfl⟩
abbrev main_cst_22 : Ref sig .tc := ⟨.hbm, 178, rfl⟩
abbrev main_v123 : Ref sig .tc := ⟨.hbm, 179, rfl⟩
abbrev main_v124 : Ref sig .tc := ⟨.hbm, 180, rfl⟩
abbrev main_cst_23 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_24 : Ref sig .tc := ⟨.hbm, 187, rfl⟩
abbrev main_v130 : Ref sig .tc := ⟨.hbm, 188, rfl⟩
abbrev main_v131 : Ref sig .tc := ⟨.hbm, 189, rfl⟩
abbrev main_cst_25 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_26 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_27 : Ref sig .tc := ⟨.hbm, 211, rfl⟩
abbrev main_v151 : Ref sig .tc := ⟨.hbm, 212, rfl⟩
abbrev main_v152 : Ref sig .tc := ⟨.hbm, 213, rfl⟩
abbrev main_cst_28 : Ref sig .tc := ⟨.hbm, 214, rfl⟩
abbrev main_v153 : Ref sig .tc := ⟨.hbm, 215, rfl⟩
abbrev main_v154 : Ref sig .tc := ⟨.hbm, 216, rfl⟩
abbrev main_cst_29 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_30 : Ref sig .tc := ⟨.hbm, 223, rfl⟩
abbrev main_v160 : Ref sig .tc := ⟨.hbm, 224, rfl⟩
abbrev main_v161 : Ref sig .tc := ⟨.hbm, 225, rfl⟩
abbrev main_cst_31 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_32 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_33 : Ref sig .tc := ⟨.hbm, 247, rfl⟩
abbrev main_v181 : Ref sig .tc := ⟨.hbm, 248, rfl⟩
abbrev main_v182 : Ref sig .tc := ⟨.hbm, 249, rfl⟩
abbrev main_cst_34 : Ref sig .tc := ⟨.hbm, 250, rfl⟩
abbrev main_v183 : Ref sig .tc := ⟨.hbm, 251, rfl⟩
abbrev main_v184 : Ref sig .tc := ⟨.hbm, 252, rfl⟩
abbrev main_cst_35 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_36 : Ref sig .tc := ⟨.hbm, 259, rfl⟩
abbrev main_v190 : Ref sig .tc := ⟨.hbm, 260, rfl⟩
abbrev main_v191 : Ref sig .tc := ⟨.hbm, 261, rfl⟩
abbrev main_cst_37 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_cst_38 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRowMLP.lean ====
/-
  One row of the graph-network block, on the extended reals.

  Both programs compute, for every edge e and every node n, a four-layer perceptron of ONE row of features:
  three times (linear map, max with 0, normalisation of the 128 entries to mean 0 and variance 1 with a gain and a
  shift), then a last linear map. Nothing mixes rows except the gather of node rows into edge rows before the edge
  perceptron and the sum of edge rows into node rows after it. This module states the row functions; every later
  module reads an array-level operation of either program as one of them applied row by row.

  The literals are kept as the words both programs print (128.0 and the f32 nearest 1e-5): the same word on both
  sides is never evaluated.
-/
import Idealize.ShloMosaic.PureOps.Ideal
import Mathlib.Algebra.BigOperators.Fin

noncomputable section

open scoped BigOperators

namespace Cert.Row

open Idealize.ShloMosaic

/-- The divisor of a mean over 128 entries, as printed: the f32 word of 128.0. -/
def c128 : EReal := Ideal.ofBits .f32 0x43000000#32
/-- The variance's additive guard, as printed: the f32 word nearest 1e-5. -/
def ceps : EReal := Ideal.ofBits .f32 0x3727C5AC#32

/-- max(v, 0), entry by entry. -/
def relu {n : ℕ} (v : Fin n → EReal) : Fin n → EReal := fun j => max (v j) 0

/-- The mean of a row's 128 entries. -/
def mean (v : Fin 128 → EReal) : EReal := Ideal.div (∑ k, v k) c128

/-- The mean of the squared deviations from the mean. -/
def var (v : Fin 128 → EReal) : EReal := Ideal.div (∑ k, (v k - mean v) * (v k - mean v)) c128

/-- Normalisation of a row: (v - mean) / sqrt(var + eps), times the gain, plus the shift. -/
def lnorm (g β v : Fin 128 → EReal) : Fin 128 → EReal := fun j =>
  (v j - mean v) * Ideal.rsqrt (var v + ceps) * g j + β j

/-- A linear map of a row of n entries into 128, plus a bias. -/
def lin {n : ℕ} (W : Fin n → Fin 128 → EReal) (b : Fin 128 → EReal) (v : Fin n → EReal) : Fin 128 → EReal :=
  fun j => (∑ k, v k * W k j) + b j

/-- The weights of the perceptron after its first linear map: three normalisations and three linear maps. -/
structure Tail where
  g1 : Fin 128 → EReal
  β1 : Fin 128 → EReal
  W2 : Fin 128 → Fin 128 → EReal
  b2 : Fin 128 → EReal
  g2 : Fin 128 → EReal
  β2 : Fin 128 → EReal
  W3 : Fin 128 → Fin 128 → EReal
  b3 : Fin 128 → EReal
  g3 : Fin 128 → EReal
  β3 : Fin 128 → EReal
  W4 : Fin 128 → Fin 128 → EReal
  b4 : Fin 128 → EReal

/-- The perceptron from the first linear map's output y on. -/
def tail (T : Tail) (y : Fin 128 → EReal) : Fin 128 → EReal :=
  lin T.W4 T.b4 (lnorm T.g3 T.β3 (relu (lin T.W3 T.b3 (lnorm T.g2 T.β2 (relu (lin T.W2 T.b2 (lnorm T.g1 T.β1 (relu y))))))))

/-- Three rows of 128 side by side. -/
def cat3 (a b c : Fin 128 → EReal) : Fin 384 → EReal := fun k =>
  if h : k.val < 128 then a ⟨k.val, h⟩ else if h2 : k.val < 256 then b ⟨k.val - 128, by omega⟩ else c ⟨k.val - 256, by omega⟩

/-- Two rows of 128 side by side. -/
def cat2 (a b : Fin 128 → EReal) : Fin 256 → EReal := fun k =>
  if h : k.val < 128 then a ⟨k.val, h⟩ else b ⟨k.val - 128, by omega⟩

/-- The first linear map of the edge perceptron as the reference has it: one map of the 384 concatenated entries. -/
def first3 (W : Fin 384 → Fin 128 → EReal) (b : Fin 128 → EReal) (x y z : Fin 128 → EReal) : Fin 128 → EReal :=
  lin W b (cat3 x y z)

/-- The same as the kernel has it: three maps of 128 entries by the three row blocks of W, summed, plus the bias. -/
def first3split (W : Fin 384 → Fin 128 → EReal) (b : Fin 128 → EReal) (x y z : Fin 128 → EReal) : Fin 128 → EReal :=
  fun j => (∑ k : Fin 128, x k * W ⟨k.val, by omega⟩ j) + (∑ k : Fin 128, y k * W ⟨k.val + 128, by omega⟩ j)
    + (∑ k : Fin 128, z k * W ⟨k.val + 256, by omega⟩ j) + b j

def first2 (W : Fin 256 → Fin 128 → EReal) (b : Fin 128 → EReal) (x y : Fin 128 → EReal) : Fin 128 → EReal :=
  lin W b (cat2 x y)

def first2split (W : Fin 256 → Fin 128 → EReal) (b : Fin 128 → EReal) (x y : Fin 128 → EReal) : Fin 128 → EReal :=
  fun j => (∑ k : Fin 128, x k * W ⟨k.val, by omega⟩ j) + (∑ k : Fin 128, y k * W ⟨k.val + 128, by omega⟩ j) + b j

/-- The kernel's first edge map with its three weight blocks given separately. -/
def first3parts (Wa Wb Wc : Fin 128 → Fin 128 → EReal) (b : Fin 128 → EReal) (x y z : Fin 128 → EReal) : Fin 128 → EReal :=
  fun j => (∑ k : Fin 128, x k * Wa k j) + (∑ k : Fin 128, y k * Wb k j) + (∑ k : Fin 128, z k * Wc k j) + b j

/-- The kernel's first node map with its two weight blocks given separately. -/
def first2parts (Wa Wb : Fin 128 → Fin 128 → EReal) (b : Fin 128 → EReal) (x y : Fin 128 → EReal) : Fin 128 → EReal :=
  fun j => (∑ k : Fin 128, x k * Wa k j) + (∑ k : Fin 128, y k * Wb k j) + b j

/-- With the blocks cut out of one [384, 128] weight at rows 0, 128 and 256, the block form is the split form. -/
theorem first3parts_blocks (W : Fin 384 → Fin 128 → EReal) (b x y z : Fin 128 → EReal) :
    first3parts (fun k j => W ⟨k.val, by omega⟩ j) (fun k j => W ⟨k.val + 128, by omega⟩ j)
      (fun k j => W ⟨k.val + 256, by omega⟩ j) b x y z = first3split W b x y z := rfl

theorem first2parts_blocks (W : Fin 256 → Fin 128 → EReal) (b x y : Fin 128 → EReal) :
    first2parts (fun k j => W ⟨k.val, by omega⟩ j) (fun k j => W ⟨k.val + 128, by omega⟩ j) b x y
      = first2split W b x y := rfl

/-- A sum over 256 = 128 + 128 entries splits at 128. -/
theorem sum256 (f : Fin 256 → EReal) :
    ∑ k : Fin 256, f k = (∑ k : Fin 128, f ⟨k.val, by omega⟩) + ∑ k : Fin 128, f ⟨k.val + 128, by omega⟩ := by
  have h := Fin.sum_univ_add (a := 128) (b := 128) (fun k => f (Fin.cast (by norm_num) k))
  have e : ∑ k : Fin 256, f k = ∑ k : Fin (128 + 128), f (Fin.cast (by norm_num) k) :=
    (Fintype.sum_equiv (finCongr (by norm_num : 128 + 128 = 256)) _ _ (fun k => by simp)).symm
  rw [e, h]
  refine congrArg₂ (· + ·) (Finset.sum_congr rfl fun k _ => congrArg f (Fin.ext rfl))
    (Finset.sum_congr rfl fun k _ => congrArg f (Fin.ext ?_))
  simp [Fin.natAdd, Nat.add_comm]

/-- A sum over 384 = 128 + 128 + 128 entries splits at 128 and 256. -/
theorem sum384 (f : Fin 384 → EReal) :
    ∑ k : Fin 384, f k = (∑ k : Fin 128, f ⟨k.val, by omega⟩) + (∑ k : Fin 128, f ⟨k.val + 128, by omega⟩)
      + ∑ k : Fin 128, f ⟨k.val + 256, by omega⟩ := by
  have h := Fin.sum_univ_add (a := 256) (b := 128) (fun k => f (Fin.cast (by norm_num) k))
  have e : ∑ k : Fin 384, f k = ∑ k : Fin (256 + 128), f (Fin.cast (by norm_num) k) :=
    (Fintype.sum_equiv (finCongr (by norm_num : 256 + 128 = 384)) _ _ (fun k => by simp)).symm
  rw [e, h, sum256 (fun k => f (Fin.cast (by norm_num) (Fin.castAdd 128 k)))]
  refine congrArg₂ (· + ·) (congrArg₂ (· + ·) (Finset.sum_congr rfl fun k _ => congrArg f (Fin.ext rfl))
    (Finset.sum_congr rfl fun k _ => congrArg f (Fin.ext rfl)))
    (Finset.sum_congr rfl fun k _ => congrArg f (Fin.ext ?_))
  simp [Fin.natAdd, Nat.add_comm]

/-- The first edge map is the same whether W is applied whole to the concatenation or block by block: a sum over 384
    entries split at 128 and 256. Only associativity of + on the extended reals is used. -/
theorem first3_eq (W : Fin 384 → Fin 128 → EReal) (b x y z : Fin 128 → EReal) : first3 W b x y z = first3split W b x y z := by
  funext j
  unfold first3 first3split lin
  rw [sum384]
  refine congrArg (· + b j) (congrArg₂ (· + ·) (congrArg₂ (· + ·) ?_ ?_) ?_) <;>
    refine Finset.sum_congr rfl fun k _ => ?_
  · have hk : k.val < 128 := k.isLt
    simp only [cat3, hk, dite_true, Fin.eta]
  · have hk : k.val < 128 := k.isLt
    have h1 : ¬ (k.val + 128 < 128) := by omega
    have h2 : k.val + 128 < 256 := by omega
    simp only [cat3, h1, h2, dite_false, dite_true, Nat.add_sub_cancel, Fin.eta]
  · have hk : k.val < 128 := k.isLt
    have h1 : ¬ (k.val + 256 < 128) := by omega
    have h2 : ¬ (k.val + 256 < 256) := by omega
    simp only [cat3, h1, h2, dite_false, Nat.add_sub_cancel, Fin.eta]

theorem first2_eq (W : Fin 256 → Fin 128 → EReal) (b x y : Fin 128 → EReal) : first2 W b x y = first2split W b x y := by
  funext j
  unfold first2 first2split lin
  rw [sum256]
  refine congrArg (· + b j) (congrArg₂ (· + ·) ?_ ?_) <;>
    refine Finset.sum_congr rfl fun k _ => ?_
  · have hk : k.val < 128 := k.isLt
    simp only [cat2, hk, dite_true, Fin.eta]
  · have hk : k.val < 128 := k.isLt
    have h1 : ¬ (k.val + 128 < 128) := by omega
    simp only [cat2, h1, dite_false, Nat.add_sub_cancel, Fin.eta]

end Cert.Row

end
-- ==== Proof.LibRowLayersHost.lean ====
/-
  The reference's layers, read row by row.

  The reference applies the same layers to whole [R, 128] arrays with host operations: a max with a broadcast zero;
  a sum over the columns from a zero initial value, laid as an [R, 1] column and divided by 128 (the mean), the same of
  the squared centred values (the variance), the reciprocal square root of variance + eps laid back along the row, a
  gain and a shift laid down the rows; a dot_general with a [K, 128] weight plus a bias laid down the rows; and, for
  each perceptron's first layer, a dot_general of the concatenation of two or three [R, 128] arrays along the
  columns. Each is defined here as the reference spells it, over any number of rows R, and read at entry (p, q) as the
  row function of LibRowMLP applied to row p. Rows never mix.
-/
import proofs.«419719_j17008070492485_2_alg».proof.Proof.LibRowMLP
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.HLayer

open Idealize.ShloMosaic Idealize.ShloMosaic.ValueIdx

variable {R : ℕ}

abbrev S0 : Shape := ⟨0, ![]⟩

/-- max(x, 0) on an array. -/
def hRelu (b0 : S0.BroadcastsInDim ⟨2, ![R, 128]⟩ (![] : Fin 0 → Fin 2))
    (x : FVec Ideal ⟨2, ![R, 128]⟩ .f32) : FVec Ideal ⟨2, ![R, 128]⟩ .f32 :=
  maximumf x (broadcastInDim ⟨2, ![R, 128]⟩ ![] b0 (constant (F := Ideal) S0 .f32 0x00000000#32))

/-- The column of row sums divided by 128, of any [R, 128] array y (the mean when y = x, the variance when y is the
    squared centred value). -/
def hAvg (rt : (⟨2, ![R, 128]⟩ : Shape).ReducesTo [1] ⟨1, ![R]⟩) (h0 : 0 < S0.numel)
    (bcol : (⟨1, ![R]⟩ : Shape).BroadcastsInDim ⟨2, ![R, 1]⟩ (![0] : Fin 1 → Fin 2))
    (b01 : S0.BroadcastsInDim ⟨2, ![R, 1]⟩ (![] : Fin 0 → Fin 2))
    (y : FVec Ideal ⟨2, ![R, 128]⟩ .f32) : FVec Ideal ⟨2, ![R, 1]⟩ .f32 :=
  Host.divf (broadcastInDim ⟨2, ![R, 1]⟩ ![0] bcol (Host.reduceAdd y (constant (F := Ideal) S0 .f32 0x00000000#32) rt h0))
    (broadcastInDim ⟨2, ![R, 1]⟩ ![] b01 (constant (F := Ideal) S0 .f32 0x43000000#32))

/-- The centred array: x minus its mean column laid along the rows. -/
def hCen (brow : (⟨2, ![R, 1]⟩ : Shape).BroadcastsInDim ⟨2, ![R, 128]⟩ (![0, 1] : Fin 2 → Fin 2))
    (x : FVec Ideal ⟨2, ![R, 128]⟩ .f32) (mu : FVec Ideal ⟨2, ![R, 1]⟩ .f32) : FVec Ideal ⟨2, ![R, 128]⟩ .f32 :=
  subf x (broadcastInDim ⟨2, ![R, 128]⟩ ![0, 1] brow mu)

/-- A weight row laid down the R rows: [128] to [1, 128] to [R, 128]. -/
def hRowB (b1 : (⟨1, ![128]⟩ : Shape).BroadcastsInDim ⟨2, ![1, 128]⟩ (![1] : Fin 1 → Fin 2))
    (b2 : (⟨2, ![1, 128]⟩ : Shape).BroadcastsInDim ⟨2, ![R, 128]⟩ (![0, 1] : Fin 2 → Fin 2))
    (g : FVec Ideal ⟨1, ![128]⟩ .f32) : FVec Ideal ⟨2, ![R, 128]⟩ .f32 :=
  broadcastInDim ⟨2, ![R, 128]⟩ ![0, 1] b2 (broadcastInDim ⟨2, ![1, 128]⟩ ![1] b1 g)

/-- The normalisation from its named pieces: x, its mean column mu, and the centred array cen whose squares give the variance. -/
def hNormFrom (rt : (⟨2, ![R, 128]⟩ : Shape).ReducesTo [1] ⟨1, ![R]⟩) (h0 : 0 < S0.numel)
    (bcol : (⟨1, ![R]⟩ : Shape).BroadcastsInDim ⟨2, ![R, 1]⟩ (![0] : Fin 1 → Fin 2))
    (b01 : S0.BroadcastsInDim ⟨2, ![R, 1]⟩ (![] : Fin 0 → Fin 2))
    (brow : (⟨2, ![R, 1]⟩ : Shape).BroadcastsInDim ⟨2, ![R, 128]⟩ (![0, 1] : Fin 2 → Fin 2))
    (b1 : (⟨1, ![128]⟩ : Shape).BroadcastsInDim ⟨2, ![1, 128]⟩ (![1] : Fin 1 → Fin 2))
    (b2 : (⟨2, ![1, 128]⟩ : Shape).BroadcastsInDim ⟨2, ![R, 128]⟩ (![0, 1] : Fin 2 → Fin 2))
    (x : FVec Ideal ⟨2, ![R, 128]⟩ .f32) (mu : FVec Ideal ⟨2, ![R, 1]⟩ .f32) (cen : FVec Ideal ⟨2, ![R, 128]⟩ .f32)
    (g β : FVec Ideal ⟨1, ![128]⟩ .f32) : FVec Ideal ⟨2, ![R, 128]⟩ .f32 :=
  addf (mulf (mulf (subf x (broadcastInDim ⟨2, ![R, 128]⟩ ![0, 1] brow mu))
      (broadcastInDim ⟨2, ![R, 128]⟩ ![0, 1] brow
        (Host.rsqrt (addf (hAvg rt h0 bcol b01 (mulf cen cen))
          (broadcastInDim ⟨2, ![R, 1]⟩ ![] b01 (constant (F := Ideal) S0 .f32 0x3727C5AC#32))))))
      (hRowB b1 b2 g)) (hRowB b1 b2 β)

/-- A linear layer: dot_general with a [K, 128] weight plus the bias laid down the rows. -/
def hLin {K : ℕ} (w : DotDims.WF ⟨2, ![R, K]⟩ ⟨2, ![K, 128]⟩ ⟨2, ![R, 128]⟩ [1] [0] [0] [1] [] [])
    (b1 : (⟨1, ![128]⟩ : Shape).BroadcastsInDim ⟨2, ![1, 128]⟩ (![1] : Fin 1 → Fin 2))
    (b2 : (⟨2, ![1, 128]⟩ : Shape).BroadcastsInDim ⟨2, ![R, 128]⟩ (![0, 1] : Fin 2 → Fin 2))
    (x : FVec Ideal ⟨2, ![R, K]⟩ .f32) (W : FVec Ideal ⟨2, ![K, 128]⟩ .f32) (b : FVec Ideal ⟨1, ![128]⟩ .f32) :
    FVec Ideal ⟨2, ![R, 128]⟩ .f32 :=
  addf (Host.dotGeneral (⟨[1], [0], [0], [1], [], [], w⟩ : DotDims ⟨2, ![R, K]⟩ ⟨2, ![K, 128]⟩ ⟨2, ![R, 128]⟩) none x W)
    (hRowB b1 b2 b)

/-- Three [R, 128] arrays side by side. -/
def hCat3 (cc : Shape.Concatenates [(⟨2, ![R, 128]⟩ : Shape), ⟨2, ![R, 128]⟩, ⟨2, ![R, 128]⟩] ⟨2, ![R, 384]⟩ 1)
    (a b c : FVec Ideal ⟨2, ![R, 128]⟩ .f32) : FVec Ideal ⟨2, ![R, 384]⟩ .f32 :=
  concatenate ⟨2, ![R, 384]⟩ 1 [⟨⟨2, ![R, 128]⟩, a⟩, ⟨⟨2, ![R, 128]⟩, b⟩, ⟨⟨2, ![R, 128]⟩, c⟩] cc

/-- Two [R, 128] arrays side by side. -/
def hCat2 (cc : Shape.Concatenates [(⟨2, ![R, 128]⟩ : Shape), ⟨2, ![R, 128]⟩] ⟨2, ![R, 256]⟩ 1)
    (a b : FVec Ideal ⟨2, ![R, 128]⟩ .f32) : FVec Ideal ⟨2, ![R, 256]⟩ .f32 :=
  concatenate ⟨2, ![R, 256]⟩ 1 [⟨⟨2, ![R, 128]⟩, a⟩, ⟨⟨2, ![R, 128]⟩, b⟩] cc

/-! ## Read at an entry -/

/-- A rank-0 constant laid over any shape reads the constant's value everywhere. -/
theorem bcast0_const {T : Shape} (h : S0.BroadcastsInDim T (![] : Fin 0 → Fin T.rank)) (c : BitVec 32) (j : T.Idx) :
    broadcastInDim T ![] h (constant (F := Ideal) S0 .f32 c) j = Ideal.ofBits .f32 c := rfl

/-- An [R, 1] column laid along the 128 columns reads, at (p, q), the column's entry at row p. -/
theorem browB_apply (brow : (⟨2, ![R, 1]⟩ : Shape).BroadcastsInDim ⟨2, ![R, 128]⟩ (![0, 1] : Fin 2 → Fin 2))
    (m : FVec Ideal ⟨2, ![R, 1]⟩ .f32) (p : Fin R) (q : Fin 128) :
    broadcastInDim ⟨2, ![R, 128]⟩ ![0, 1] brow m (ix2 p q) = m (ix2 p (0 : Fin 1)) := by
  refine broadcastInDim_apply ![0, 1] brow m (ix2 p q) (ix2 p (0 : Fin 1)) fun a => ?_
  match a with
  | ⟨0, _⟩ =>
    show p.val = if R = 1 then 0 else p.val
    split
    · have := p.isLt; omega
    · rfl
  | ⟨1, _⟩ =>
    show (0 : ℕ) = if (1 : ℕ) = 1 then 0 else q.val
    simp

/-- A vector of R entries laid as an [R, 1] column reads, at (p, u), the vector at p. -/
theorem bcolB_apply (bcol : (⟨1, ![R]⟩ : Shape).BroadcastsInDim ⟨2, ![R, 1]⟩ (![0] : Fin 1 → Fin 2))
    (v : FVec Ideal ⟨1, ![R]⟩ .f32) (p : Fin R) (u : Fin 1) :
    broadcastInDim ⟨2, ![R, 1]⟩ ![0] bcol v (ix2 p u) = v (ix1 p) := by
  refine broadcastInDim_apply ![0] bcol v (ix2 p u) (ix1 p) fun a => ?_
  match a with
  | ⟨0, _⟩ =>
    show p.val = if R = 1 then 0 else p.val
    split
    · have := p.isLt; omega
    · rfl

theorem hRelu_apply (b0 : S0.BroadcastsInDim ⟨2, ![R, 128]⟩ (![] : Fin 0 → Fin 2))
    (x : FVec Ideal ⟨2, ![R, 128]⟩ .f32) (p : Fin R) (q : Fin 128) :
    hRelu b0 x (ix2 p q) = Row.relu (fun k => x (ix2 p k)) q := by
  unfold hRelu Row.relu
  rw [maximumf_apply, bcast0_const, Ideal.ofBits_zero_f32]

/-- The index a sum over the columns inserts: row p, column k. -/
theorem lift_row (h : (⟨2, ![R, 128]⟩ : Shape).Reduces [1] ⟨1, ![R]⟩) (p : Fin R) (k : Fin 128) :
    h.lift (ix1 p) k = ix2 p k := by
  funext c
  apply Fin.ext
  match c with
  | ⟨0, _⟩ => rfl
  | ⟨1, _⟩ => rfl

/-- The row average: (sum of row p of y) / 128. -/
theorem hAvg_apply (rt : (⟨2, ![R, 128]⟩ : Shape).ReducesTo [1] ⟨1, ![R]⟩) (h0 : 0 < S0.numel)
    (bcol : (⟨1, ![R]⟩ : Shape).BroadcastsInDim ⟨2, ![R, 1]⟩ (![0] : Fin 1 → Fin 2))
    (b01 : S0.BroadcastsInDim ⟨2, ![R, 1]⟩ (![] : Fin 0 → Fin 2))
    (y : FVec Ideal ⟨2, ![R, 128]⟩ .f32) (p : Fin R) (u : Fin 1) :
    hAvg rt h0 bcol b01 y (ix2 p u) = Ideal.div (∑ k : Fin 128, y (ix2 p k)) Row.c128 := by
  have hR : (⟨2, ![R, 128]⟩ : Shape).Reduces [1] ⟨1, ![R]⟩ := ⟨rt.1, Nat.one_pos, rt.2⟩
  unfold hAvg Row.c128
  show Ideal.div _ _ = _
  rw [bcolB_apply, bcast0_const]
  refine congrArg (fun z => Ideal.div z _) ?_
  show Ideal.hostReduceAdd rt y (Ideal.ofBits .f32 0x00000000#32) (ix1 p) = _
  rw [Ideal.hostReduceAdd_single rt hR, Ideal.ofBits_zero_f32, zero_add]
  exact Finset.sum_congr rfl fun k _ => congrArg y (lift_row hR p k)

theorem hCen_apply (brow : (⟨2, ![R, 1]⟩ : Shape).BroadcastsInDim ⟨2, ![R, 128]⟩ (![0, 1] : Fin 2 → Fin 2))
    (x : FVec Ideal ⟨2, ![R, 128]⟩ .f32) (mu : FVec Ideal ⟨2, ![R, 1]⟩ .f32) (p : Fin R) (q : Fin 128) :
    hCen brow x mu (ix2 p q) = x (ix2 p q) - mu (ix2 p (0 : Fin 1)) := by
  unfold hCen
  rw [subf_apply, browB_apply]

theorem hRowB_apply (b1 : (⟨1, ![128]⟩ : Shape).BroadcastsInDim ⟨2, ![1, 128]⟩ (![1] : Fin 1 → Fin 2))
    (b2 : (⟨2, ![1, 128]⟩ : Shape).BroadcastsInDim ⟨2, ![R, 128]⟩ (![0, 1] : Fin 2 → Fin 2))
    (g : FVec Ideal ⟨1, ![128]⟩ .f32) (p : Fin R) (q : Fin 128) : hRowB b1 b2 g (ix2 p q) = g (ix1 q) := by
  unfold hRowB
  refine (broadcastInDim_apply ![0, 1] b2 _ (ix2 p q) (ix2 (0 : Fin 1) q) fun a => ?_).trans
    (broadcastInDim_apply ![1] b1 g (ix2 (0 : Fin 1) q) (ix1 q) fun a => ?_)
  · match a with
    | ⟨0, _⟩ =>
      show (0 : ℕ) = if (1 : ℕ) = 1 then 0 else p.val
      simp
    | ⟨1, _⟩ =>
      show q.val = if (128 : ℕ) = 1 then 0 else q.val
      simp
  · match a with
    | ⟨0, _⟩ =>
      show q.val = if (128 : ℕ) = 1 then 0 else q.val
      simp

/-- With mu the mean column of x and cen the centred x, the pieces assemble to the row normalisation. -/
theorem hNorm_apply (rt : (⟨2, ![R, 128]⟩ : Shape).ReducesTo [1] ⟨1, ![R]⟩) (h0 : 0 < S0.numel)
    (bcol : (⟨1, ![R]⟩ : Shape).BroadcastsInDim ⟨2, ![R, 1]⟩ (![0] : Fin 1 → Fin 2))
    (b01 : S0.BroadcastsInDim ⟨2, ![R, 1]⟩ (![] : Fin 0 → Fin 2))
    (brow : (⟨2, ![R, 1]⟩ : Shape).BroadcastsInDim ⟨2, ![R, 128]⟩ (![0, 1] : Fin 2 → Fin 2))
    (b1 : (⟨1, ![128]⟩ : Shape).BroadcastsInDim ⟨2, ![1, 128]⟩ (![1] : Fin 1 → Fin 2))
    (b2 : (⟨2, ![1, 128]⟩ : Shape).BroadcastsInDim ⟨2, ![R, 128]⟩ (![0, 1] : Fin 2 → Fin 2))
    (x : FVec Ideal ⟨2, ![R, 128]⟩ .f32) (g β : FVec Ideal ⟨1, ![128]⟩ .f32) (p : Fin R) (q : Fin 128) :
    hNormFrom rt h0 bcol b01 brow b1 b2 x (hAvg rt h0 bcol b01 x) (hCen brow x (hAvg rt h0 bcol b01 x)) g β (ix2 p q)
      = Row.lnorm (fun k => g (ix1 k)) (fun k => β (ix1 k)) (fun k => x (ix2 p k)) q := by
  have hmean : hAvg rt h0 bcol b01 x (ix2 p (0 : Fin 1)) = Row.mean (fun k => x (ix2 p k)) := by
    rw [hAvg_apply]; rfl
  have hvar : hAvg rt h0 bcol b01 (mulf (hCen brow x (hAvg rt h0 bcol b01 x)) (hCen brow x (hAvg rt h0 bcol b01 x)))
      (ix2 p (0 : Fin 1)) = Row.var (fun k => x (ix2 p k)) := by
    rw [hAvg_apply]
    unfold Row.var
    refine congrArg (fun z => Ideal.div z Row.c128) (Finset.sum_congr rfl fun k _ => ?_)
    rw [mulf_apply, hCen_apply, hmean]
  unfold hNormFrom Row.lnorm
  rw [addf_apply, mulf_apply, mulf_apply, subf_apply, hRowB_apply, hRowB_apply, browB_apply, browB_apply, hmean]
  show (_ - _) * Ideal.rsqrt (hAvg rt h0 bcol b01 _ (ix2 p (0 : Fin 1)) + Ideal.ofBits .f32 0x3727C5AC#32) * _ + _ = _
  rw [hvar]
  rfl

/-- The host's product of an [R, K] array with a [K, 128] array (the left operand's last axis against the right
    operand's first), at (p, q): the sum over the contracted coordinate. -/
theorem hDot_apply {K : ℕ} (w : DotDims.WF ⟨2, ![R, K]⟩ ⟨2, ![K, 128]⟩ ⟨2, ![R, 128]⟩ [1] [0] [0] [1] [] [])
    (x : FVec Ideal ⟨2, ![R, K]⟩ .f32) (W : FVec Ideal ⟨2, ![K, 128]⟩ .f32) (p : Fin R) (q : Fin 128) :
    Host.dotGeneral (⟨[1], [0], [0], [1], [], [], w⟩ : DotDims ⟨2, ![R, K]⟩ ⟨2, ![K, 128]⟩ ⟨2, ![R, 128]⟩) none x W (ix2 p q)
      = ∑ c : Fin K, x (ix2 p c) * W (ix2 c q) := by
  show FloatOps.dotGeneral _ none .single x W (ix2 p q) = _
  rw [Ideal.dotGeneral_apply,
    ← Equiv.sum_comp (contrEquiv1 (⟨[1], [0], [0], [1], [], [], w⟩ : DotDims ⟨2, ![R, K]⟩ ⟨2, ![K, 128]⟩ ⟨2, ![R, 128]⟩) K rfl rfl).symm]
  refine Finset.sum_congr rfl fun c _ => ?_
  have c2 := contrEquiv1_symm_val
    (⟨[1], [0], [0], [1], [], [], w⟩ : DotDims ⟨2, ![R, K]⟩ ⟨2, ![K, 128]⟩ ⟨2, ![R, 128]⟩) K rfl rfl c
  have l2 : (⟨[1], [0], [0], [1], [], [], w⟩ : DotDims ⟨2, ![R, K]⟩ ⟨2, ![K, 128]⟩ ⟨2, ![R, 128]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![R, K]⟩ ⟨2, ![K, 128]⟩ ⟨2, ![R, 128]⟩).rhsIdx (ix2 p q)
      ((contrEquiv1 _ K rfl rfl).symm c) = ix2 c q := by
    funext ax; apply Fin.ext
    match ax with
    | ⟨0, _⟩ => simp [DotDims.rhsIdx]; exact c2
    | ⟨1, _⟩ => simp [DotDims.rhsIdx]; rfl
  rw [l2, r2]

theorem hLin_apply {K : ℕ} (w : DotDims.WF ⟨2, ![R, K]⟩ ⟨2, ![K, 128]⟩ ⟨2, ![R, 128]⟩ [1] [0] [0] [1] [] [])
    (b1 : (⟨1, ![128]⟩ : Shape).BroadcastsInDim ⟨2, ![1, 128]⟩ (![1] : Fin 1 → Fin 2))
    (b2 : (⟨2, ![1, 128]⟩ : Shape).BroadcastsInDim ⟨2, ![R, 128]⟩ (![0, 1] : Fin 2 → Fin 2))
    (x : FVec Ideal ⟨2, ![R, K]⟩ .f32) (W : FVec Ideal ⟨2, ![K, 128]⟩ .f32) (b : FVec Ideal ⟨1, ![128]⟩ .f32)
    (p : Fin R) (q : Fin 128) :
    hLin w b1 b2 x W b (ix2 p q) = Row.lin (fun k j => W (ix2 k j)) (fun j => b (ix1 j)) (fun k => x (ix2 p k)) q := by
  unfold hLin Row.lin
  rw [addf_apply, hRowB_apply, hDot_apply]

theorem hCat3_apply (cc : Shape.Concatenates [(⟨2, ![R, 128]⟩ : Shape), ⟨2, ![R, 128]⟩, ⟨2, ![R, 128]⟩] ⟨2, ![R, 384]⟩ 1)
    (a b c : FVec Ideal ⟨2, ![R, 128]⟩ .f32) (p : Fin R) (k : Fin 384) :
    hCat3 cc a b c (ix2 p k) = Row.cat3 (fun j => a (ix2 p j)) (fun j => b (ix2 p j)) (fun j => c (ix2 p j)) k := by
  unfold hCat3 Row.cat3
  by_cases h1 : k.val < 128
  · rw [dif_pos h1]
    refine concatenate_apply_piece (t := ⟨2, ![R, 384]⟩) (1 : Fin 2) [⟨⟨2, ![R, 128]⟩, a⟩, ⟨⟨2, ![R, 128]⟩, b⟩, ⟨⟨2, ![R, 128]⟩, c⟩] cc (ix2 p k) 0 (show (0 : ℕ) < 3 by omega) ⟨2, ![R, 128]⟩ a rfl rfl 0 rfl
      (ix2 p ⟨k.val, h1⟩) (fun ax hax => ?_) ?_
    · match ax with
      | ⟨0, _⟩ => rfl
      | ⟨1, _⟩ => exact absurd rfl hax
    · show 0 + k.val = k.val
      omega
  · rw [dif_neg h1]
    by_cases h2 : k.val < 256
    · rw [dif_pos h2]
      refine concatenate_apply_piece (t := ⟨2, ![R, 384]⟩) (1 : Fin 2) [⟨⟨2, ![R, 128]⟩, a⟩, ⟨⟨2, ![R, 128]⟩, b⟩, ⟨⟨2, ![R, 128]⟩, c⟩] cc (ix2 p k) 1 (show (1 : ℕ) < 3 by omega) ⟨2, ![R, 128]⟩ b rfl rfl 128 rfl
        (ix2 p ⟨k.val - 128, by omega⟩) (fun ax hax => ?_) ?_
      · match ax with
        | ⟨0, _⟩ => rfl
        | ⟨1, _⟩ => exact absurd rfl hax
      · show 128 + (k.val - 128) = k.val
        omega
    · rw [dif_neg h2]
      refine concatenate_apply_piece (t := ⟨2, ![R, 384]⟩) (1 : Fin 2) [⟨⟨2, ![R, 128]⟩, a⟩, ⟨⟨2, ![R, 128]⟩, b⟩, ⟨⟨2, ![R, 128]⟩, c⟩] cc (ix2 p k) 2 (show (2 : ℕ) < 3 by omega) ⟨2, ![R, 128]⟩ c rfl rfl 256 rfl
        (ix2 p ⟨k.val - 256, by have := k.isLt; omega⟩) (fun ax hax => ?_) ?_
      · match ax with
        | ⟨0, _⟩ => rfl
        | ⟨1, _⟩ => exact absurd rfl hax
      · show 256 + (k.val - 256) = k.val
        omega

theorem hCat2_apply (cc : Shape.Concatenates [(⟨2, ![R, 128]⟩ : Shape), ⟨2, ![R, 128]⟩] ⟨2, ![R, 256]⟩ 1)
    (a b : FVec Ideal ⟨2, ![R, 128]⟩ .f32) (p : Fin R) (k : Fin 256) :
    hCat2 cc a b (ix2 p k) = Row.cat2 (fun j => a (ix2 p j)) (fun j => b (ix2 p j)) k := by
  unfold hCat2 Row.cat2
  by_cases h1 : k.val < 128
  · rw [dif_pos h1]
    refine concatenate_pair_apply_left (1 : Fin 2) a b cc (ix2 p k) rfl (ix2 p ⟨k.val, h1⟩) fun ax => ?_
    match ax with
    | ⟨0, _⟩ => rfl
    | ⟨1, _⟩ => rfl
  · rw [dif_neg h1]
    refine concatenate_pair_apply_right (1 : Fin 2) a b cc (ix2 p k) rfl rfl (ix2 p ⟨k.val - 128, by have := k.isLt; omega⟩)
      (fun ax hax => ?_) ?_
    · match ax with
      | ⟨0, _⟩ => rfl
      | ⟨1, _⟩ => exact absurd rfl hax
    · show (k.val - 128) + 128 = k.val
      omega

end Cert.HLayer

end
-- ==== Proof.Spec.lean ====
/-
  The two results of the graph-network block as functions of the argument arrays.

  With x the [50000, 128] node features, ea the [400000, 128] edge features, xs and xd the node rows gathered at each
  edge's source and destination, and "sum" the operation that adds each edge's new row into its destination node's row:
    new(e)   = edge perceptron of the row (ea(e), xs(e), xd(e))
    result 1 = ea + new                                   (one row per edge)
    agg      = sum of new over the edges, by destination  (one row per node)
    result 0 = x + node perceptron of the row (x(n), agg(n))
  The gather and the sum enter only as given arrays and a given function: both programs apply the same ones.
-/
import proofs.«419719_j17008070492485_2_alg».proof.Proof.LibRowMLP
import Idealize.ShloMosaic.Lib.ValueIdx

noncomputable section

namespace Cert.Spec

open Idealize.ShloMosaic Idealize.ShloMosaic.ValueIdx

/-- Row i of an [R, C] array. -/
def row {R C : ℕ} (A : (⟨2, ![R, C]⟩ : Shape).Idx → EReal) (i : Fin R) : Fin C → EReal := fun k => A (ix2 i k)
/-- A [n] array as a row. -/
def vec {n : ℕ} (v : (⟨1, ![n]⟩ : Shape).Idx → EReal) : Fin n → EReal := fun k => v (ix1 k)
/-- A [K, 128] array as a family of rows. -/
def mat {K : ℕ} (W : (⟨2, ![K, 128]⟩ : Shape).Idx → EReal) : Fin K → Fin 128 → EReal := fun k j => W (ix2 k j)

/-- The weights of a perceptron after its first linear map, as arrays. -/
structure TailW where
  g1 : (⟨1, ![128]⟩ : Shape).Idx → EReal
  β1 : (⟨1, ![128]⟩ : Shape).Idx → EReal
  W2 : (⟨2, ![128, 128]⟩ : Shape).Idx → EReal
  b2 : (⟨1, ![128]⟩ : Shape).Idx → EReal
  g2 : (⟨1, ![128]⟩ : Shape).Idx → EReal
  β2 : (⟨1, ![128]⟩ : Shape).Idx → EReal
  W3 : (⟨2, ![128, 128]⟩ : Shape).Idx → EReal
  b3 : (⟨1, ![128]⟩ : Shape).Idx → EReal
  g3 : (⟨1, ![128]⟩ : Shape).Idx → EReal
  β3 : (⟨1, ![128]⟩ : Shape).Idx → EReal
  W4 : (⟨2, ![128, 128]⟩ : Shape).Idx → EReal
  b4 : (⟨1, ![128]⟩ : Shape).Idx → EReal

def TailW.rows (T : TailW) : Row.Tail :=
  ⟨vec T.g1, vec T.β1, mat T.W2, vec T.b2, vec T.g2, vec T.β2, mat T.W3, vec T.b3, vec T.g3, vec T.β3, mat T.W4, vec T.b4⟩

/-- Row e of the new edge features. -/
def edgeRow (W1 : (⟨2, ![384, 128]⟩ : Shape).Idx → EReal) (b1 : (⟨1, ![128]⟩ : Shape).Idx → EReal) (T : TailW)
    (ea xs xd : Fin 128 → EReal) : Fin 128 → EReal :=
  Row.tail T.rows (Row.first3 (mat W1) (vec b1) ea xs xd)

/-- Row n of the node perceptron's output. -/
def nodeRow (W1 : (⟨2, ![256, 128]⟩ : Shape).Idx → EReal) (b1 : (⟨1, ![128]⟩ : Shape).Idx → EReal) (T : TailW)
    (x agg : Fin 128 → EReal) : Fin 128 → EReal :=
  Row.tail T.rows (Row.first2 (mat W1) (vec b1) x agg)

/-- The new edge features, an [E, 128] array. -/
def edgeNew {E : ℕ} (W1 : (⟨2, ![384, 128]⟩ : Shape).Idx → EReal) (b1 : (⟨1, ![128]⟩ : Shape).Idx → EReal) (T : TailW)
    (EA XS XD : (⟨2, ![E, 128]⟩ : Shape).Idx → EReal) : (⟨2, ![E, 128]⟩ : Shape).Idx → EReal :=
  fun idx => edgeRow W1 b1 T (row EA (idx 0 : Fin E)) (row XS (idx 0 : Fin E)) (row XD (idx 0 : Fin E)) (idx 1 : Fin 128)

/-- Result 1: the edge features plus the new ones. -/
def edgeOut {E : ℕ} (W1 : (⟨2, ![384, 128]⟩ : Shape).Idx → EReal) (b1 : (⟨1, ![128]⟩ : Shape).Idx → EReal) (T : TailW)
    (EA XS XD : (⟨2, ![E, 128]⟩ : Shape).Idx → EReal) : (⟨2, ![E, 128]⟩ : Shape).Idx → EReal :=
  fun idx => EA idx + edgeNew W1 b1 T EA XS XD idx

/-- Result 0: the node features plus the node perceptron of (x, agg). -/
def nodeOut {N : ℕ} (W1 : (⟨2, ![256, 128]⟩ : Shape).Idx → EReal) (b1 : (⟨1, ![128]⟩ : Shape).Idx → EReal) (T : TailW)
    (X AGG : (⟨2, ![N, 128]⟩ : Shape).Idx → EReal) : (⟨2, ![N, 128]⟩ : Shape).Idx → EReal :=
  fun idx => X idx + nodeRow W1 b1 T (row X (idx 0 : Fin N)) (row AGG (idx 0 : Fin N)) (idx 1 : Fin 128)

/-- The new edge features with the first map's three [128, 128] weight blocks given separately (as the kernel takes them). -/
def edgeNewParts {E : ℕ} (Wa Wb Wc : (⟨2, ![128, 128]⟩ : Shape).Idx → EReal) (b1 : (⟨1, ![128]⟩ : Shape).Idx → EReal) (T : TailW)
    (EA XS XD : (⟨2, ![E, 128]⟩ : Shape).Idx → EReal) : (⟨2, ![E, 128]⟩ : Shape).Idx → EReal :=
  fun idx => Row.tail T.rows (Row.first3parts (mat Wa) (mat Wb) (mat Wc) (vec b1)
    (row EA (idx 0 : Fin E)) (row XS (idx 0 : Fin E)) (row XD (idx 0 : Fin E))) (idx 1 : Fin 128)

def edgeOutParts {E : ℕ} (Wa Wb Wc : (⟨2, ![128, 128]⟩ : Shape).Idx → EReal) (b1 : (⟨1, ![128]⟩ : Shape).Idx → EReal) (T : TailW)
    (EA XS XD : (⟨2, ![E, 128]⟩ : Shape).Idx → EReal) : (⟨2, ![E, 128]⟩ : Shape).Idx → EReal :=
  fun idx => EA idx + edgeNewParts Wa Wb Wc b1 T EA XS XD idx

/-- Result 0 with the first node map's two [128, 128] weight blocks given separately. -/
def nodeOutParts {N : ℕ} (Wa Wb : (⟨2, ![128, 128]⟩ : Shape).Idx → EReal) (b1 : (⟨1, ![128]⟩ : Shape).Idx → EReal) (T : TailW)
    (X AGG : (⟨2, ![N, 128]⟩ : Shape).Idx → EReal) : (⟨2, ![N, 128]⟩ : Shape).Idx → EReal :=
  fun idx => X idx + Row.tail T.rows (Row.first2parts (mat Wa) (mat Wb) (vec b1) (row X (idx 0 : Fin N)) (row AGG (idx 0 : Fin N))) (idx 1 : Fin 128)

theorem edgeNewParts_apply {E : ℕ} (Wa Wb Wc : (⟨2, ![128, 128]⟩ : Shape).Idx → EReal) (b1 : (⟨1, ![128]⟩ : Shape).Idx → EReal) (T : TailW)
    (EA XS XD : (⟨2, ![E, 128]⟩ : Shape).Idx → EReal) (p : Fin E) (q : Fin 128) :
    edgeNewParts Wa Wb Wc b1 T EA XS XD (ix2 p q)
      = Row.tail T.rows (Row.first3parts (mat Wa) (mat Wb) (mat Wc) (vec b1) (row EA p) (row XS p) (row XD p)) q := rfl

theorem edgeOutParts_apply {E : ℕ} (Wa Wb Wc : (⟨2, ![128, 128]⟩ : Shape).Idx → EReal) (b1 : (⟨1, ![128]⟩ : Shape).Idx → EReal) (T : TailW)
    (EA XS XD : (⟨2, ![E, 128]⟩ : Shape).Idx → EReal) (p : Fin E) (q : Fin 128) :
    edgeOutParts Wa Wb Wc b1 T EA XS XD (ix2 p q)
      = EA (ix2 p q) + Row.tail T.rows (Row.first3parts (mat Wa) (mat Wb) (mat Wc) (vec b1) (row EA p) (row XS p) (row XD p)) q := rfl

theorem nodeOutParts_apply {N : ℕ} (Wa Wb : (⟨2, ![128, 128]⟩ : Shape).Idx → EReal) (b1 : (⟨1, ![128]⟩ : Shape).Idx → EReal) (T : TailW)
    (X AGG : (⟨2, ![N, 128]⟩ : Shape).Idx → EReal) (p : Fin N) (q : Fin 128) :
    nodeOutParts Wa Wb b1 T X AGG (ix2 p q)
      = X (ix2 p q) + Row.tail T.rows (Row.first2parts (mat Wa) (mat Wb) (vec b1) (row X p) (row AGG p)) q := rfl

theorem edgeNew_apply {E : ℕ} (W1 : (⟨2, ![384, 128]⟩ : Shape).Idx → EReal) (b1 : (⟨1, ![128]⟩ : Shape).Idx → EReal) (T : TailW)
    (EA XS XD : (⟨2, ![E, 128]⟩ : Shape).Idx → EReal) (p : Fin E) (q : Fin 128) :
    edgeNew W1 b1 T EA XS XD (ix2 p q) = edgeRow W1 b1 T (row EA p) (row XS p) (row XD p) q := rfl

theorem edgeOut_apply {E : ℕ} (W1 : (⟨2, ![384, 128]⟩ : Shape).Idx → EReal) (b1 : (⟨1, ![128]⟩ : Shape).Idx → EReal) (T : TailW)
    (EA XS XD : (⟨2, ![E, 128]⟩ : Shape).Idx → EReal) (p : Fin E) (q : Fin 128) :
    edgeOut W1 b1 T EA XS XD (ix2 p q) = EA (ix2 p q) + edgeRow W1 b1 T (row EA p) (row XS p) (row XD p) q := rfl

theorem nodeOut_apply {N : ℕ} (W1 : (⟨2, ![256, 128]⟩ : Shape).Idx → EReal) (b1 : (⟨1, ![128]⟩ : Shape).Idx → EReal) (T : TailW)
    (X AGG : (⟨2, ![N, 128]⟩ : Shape).Idx → EReal) (p : Fin N) (q : Fin 128) :
    nodeOut W1 b1 T X AGG (ix2 p q) = X (ix2 p q) + nodeRow W1 b1 T (row X p) (row AGG p) q := rfl

end Cert.Spec

end
-- ==== Proof.RefValue.lean ====
/-
  The reference's two results are the functions of Spec.

  The reference's run ends with its results at composed terms of host operations over the argument arrays. Those terms
  are, layer for layer, the layers of LibRowLayersHost: the edge perceptron of the concatenation of ea with the two gathered
  arrays, the sum of its output by destination, the node perceptron of the concatenation of x with that sum, and the two
  residual additions. Read at an entry, each is the row function of LibRowMLP at that row, which is what Spec states.
-/
import proofs.«419719_j17008070492485_2_alg».proof.Proof.Gen.ReferenceIdeal.Run
import proofs.«419719_j17008070492485_2_alg».proof.Proof.LibRowLayersHost
import proofs.«419719_j17008070492485_2_alg».proof.Proof.Spec

set_option maxRecDepth 8192

noncomputable section

open scoped BigOperators

namespace Cert.RefValue

open Idealize.ShloMosaic Idealize.ShloMosaic.TcCoe Idealize.ShloMosaic.ValueIdx Idealize.ShloMosaic.StableHlo
open Cert.ReferenceIdeal Cert.ReferenceIdeal.Gen Cert.ReferenceIdeal.Value Cert.HLayer

variable (V0 : Valuation τ sig (Elt Ideal))

/-- The argument arrays. -/
def X : FVec Ideal S50000x128 .f32 := V0 (Proc.devRef .tc main_arg0)
def EA : FVec Ideal S400000x128 .f32 := V0 (Proc.devRef .tc main_arg1)

/-- An index vector with negatives wrapped once, laid as a column: what each gather takes. -/
def wrapCol (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

/-- The node rows gathered at the edges' sources and destinations. -/
def XS : FVec Ideal S400000x128 .f32 :=
  Host.gather gather_S50000x128_S400000x1_S400000x128_1_0_n_n_0_1_1128 (X V0) (wrapCol (res_main_v1 V0))
def XD : FVec Ideal S400000x128 .f32 :=
  Host.gather gather_S50000x128_S400000x1_S400000x128_1_0_n_n_0_1_1128 (X V0) (wrapCol (res_main_v3 V0))

/-- The edge perceptron's weights after its first map, and the node perceptron's. -/
def eT : Spec.TailW :=
  ⟨V0 (Proc.devRef .tc main_arg11), V0 (Proc.devRef .tc main_arg12), V0 (Proc.devRef .tc main_arg5), V0 (Proc.devRef .tc main_arg6),
   V0 (Proc.devRef .tc main_arg13), V0 (Proc.devRef .tc main_arg14), V0 (Proc.devRef .tc main_arg7), V0 (Proc.devRef .tc main_arg8),
   V0 (Proc.devRef .tc main_arg15), V0 (Proc.devRef .tc main_arg16), V0 (Proc.devRef .tc main_arg9), V0 (Proc.devRef .tc main_arg10)⟩
def nT : Spec.TailW :=
  ⟨V0 (Proc.devRef .tc main_arg25), V0 (Proc.devRef .tc main_arg26), V0 (Proc.devRef .tc main_arg19), V0 (Proc.devRef .tc main_arg20),
   V0 (Proc.devRef .tc main_arg27), V0 (Proc.devRef .tc main_arg28), V0 (Proc.devRef .tc main_arg21), V0 (Proc.devRef .tc main_arg22),
   V0 (Proc.devRef .tc main_arg29), V0 (Proc.devRef .tc main_arg30), V0 (Proc.devRef .tc main_arg23), V0 (Proc.devRef .tc main_arg24)⟩

/-- The new edge features as Spec states them. -/
def newE : FVec Ideal S400000x128 .f32 :=
  Spec.edgeNew (V0 (Proc.devRef .tc main_arg3)) (V0 (Proc.devRef .tc main_arg4)) (eT V0) (EA V0) (XS V0) (XD V0)

/-- The sum of an [E, 128] array of edge rows into node rows, by destination: the reference's scatter-add, from zeros,
    at the destination column. -/
def sumByDst (u : FVec Ideal S400000x128 .f32) : FVec Ideal S50000x128 .f32 :=
  Host.scatterAdd scatter_S50000x128_S400000x1_S400000x128_1_0_0_1
    (broadcastInDim S50000x128 ![] bcast_S_S50000x128 (constant (F := Ideal) S_ .f32 0x00000000#32))
    (broadcastInDim S400000x1 ![0] bcast_S400000_S400000x1_0 (res_main_v3 V0)) u

/-! ## The layers after the first linear map, over any number of rows -/

/-- The shape facts the layers over R rows cite. -/
structure Ev (R : ℕ) : Prop where
  b0 : S0.BroadcastsInDim ⟨2, ![R, 128]⟩ (![] : Fin 0 → Fin 2)
  rt : (⟨2, ![R, 128]⟩ : Shape).ReducesTo [1] ⟨1, ![R]⟩
  h0 : 0 < S0.numel
  bcol : (⟨1, ![R]⟩ : Shape).BroadcastsInDim ⟨2, ![R, 1]⟩ (![0] : Fin 1 → Fin 2)
  b01 : S0.BroadcastsInDim ⟨2, ![R, 1]⟩ (![] : Fin 0 → Fin 2)
  brow : (⟨2, ![R, 1]⟩ : Shape).BroadcastsInDim ⟨2, ![R, 128]⟩ (![0, 1] : Fin 2 → Fin 2)
  b1 : (⟨1, ![128]⟩ : Shape).BroadcastsInDim ⟨2, ![1, 128]⟩ (![1] : Fin 1 → Fin 2)
  b2 : (⟨2, ![1, 128]⟩ : Shape).BroadcastsInDim ⟨2, ![R, 128]⟩ (![0, 1] : Fin 2 → Fin 2)
  w : DotDims.WF ⟨2, ![R, 128]⟩ ⟨2, ![128, 128]⟩ ⟨2, ![R, 128]⟩ [1] [0] [0] [1] [] []

section Generic
variable {R : ℕ}

/-- One inner block: the normalisation of x with gain g and shift β, then the linear map (W, b). -/
def hNL (e : Ev R) (x : FVec Ideal ⟨2, ![R, 128]⟩ .f32) (g β : FVec Ideal ⟨1, ![128]⟩ .f32)
    (W : FVec Ideal ⟨2, ![128, 128]⟩ .f32) (b : FVec Ideal ⟨1, ![128]⟩ .f32) : FVec Ideal ⟨2, ![R, 128]⟩ .f32 :=
  hLin e.w e.b1 e.b2
    (hNormFrom e.rt e.h0 e.bcol e.b01 e.brow e.b1 e.b2 x (hAvg e.rt e.h0 e.bcol e.b01 x)
      (hCen e.brow x (hAvg e.rt e.h0 e.bcol e.b01 x)) g β) W b

theorem hNL_apply (e : Ev R) (x : FVec Ideal ⟨2, ![R, 128]⟩ .f32) (g β : FVec Ideal ⟨1, ![128]⟩ .f32)
    (W : FVec Ideal ⟨2, ![128, 128]⟩ .f32) (b : FVec Ideal ⟨1, ![128]⟩ .f32) (p : Fin R) (q : Fin 128) :
    hNL e x g β W b (ix2 p q)
      = Row.lin (Spec.mat W) (Spec.vec b) (Row.lnorm (Spec.vec g) (Spec.vec β) (fun k => x (ix2 p k))) q := by
  unfold hNL
  rw [hLin_apply]
  exact congrArg (fun v => Row.lin (Spec.mat W) (Spec.vec b) v q)
    (funext fun k => hNorm_apply e.rt e.h0 e.bcol e.b01 e.brow e.b1 e.b2 x g β p k)

/-- The perceptron from the first linear map's output y on, on whole arrays. -/
def hTail (e : Ev R) (T : Spec.TailW) (y : FVec Ideal ⟨2, ![R, 128]⟩ .f32) : FVec Ideal ⟨2, ![R, 128]⟩ .f32 :=
  hNL e (hRelu e.b0 (hNL e (hRelu e.b0 (hNL e (hRelu e.b0 y) T.g1 T.β1 T.W2 T.b2)) T.g2 T.β2 T.W3 T.b3)) T.g3 T.β3 T.W4 T.b4

theorem hTail_apply (e : Ev R) (T : Spec.TailW) (y : FVec Ideal ⟨2, ![R, 128]⟩ .f32) (p : Fin R) (q : Fin 128) :
    hTail e T y (ix2 p q) = Row.tail T.rows (fun k => y (ix2 p k)) q := by
  unfold hTail Row.tail
  rw [hNL_apply]
  simp only [hRelu_apply, hNL_apply]
  rfl

end Generic

/-! ## The edge perceptron -/

/-- The shape facts at the 400000 edge rows, as the program names them. -/
theorem evE : Ev 400000 :=
  ⟨bcast_S_S400000x128, reducesTo_S400000x128_S400000_d1, h_S_, bcast_S400000_S400000x1_0, bcast_S_S400000x1,
    bcast_S400000x1_S400000x128_0_1, bcast_S128_S1x128_1, bcast_S1x128_S400000x128_0_1,
    dot_S400000x128_S128x128_S400000x128_1_0_0_1_n_n_wf⟩

/-- The edge perceptron's first linear map: of the concatenation of ea with the two gathered arrays. -/
def yE : FVec Ideal S400000x128 .f32 :=
  hLin (K := 384) dot_S400000x384_S384x128_S400000x128_1_0_0_1_n_n_wf bcast_S128_S1x128_1 bcast_S1x128_S400000x128_0_1
    (hCat3 concatenates_S400000x128_S400000x128_S400000x128_S400000x384_d1 (EA V0) (XS V0) (XD V0))
    (V0 (Proc.devRef .tc main_arg3)) (V0 (Proc.devRef .tc main_arg4))

theorem s24 : res_main_v24 V0 = hRelu evE.b0 (yE V0) := rfl
theorem s28 : res_main_v28 V0 = hAvg evE.rt evE.h0 evE.bcol evE.b01 (res_main_v24 V0) := rfl
theorem s30 : res_main_v30 V0 = hCen evE.brow (res_main_v24 V0) (res_main_v28 V0) := rfl
theorem s54 : res_main_v54 V0 = hRelu evE.b0 (hNL evE (res_main_v24 V0) (eT V0).g1 (eT V0).β1 (eT V0).W2 (eT V0).b2) := by
  have h : res_main_v54 V0 = hRelu evE.b0 (hLin evE.w evE.b1 evE.b2
      (hNormFrom evE.rt evE.h0 evE.bcol evE.b01 evE.brow evE.b1 evE.b2 (res_main_v24 V0) (res_main_v28 V0) (res_main_v30 V0)
        (eT V0).g1 (eT V0).β1) (eT V0).W2 (eT V0).b2) := rfl
  rw [h, s30, s28]
  rfl
theorem s58 : res_main_v58 V0 = hAvg evE.rt evE.h0 evE.bcol evE.b01 (res_main_v54 V0) := rfl
theorem s60 : res_main_v60 V0 = hCen evE.brow (res_main_v54 V0) (res_main_v58 V0) := rfl
theorem s84 : res_main_v84 V0 = hRelu evE.b0 (hNL evE (res_main_v54 V0) (eT V0).g2 (eT V0).β2 (eT V0).W3 (eT V0).b3) := by
  have h : res_main_v84 V0 = hRelu evE.b0 (hLin evE.w evE.b1 evE.b2
      (hNormFrom evE.rt evE.h0 evE.bcol evE.b01 evE.brow evE.b1 evE.b2 (res_main_v54 V0) (res_main_v58 V0) (res_main_v60 V0)
        (eT V0).g2 (eT V0).β2) (eT V0).W3 (eT V0).b3) := rfl
  rw [h, s60, s58]
  rfl
theorem s88 : res_main_v88 V0 = hAvg evE.rt evE.h0 evE.bcol evE.b01 (res_main_v84 V0) := rfl
theorem s90 : res_main_v90 V0 = hCen evE.brow (res_main_v84 V0) (res_main_v88 V0) := rfl
theorem s112 : res_main_v112 V0 = hNL evE (res_main_v84 V0) (eT V0).g3 (eT V0).β3 (eT V0).W4 (eT V0).b4 := by
  have h : res_main_v112 V0 = hLin evE.w evE.b1 evE.b2
      (hNormFrom evE.rt evE.h0 evE.bcol evE.b01 evE.brow evE.b1 evE.b2 (res_main_v84 V0) (res_main_v88 V0) (res_main_v90 V0)
        (eT V0).g3 (eT V0).β3) (eT V0).W4 (eT V0).b4 := rfl
  rw [h, s90, s88]
  rfl

/-- The reference's new edge features are the perceptron's tail of its first linear map. -/
theorem res_v112_tail : res_main_v112 V0 = hTail evE (eT V0) (yE V0) := by
  rw [s112, s84, s54, s24]
  rfl

/-- Row p of the edge perceptron's first linear map. -/
theorem yE_row (p : Fin 400000) :
    (fun k => yE V0 (ix2 p k))
      = Row.first3 (Spec.mat (V0 (Proc.devRef .tc main_arg3))) (Spec.vec (V0 (Proc.devRef .tc main_arg4)))
          (Spec.row (EA V0) p) (Spec.row (XS V0) p) (Spec.row (XD V0) p) := by
  funext k
  unfold yE Row.first3
  rw [hLin_apply]
  exact congrArg (fun v => Row.lin (Spec.mat (V0 (Proc.devRef .tc main_arg3))) (Spec.vec (V0 (Proc.devRef .tc main_arg4))) v k)
    (funext fun j => hCat3_apply _ (EA V0) (XS V0) (XD V0) p j)

/-- The reference's new edge features are Spec's. -/
theorem res_v112_eq : res_main_v112 V0 = newE V0 := by
  funext idx
  obtain ⟨p, q, rfl⟩ : ∃ (p : Fin 400000) (q : Fin 128), idx = ix2 p q := ⟨idx 0, idx 1, eq_ix2 idx⟩
  rw [res_v112_tail, hTail_apply, yE_row]
  rfl

/-- Result 1. -/
theorem out1_eq : val5 V0 (Proc.devRef .tc main_v212)
    = Spec.edgeOut (V0 (Proc.devRef .tc main_arg3)) (V0 (Proc.devRef .tc main_arg4)) (eT V0) (EA V0) (XS V0) (XD V0) := by
  rw [val5_main_v212, res_v112_eq]
  rfl

/-! ## The node perceptron -/

/-- The shape facts at the 50000 node rows, as the program names them. -/
theorem evN : Ev 50000 :=
  ⟨bcast_S_S50000x128, reducesTo_S50000x128_S50000_d1, h_S_, bcast_S50000_S50000x1_0, bcast_S_S50000x1,
    bcast_S50000x1_S50000x128_0_1, bcast_S128_S1x128_1, bcast_S1x128_S50000x128_0_1,
    dot_S50000x128_S128x128_S50000x128_1_0_0_1_n_n_wf⟩

/-- The node perceptron's first linear map: of the concatenation of x with the sum by destination of u. -/
def yN (u : FVec Ideal S400000x128 .f32) : FVec Ideal S50000x128 .f32 :=
  hLin (K := 256) dot_S50000x256_S256x128_S50000x128_1_0_0_1_n_n_wf bcast_S128_S1x128_1 bcast_S1x128_S50000x128_0_1
    (hCat2 concatenates_S50000x128_S50000x128_S50000x256_d1 (X V0) (sumByDst V0 u))
    (V0 (Proc.devRef .tc main_arg17)) (V0 (Proc.devRef .tc main_arg18))

theorem s122 : res_main_v122 V0 = hRelu evN.b0 (yN V0 (res_main_v112 V0)) := rfl
theorem s126 : res_main_v126 V0 = hAvg evN.rt evN.h0 evN.bcol evN.b01 (res_main_v122 V0) := rfl
theorem s128 : res_main_v128 V0 = hCen evN.brow (res_main_v122 V0) (res_main_v126 V0) := rfl
theorem s152 : res_main_v152 V0 = hRelu evN.b0 (hNL evN (res_main_v122 V0) (nT V0).g1 (nT V0).β1 (nT V0).W2 (nT V0).b2) := by
  have h : res_main_v152 V0 = hRelu evN.b0 (hLin evN.w evN.b1 evN.b2
      (hNormFrom evN.rt evN.h0 evN.bcol evN.b01 evN.brow evN.b1 evN.b2 (res_main_v122 V0) (res_main_v126 V0) (res_main_v128 V0)
        (nT V0).g1 (nT V0).β1) (nT V0).W2 (nT V0).b2) := rfl
  rw [h, s128, s126]
  rfl
theorem s156 : res_main_v156 V0 = hAvg evN.rt evN.h0 evN.bcol evN.b01 (res_main_v152 V0) := rfl
theorem s158 : res_main_v158 V0 = hCen evN.brow (res_main_v152 V0) (res_main_v156 V0) := rfl
theorem s182 : res_main_v182 V0 = hRelu evN.b0 (hNL evN (res_main_v152 V0) (nT V0).g2 (nT V0).β2 (nT V0).W3 (nT V0).b3) := by
  have h : res_main_v182 V0 = hRelu evN.b0 (hLin evN.w evN.b1 evN.b2
      (hNormFrom evN.rt evN.h0 evN.bcol evN.b01 evN.brow evN.b1 evN.b2 (res_main_v152 V0) (res_main_v156 V0) (res_main_v158 V0)
        (nT V0).g2 (nT V0).β2) (nT V0).W3 (nT V0).b3) := rfl
  rw [h, s158, s156]
  rfl
theorem s186 : res_main_v186 V0 = hAvg evN.rt evN.h0 evN.bcol evN.b01 (res_main_v182 V0) := rfl
theorem s188 : res_main_v188 V0 = hCen evN.brow (res_main_v182 V0) (res_main_v186 V0) := rfl

/-- Result 0 is x plus the node perceptron's tail of its first linear map. -/
theorem out0_tail : val5 V0 (Proc.devRef .tc main_v211) = addf (X V0) (hTail evN (nT V0) (yN V0 (newE V0))) := by
  have h : val5 V0 (Proc.devRef .tc main_v211) = addf (X V0) (hLin evN.w evN.b1 evN.b2
      (hNormFrom evN.rt evN.h0 evN.bcol evN.b01 evN.brow evN.b1 evN.b2 (res_main_v182 V0) (res_main_v186 V0) (res_main_v188 V0)
        (nT V0).g3 (nT V0).β3) (nT V0).W4 (nT V0).b4) := by
    rw [val5_main_v211]
    rfl
  rw [h, s188, s186, s182, s152, s122, res_v112_eq]
  rfl

/-- Row p of the node perceptron's first linear map. -/
theorem yN_row (u : FVec Ideal S400000x128 .f32) (p : Fin 50000) :
    (fun k => yN V0 u (ix2 p k))
      = Row.first2 (Spec.mat (V0 (Proc.devRef .tc main_arg17))) (Spec.vec (V0 (Proc.devRef .tc main_arg18)))
          (Spec.row (X V0) p) (Spec.row (sumByDst V0 u) p) := by
  funext k
  unfold yN Row.first2
  rw [hLin_apply]
  exact congrArg (fun v => Row.lin (Spec.mat (V0 (Proc.devRef .tc main_arg17))) (Spec.vec (V0 (Proc.devRef .tc main_arg18))) v k)
    (funext fun j => hCat2_apply _ (X V0) (sumByDst V0 u) p j)

/-- Result 0. -/
theorem out0_eq : val5 V0 (Proc.devRef .tc main_v211)
    = Spec.nodeOut (V0 (Proc.devRef .tc main_arg17)) (V0 (Proc.devRef .tc main_arg18)) (nT V0) (X V0) (sumByDst V0 (newE V0)) := by
  funext idx
  obtain ⟨p, q, rfl⟩ : ∃ (p : Fin 50000) (q : Fin 128), idx = ix2 p q := ⟨idx 0, idx 1, eq_ix2 idx⟩
  rw [out0_tail, addf_apply, hTail_apply, yN_row]
  rfl

end Cert.RefValue

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowLayersKernel.lean ====
/-
  The kernel's layers, read row by row.

  Inside a block of R rows the kernel computes with whole [R, 128] vectors: a max with 0; a lane sum over the 128
  columns kept as an [R, 1] column, divided by 128 (the mean), the same of the squared deviations (the variance), the
  reciprocal square root of variance + eps broadcast back along the row, a gain and a shift broadcast down the rows;
  a matrix product with a [128, 128] weight into the zero accumulator plus a bias broadcast down the rows. Each is
  defined here as the kernel spells it, over any number of rows R, and read at entry (p, q): it is the row function of
  LibRowMLP applied to row p of the operand, at q. Rows never mix.
-/
import proofs.«419719_j17008070492485_2_alg».proof.Proof.LibRowMLP
import proofs.«419719_j17008070492485_2_alg».proof.Proof.LibDotPlain
import proofs.«419719_j17008070492485_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KLayer

open Idealize.ShloMosaic Idealize.ShloMosaic.ValueIdx

variable {R : ℕ}

/-- max(x, 0) on a block. -/
def kRelu (x : FVec Ideal ⟨2, ![R, 128]⟩ .f32) : FVec Ideal ⟨2, ![R, 128]⟩ .f32 :=
  maximumf x (broadcast ⟨2, ![R, 128]⟩ (Scalar.ofBits (F := Ideal) .f32 0x00000000#32))

/-- The column of row means: lane sum over the columns, kept as [R, 1], divided by 128. -/
def kMean (red : (⟨2, ![R, 128]⟩ : Shape).Reduces [1] ⟨1, ![R]⟩) (sc : (⟨1, ![R]⟩ : Shape).ShapeCasts ⟨2, ![R, 1]⟩)
    (x : FVec Ideal ⟨2, ![R, 128]⟩ .f32) : FVec Ideal ⟨2, ![R, 1]⟩ .f32 :=
  divf (shapeCast ⟨2, ![R, 1]⟩ (multiReduction .add [1] ⟨1, ![R]⟩ x 0x00000000#32 red (.inl rfl) rfl) sc)
    (broadcast ⟨2, ![R, 1]⟩ (Scalar.ofBits (F := Ideal) .f32 0x43000000#32))

/-- The column of row variances: the mean of the squared deviations from the row mean. -/
def kVar (red : (⟨2, ![R, 128]⟩ : Shape).Reduces [1] ⟨1, ![R]⟩) (sc : (⟨1, ![R]⟩ : Shape).ShapeCasts ⟨2, ![R, 1]⟩)
    (bc : (⟨2, ![R, 1]⟩ : Shape).Broadcasts ⟨2, ![R, 128]⟩)
    (x : FVec Ideal ⟨2, ![R, 128]⟩ .f32) : FVec Ideal ⟨2, ![R, 1]⟩ .f32 :=
  divf (shapeCast ⟨2, ![R, 1]⟩ (multiReduction .add [1] ⟨1, ![R]⟩
      (mulf (subf x (broadcastTo ⟨2, ![R, 128]⟩ (kMean red sc x) bc)) (subf x (broadcastTo ⟨2, ![R, 128]⟩ (kMean red sc x) bc)))
      0x00000000#32 red (.inl rfl) rfl) sc)
    (broadcast ⟨2, ![R, 1]⟩ (Scalar.ofBits (F := Ideal) .f32 0x43000000#32))

/-- The second half of a normalisation, from a mean column mu and a variance column v given: (x - mu) rsqrt(v + eps) g + β. -/
def kNormFrom (bc : (⟨2, ![R, 1]⟩ : Shape).Broadcasts ⟨2, ![R, 128]⟩)
    (scg : (⟨1, ![128]⟩ : Shape).ShapeCasts ⟨2, ![1, 128]⟩) (bcg : (⟨2, ![1, 128]⟩ : Shape).Broadcasts ⟨2, ![R, 128]⟩)
    (x : FVec Ideal ⟨2, ![R, 128]⟩ .f32) (mu v : FVec Ideal ⟨2, ![R, 1]⟩ .f32) (g β : FVec Ideal ⟨1, ![128]⟩ .f32) :
    FVec Ideal ⟨2, ![R, 128]⟩ .f32 :=
  addf (mulf (mulf (subf x (broadcastTo ⟨2, ![R, 128]⟩ mu bc))
      (broadcastTo ⟨2, ![R, 128]⟩ (rsqrt (addf v (broadcast ⟨2, ![R, 1]⟩ (Scalar.ofBits (F := Ideal) .f32 0x3727C5AC#32)))) bc))
      (broadcastTo ⟨2, ![R, 128]⟩ (shapeCast ⟨2, ![1, 128]⟩ g scg) bcg))
    (broadcastTo ⟨2, ![R, 128]⟩ (shapeCast ⟨2, ![1, 128]⟩ β scg) bcg)

/-- A whole normalisation of a block. -/
def kLN (red : (⟨2, ![R, 128]⟩ : Shape).Reduces [1] ⟨1, ![R]⟩) (sc : (⟨1, ![R]⟩ : Shape).ShapeCasts ⟨2, ![R, 1]⟩)
    (bc : (⟨2, ![R, 1]⟩ : Shape).Broadcasts ⟨2, ![R, 128]⟩)
    (scg : (⟨1, ![128]⟩ : Shape).ShapeCasts ⟨2, ![1, 128]⟩) (bcg : (⟨2, ![1, 128]⟩ : Shape).Broadcasts ⟨2, ![R, 128]⟩)
    (x : FVec Ideal ⟨2, ![R, 128]⟩ .f32) (g β : FVec Ideal ⟨1, ![128]⟩ .f32) : FVec Ideal ⟨2, ![R, 128]⟩ .f32 :=
  kNormFrom bc scg bcg x (kMean red sc x) (kVar red sc bc x) g β

/-- A bias row broadcast down the R rows. -/
def kBias (scg : (⟨1, ![128]⟩ : Shape).ShapeCasts ⟨2, ![1, 128]⟩) (bcg : (⟨2, ![1, 128]⟩ : Shape).Broadcasts ⟨2, ![R, 128]⟩)
    (b : FVec Ideal ⟨1, ![128]⟩ .f32) : FVec Ideal ⟨2, ![R, 128]⟩ .f32 :=
  broadcastTo ⟨2, ![R, 128]⟩ (shapeCast ⟨2, ![1, 128]⟩ b scg) bcg

/-- The matrix product of a block with a [128, 128] weight, from the zero accumulator. -/
def kMat (w : DotDims.WF ⟨2, ![R, 128]⟩ ⟨2, ![128, 128]⟩ ⟨2, ![R, 128]⟩ [1] [0] [0] [1] [] [])
    (x : FVec Ideal ⟨2, ![R, 128]⟩ .f32) (W : FVec Ideal ⟨2, ![128, 128]⟩ .f32) : FVec Ideal ⟨2, ![R, 128]⟩ .f32 :=
  matmul (⟨[1], [0], [0], [1], [], [], w⟩ : DotDims ⟨2, ![R, 128]⟩ ⟨2, ![128, 128]⟩ ⟨2, ![R, 128]⟩) (some .fp32) x W
    (constant ⟨2, ![R, 128]⟩ .f32 0x00000000#32)

/-- A linear layer: product plus bias. -/
def kLin (w : DotDims.WF ⟨2, ![R, 128]⟩ ⟨2, ![128, 128]⟩ ⟨2, ![R, 128]⟩ [1] [0] [0] [1] [] [])
    (scg : (⟨1, ![128]⟩ : Shape).ShapeCasts ⟨2, ![1, 128]⟩) (bcg : (⟨2, ![1, 128]⟩ : Shape).Broadcasts ⟨2, ![R, 128]⟩)
    (x : FVec Ideal ⟨2, ![R, 128]⟩ .f32) (W : FVec Ideal ⟨2, ![128, 128]⟩ .f32) (b : FVec Ideal ⟨1, ![128]⟩ .f32) :
    FVec Ideal ⟨2, ![R, 128]⟩ .f32 :=
  addf (kMat w x W) (kBias scg bcg b)

/-! ## Read at an entry -/

/-- The index a row reduction inserts: row p with the lane coordinate k put back is entry (p, k). -/
theorem lift_ix1 (red : (⟨2, ![R, 128]⟩ : Shape).Reduces [1] ⟨1, ![R]⟩) (p : Fin R) (k : Fin 128) :
    red.lift (ix1 p) k = ix2 p k := by
  funext ax; apply Fin.ext
  match ax with
  | ⟨0, _⟩ => rfl
  | ⟨1, _⟩ => rfl

theorem kRelu_apply (x : FVec Ideal ⟨2, ![R, 128]⟩ .f32) (p : Fin R) (q : Fin 128) :
    kRelu x (ix2 p q) = Row.relu (fun k => x (ix2 p k)) q := by
  show max (x (ix2 p q)) (Ideal.ofBits .f32 0x00000000#32) = max (x (ix2 p q)) 0
  rw [Ideal.ofBits_zero_f32]

theorem kMean_apply (red : (⟨2, ![R, 128]⟩ : Shape).Reduces [1] ⟨1, ![R]⟩) (sc : (⟨1, ![R]⟩ : Shape).ShapeCasts ⟨2, ![R, 1]⟩)
    (x : FVec Ideal ⟨2, ![R, 128]⟩ .f32) (p : Fin R) (u : Fin 1) :
    kMean red sc x (ix2 p u) = Row.mean (fun k => x (ix2 p k)) := by
  unfold kMean
  rw [divf_apply, LibColumn.shapeCast_a_a1_apply, broadcast_apply]
  unfold Row.mean Row.c128
  refine congrArg₂ Ideal.div ?_ rfl
  refine (Ideal.multiReduction_add_single x _ red _ _ (ix1 p)).trans ?_
  exact Finset.sum_congr rfl fun k _ => congrArg x (lift_ix1 red p k)

theorem kVar_apply (red : (⟨2, ![R, 128]⟩ : Shape).Reduces [1] ⟨1, ![R]⟩) (sc : (⟨1, ![R]⟩ : Shape).ShapeCasts ⟨2, ![R, 1]⟩)
    (bc : (⟨2, ![R, 1]⟩ : Shape).Broadcasts ⟨2, ![R, 128]⟩)
    (x : FVec Ideal ⟨2, ![R, 128]⟩ .f32) (p : Fin R) (u : Fin 1) :
    kVar red sc bc x (ix2 p u) = Row.var (fun k => x (ix2 p k)) := by
  unfold kVar
  rw [divf_apply, LibColumn.shapeCast_a_a1_apply, broadcast_apply]
  unfold Row.var Row.c128
  refine congrArg₂ Ideal.div ?_ rfl
  refine (Ideal.multiReduction_add_single _ _ red _ _ (ix1 p)).trans ?_
  refine Finset.sum_congr rfl fun (k : Fin 128) _ => ?_
  rw [lift_ix1 red p k, mulf_apply, subf_apply, LibColumn.broadcastTo_a1_ab_apply, kMean_apply]

theorem kLN_apply (red : (⟨2, ![R, 128]⟩ : Shape).Reduces [1] ⟨1, ![R]⟩) (sc : (⟨1, ![R]⟩ : Shape).ShapeCasts ⟨2, ![R, 1]⟩)
    (bc : (⟨2, ![R, 1]⟩ : Shape).Broadcasts ⟨2, ![R, 128]⟩)
    (scg : (⟨1, ![128]⟩ : Shape).ShapeCasts ⟨2, ![1, 128]⟩) (bcg : (⟨2, ![1, 128]⟩ : Shape).Broadcasts ⟨2, ![R, 128]⟩)
    (x : FVec Ideal ⟨2, ![R, 128]⟩ .f32) (g β : FVec Ideal ⟨1, ![128]⟩ .f32) (p : Fin R) (q : Fin 128) :
    kLN red sc bc scg bcg x g β (ix2 p q)
      = Row.lnorm (fun k => g (ix1 k)) (fun k => β (ix1 k)) (fun k => x (ix2 p k)) q := by
  unfold kLN kNormFrom
  rw [addf_apply, mulf_apply, mulf_apply, subf_apply, LibColumn.broadcastTo_a1_ab_apply,
    LibColumn.broadcastTo_a1_ab_apply, broadcastTo_1b_ab_apply, broadcastTo_1b_ab_apply,
    shapeCast_a_1a_apply, shapeCast_a_1a_apply, kMean_apply]
  show (x (ix2 p q) - Row.mean fun k => x (ix2 p k))
      * Ideal.rsqrt (kVar red sc bc x (ix2 p (0 : Fin 1)) + Row.ceps) * g (ix1 q) + β (ix1 q) = _
  rw [kVar_apply]
  rfl

theorem kBias_apply (scg : (⟨1, ![128]⟩ : Shape).ShapeCasts ⟨2, ![1, 128]⟩) (bcg : (⟨2, ![1, 128]⟩ : Shape).Broadcasts ⟨2, ![R, 128]⟩)
    (b : FVec Ideal ⟨1, ![128]⟩ .f32) (p : Fin R) (q : Fin 128) : kBias scg bcg b (ix2 p q) = b (ix1 q) := by
  unfold kBias
  rw [broadcastTo_1b_ab_apply, shapeCast_a_1a_apply]

theorem kMat_apply (w : DotDims.WF ⟨2, ![R, 128]⟩ ⟨2, ![128, 128]⟩ ⟨2, ![R, 128]⟩ [1] [0] [0] [1] [] [])
    (x : FVec Ideal ⟨2, ![R, 128]⟩ .f32) (W : FVec Ideal ⟨2, ![128, 128]⟩ .f32) (p : Fin R) (q : Fin 128) :
    kMat w x W (ix2 p q) = ∑ k : Fin 128, x (ix2 p k) * W (ix2 k q) := by
  unfold kMat
  exact LibDotPlain.matmul_zero_apply w (some .fp32) x W p q

theorem kLin_apply (w : DotDims.WF ⟨2, ![R, 128]⟩ ⟨2, ![128, 128]⟩ ⟨2, ![R, 128]⟩ [1] [0] [0] [1] [] [])
    (scg : (⟨1, ![128]⟩ : Shape).ShapeCasts ⟨2, ![1, 128]⟩) (bcg : (⟨2, ![1, 128]⟩ : Shape).Broadcasts ⟨2, ![R, 128]⟩)
    (x : FVec Ideal ⟨2, ![R, 128]⟩ .f32) (W : FVec Ideal ⟨2, ![128, 128]⟩ .f32) (b : FVec Ideal ⟨1, ![128]⟩ .f32)
    (p : Fin R) (q : Fin 128) :
    kLin w scg bcg x W b (ix2 p q)
      = Row.lin (fun k j => W (ix2 k j)) (fun j => b (ix1 j)) (fun k => x (ix2 p k)) q := by
  unfold kLin
  rw [addf_apply, kMat_apply, kBias_apply]
  rfl

end Cert.KLayer

end
-- ==== Proof.KEdge.lean ====
/-
  The edge kernel's block, row by row.

  At one grid point the edge kernel holds a block of 8000 rows of edge features ea, gathered source rows xs and gathered
  destination rows xd, and the weights. It writes, for every row p of the block,
    new(p) = tail (ea(p) W1a + xs(p) W1b + xd(p) W1c + b1)      and      out(p) = ea(p) + new(p),
  where tail is three (max with 0, normalisation, linear map) steps. The printed body is this composition of the
  layers of LibRowLayersKernel, operation for operation; read at entry (p, q) it is the row function of LibRowMLP.
-/
import proofs.«419719_j17008070492485_2_alg».proof.Proof.Gen.KernelIdeal.Frame
import proofs.«419719_j17008070492485_2_alg».proof.Proof.LibRowLayersKernel
import proofs.«419719_j17008070492485_2_alg».proof.Proof.Spec
import Idealize.ShloMosaic.Lib.Pipeline.Value

noncomputable section

open scoped BigOperators

namespace Cert.KEdge

open Idealize.ShloMosaic Idealize.ShloMosaic.ValueIdx Cert.KernelIdeal Cert.KernelIdeal.Gen Cert.KLayer

abbrev wf0 := dot_S8000x128_S128x128_S8000x128_1_0_0_1_n_n_wf
abbrev red0 := reduces_S8000x128_S8000
abbrev sc0 := shapeCasts_S8000_S8000x1
abbrev bc0 := broadcasts_S8000x1_S8000x128
abbrev scg0 := shapeCasts_S128_S1x128
abbrev bcg0 := broadcasts_S1x128_S8000x128

/-- The first layer: three products summed, plus the bias. -/
theorem pay1_eq (v0 v1 v3 : FVec Ideal S8000x128 .f32) (v5 v8 v12 : FVec Ideal S128x128 .f32) (v16 : FVec Ideal S128 .f32) :
    k0_pay1 (F := Ideal) v0 v1 v3 v5 v8 v12 v16
      = addf (addf (addf (kMat wf0 v0 v5) (kMat wf0 v1 v8)) (kMat wf0 v3 v12)) (kBias scg0 bcg0 v16) := by
  unfold k0_pay1
  simp only [shapeCast_self]
  rfl

/-- The second layer's output: max with 0 of the linear map of the normalised max-with-0 of the first layer. -/
theorem pay2_eq (v19 : FVec Ideal S8000x128 .f32) (v20 : FVec Ideal S128x128 .f32) (v21 v22 v23 : FVec Ideal S128 .f32) :
    k0_pay2 (F := Ideal) v19 v20 v21 v22 v23
      = kRelu (kLin wf0 scg0 bcg0 (kLN red0 sc0 bc0 scg0 bcg0 (kRelu v19) v22 v23) v20 v21) := rfl

/-- The third layer and the last linear map, from the second layer's output h with its mean column, variance column
    and mean laid along the rows as the body keeps them. -/
theorem pay6_eq (g2 β2 g3 β3 : FVec Ideal S128 .f32) (W3 : FVec Ideal S128x128 .f32) (b3 : FVec Ideal S128 .f32)
    (W4 : FVec Ideal S128x128 .f32) (b4 : FVec Ideal S128 .f32)
    (v19 : FVec Ideal S8000x128 .f32) (v20 : FVec Ideal S128x128 .f32) (v21 v22 v23 : FVec Ideal S128 .f32) :
    k0_pay6 (F := Ideal) g2 β2 g3 β3 W3 b3 W4 b4 (k0_pay2 v19 v20 v21 v22 v23) (k0_pay4 v19 v20 v21 v22 v23) (k0_pay5 v19 v20 v21 v22 v23)
      = kLin wf0 scg0 bcg0 (kLN red0 sc0 bc0 scg0 bcg0
          (kRelu (kLin wf0 scg0 bcg0 (kLN red0 sc0 bc0 scg0 bcg0 (k0_pay2 v19 v20 v21 v22 v23) g2 β2) W3 b3)) g3 β3) W4 b4 := rfl

theorem hz2 : (![0, 0] : Fin 2 → Nat) = fun _ => 0 := funext fun a => by fin_cases a <;> rfl
theorem hz1 : (![0] : Fin 1 → Nat) = fun _ => 0 := funext fun a => by fin_cases a; rfl

open Cert.Spec in
/-- The body's new-features payload at entry (p, q): the tail of the first layer's row. -/
theorem new_payload_apply (x0 x1 x2 : FVec Ideal S8000x128 .f32) (x3 x4 x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 x13 x14 x15 x16 x17 x18 : FVec Ideal S128 .f32) (p : Fin 8000) (q : Fin 128) :
    k0_pay6 (F := Ideal) x15 x16 x17 x18 x9 x10 x11 x12
        (k0_pay2 (k0_pay1 x0 x1 x2 x3 x4 x5 x6) x7 x8 x13 x14) (k0_pay4 (k0_pay1 x0 x1 x2 x3 x4 x5 x6) x7 x8 x13 x14)
        (k0_pay5 (k0_pay1 x0 x1 x2 x3 x4 x5 x6) x7 x8 x13 x14) (ix2 p q)
      = Row.tail (Spec.TailW.mk x13 x14 x7 x8 x15 x16 x9 x10 x17 x18 x11 x12).rows
          (Row.first3parts (mat x3) (mat x4) (mat x5) (vec x6) (row x0 p) (row x1 p) (row x2 p)) q := by
  rw [pay6_eq, pay2_eq, pay1_eq]
  simp only [kLin_apply, kLN_apply, kRelu_apply, addf_apply, kMat_apply, kBias_apply]
  rfl

open Cert.Spec in
/-- What the body leaves in the new-features window, at entry (p, q) of the block. -/
theorem out19_apply (x0 x1 x2 : FVec Ideal S8000x128 .f32) (x3 x4 x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 x13 x14 x15 x16 x17 x18 : FVec Ideal S128 .f32) (p : Fin 8000) (q : Fin 128) :
    out0_19 (F := Ideal) x0 x1 x2 x3 x4 x5 x6 x7 x8 x9 x10 x11 x12 x13 x14 x15 x16 x17 x18 (ix2 p q)
      = Row.tail (Spec.TailW.mk x13 x14 x7 x8 x15 x16 x9 x10 x17 x18 x11 x12).rows
          (Row.first3parts (mat x3) (mat x4) (mat x5) (vec x6) (row x0 p) (row x1 p) (row x2 p)) q := by
  unfold out0_19
  rw [View.canon_unit_zero hz2]
  simp only [View.ld_unit_zero (S := S8000x128) hz2, View.ld_unit_zero (S := S128x128) hz2, View.ld_unit_zero (S := S128) hz1]
  exact new_payload_apply x0 x1 x2 x3 x4 x5 x6 x7 x8 x9 x10 x11 x12 x13 x14 x15 x16 x17 x18 p q

open Cert.Spec in
/-- What the body leaves in the residual window, at entry (p, q) of the block: the edge feature plus the new one. -/
theorem out20_apply (x0 x1 x2 : FVec Ideal S8000x128 .f32) (x3 x4 x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 x13 x14 x15 x16 x17 x18 : FVec Ideal S128 .f32) (p : Fin 8000) (q : Fin 128) :
    out0_20 (F := Ideal) x0 x1 x2 x3 x4 x5 x6 x7 x8 x9 x10 x11 x12 x13 x14 x15 x16 x17 x18 (ix2 p q)
      = x0 (ix2 p q) + Row.tail (Spec.TailW.mk x13 x14 x7 x8 x15 x16 x9 x10 x17 x18 x11 x12).rows
          (Row.first3parts (mat x3) (mat x4) (mat x5) (vec x6) (row x0 p) (row x1 p) (row x2 p)) q := by
  unfold out0_20
  rw [View.canon_unit_zero hz2]
  simp only [View.ld_unit_zero (S := S8000x128) hz2, View.ld_unit_zero (S := S128x128) hz2, View.ld_unit_zero (S := S128) hz1]
  show x0 (ix2 p q) + _ = _
  exact congrArg (x0 (ix2 p q) + ·) (new_payload_apply x0 x1 x2 x3 x4 x5 x6 x7 x8 x9 x10 x11 x12 x13 x14 x15 x16 x17 x18 p q)

end Cert.KEdge

end
-- ==== Proof.KArr.lean ====
/-
  From blocks to arrays: the edge kernel.

  The edge kernel runs at 50 grid points; point t stages rows 8000 t … 8000 t + 7999 of the three edge-sized arrays (and
  every weight whole) and writes back the same rows of its two outputs. A block's entry (p, q) is the array's entry
  (8000 t + p, q), the body's result at (p, q) depends on row p of the blocks only, and the 50 blocks tile the 400000
  rows: so after the run each output array is, entry by entry, the row function of its own row of the inputs, as the
  region found them.
-/
import proofs.«419719_j17008070492485_2_alg».proof.Proof.Gen.KernelIdeal.Frame
import proofs.«419719_j17008070492485_2_alg».proof.Proof.KEdge
import proofs.«419719_j17008070492485_2_alg».proof.Proof.Spec
import Idealize.ShloMosaic.Lib.Pipeline.Value

set_option maxRecDepth 16384

noncomputable section

namespace Cert.KArr

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when a region is entered
variable (V : (c : Dev nD) → (b : Ref sig .tc) → Buf (Elt Ideal) ((c : Thread nD τ).loc b))

/-! ## Where each window's block sits: its block index at point t, decided over the 50 points -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_19 : ∀ t : Fin cfg0.N, win0_19.index t (0 : Fin 2) = t.val ∧ win0_19.index t (1 : Fin 2) = 0 :=
  (by decide +kernel : ∀ t : Fin grid0.N, _)
theorem idx0_20 : ∀ t : Fin cfg0.N, win0_20.index t (0 : Fin 2) = t.val ∧ win0_20.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 1) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 1) = 0 :=
  (by decide +kernel : ∀ t : Fin grid0.N, _)
theorem idx0_13 : ∀ t : Fin cfg0.N, win0_13.index t (0 : Fin 1) = 0 :=
  (by decide +kernel : ∀ t : Fin grid0.N, _)
theorem idx0_14 : ∀ t : Fin cfg0.N, win0_14.index t (0 : Fin 1) = 0 :=
  (by decide +kernel : ∀ t : Fin grid0.N, _)
theorem idx0_15 : ∀ t : Fin cfg0.N, win0_15.index t (0 : Fin 1) = 0 :=
  (by decide +kernel : ∀ t : Fin grid0.N, _)
theorem idx0_16 : ∀ t : Fin cfg0.N, win0_16.index t (0 : Fin 1) = 0 :=
  (by decide +kernel : ∀ t : Fin grid0.N, _)
theorem idx0_17 : ∀ t : Fin cfg0.N, win0_17.index t (0 : Fin 1) = 0 :=
  (by decide +kernel : ∀ t : Fin grid0.N, _)
theorem idx0_18 : ∀ t : Fin cfg0.N, win0_18.index t (0 : Fin 1) = 0 :=
  (by decide +kernel : ∀ t : Fin grid0.N, _)

/-- The edge grid has 50 points. -/
theorem t_lt0 (t : Fin cfg0.N) : t.val < 50 := lt_of_lt_of_eq t.isLt N_0

/-! ## Each input block read off its array -/

/-- Entry (p, k) of row window 0's block at point t is entry (8000 t + p, k) of its array. -/
theorem iblk0_0_apply (c : Dev nD) (t : Fin cfg0.N) (p : Fin 8000) (k : Fin 128) (hr : 8000 * t.val + p.val < 400000) :
    iblk0 (F := Ideal) V c 0 t (ix2 p k) = V c main_arg1 (ix2 ⟨8000 * t.val + p.val, hr⟩ k) := by
  obtain ⟨e0, e1⟩ := idx0_0 t
  show V c main_arg1 (((cfg0.win 0).blk t).view.emb (ix2 p k)) = _
  congr 1
  funext a
  apply Fin.ext
  match a with
  | ⟨0, _⟩ => show win0_0.index t (0 : Fin 2) * 8000 + 1 * p.val = 8000 * t.val + p.val; rw [e0]; omega
  | ⟨1, _⟩ => show win0_0.index t (1 : Fin 2) * 128 + 1 * k.val = k.val; rw [e1]; omega

/-- Entry (p, k) of row window 1's block at point t is entry (8000 t + p, k) of its array. -/
theorem iblk0_1_apply (c : Dev nD) (t : Fin cfg0.N) (p : Fin 8000) (k : Fin 128) (hr : 8000 * t.val + p.val < 400000) :
    iblk0 (F := Ideal) V c 1 t (ix2 p k) = V c main_v4 (ix2 ⟨8000 * t.val + p.val, hr⟩ k) := by
  obtain ⟨e0, e1⟩ := idx0_1 t
  show V c main_v4 (((cfg0.win 1).blk t).view.emb (ix2 p k)) = _
  congr 1
  funext a
  apply Fin.ext
  match a with
  | ⟨0, _⟩ => show win0_1.index t (0 : Fin 2) * 8000 + 1 * p.val = 8000 * t.val + p.val; rw [e0]; omega
  | ⟨1, _⟩ => show win0_1.index t (1 : Fin 2) * 128 + 1 * k.val = k.val; rw [e1]; omega

/-- Entry (p, k) of row window 2's block at point t is entry (8000 t + p, k) of its array. -/
theorem iblk0_2_apply (c : Dev nD) (t : Fin cfg0.N) (p : Fin 8000) (k : Fin 128) (hr : 8000 * t.val + p.val < 400000) :
    iblk0 (F := Ideal) V c 2 t (ix2 p k) = V c main_v5 (ix2 ⟨8000 * t.val + p.val, hr⟩ k) := by
  obtain ⟨e0, e1⟩ := idx0_2 t
  show V c main_v5 (((cfg0.win 2).blk t).view.emb (ix2 p k)) = _
  congr 1
  funext a
  apply Fin.ext
  match a with
  | ⟨0, _⟩ => show win0_2.index t (0 : Fin 2) * 8000 + 1 * p.val = 8000 * t.val + p.val; rw [e0]; omega
  | ⟨1, _⟩ => show win0_2.index t (1 : Fin 2) * 128 + 1 * k.val = k.val; rw [e1]; omega

/-- Weight window 3's one block is its array. -/
theorem iblk0_3_eq (c : Dev nD) (t : Fin cfg0.N) : iblk0 (F := Ideal) V c 3 t = V c main_v6 := by
  obtain ⟨e0, e1⟩ := idx0_3 t
  funext y
  obtain ⟨i, j, rfl⟩ : ∃ (i : Fin 128) (j : Fin 128), y = ix2 i j := ⟨y 0, y 1, eq_ix2 y⟩
  show V c main_v6 (((cfg0.win 3).blk t).view.emb (ix2 i j)) = V c main_v6 (ix2 i j)
  congr 1
  funext a
  apply Fin.ext
  match a with
  | ⟨0, _⟩ => show win0_3.index t (0 : Fin 2) * 128 + 1 * i.val = i.val; rw [e0]; omega
  | ⟨1, _⟩ => show win0_3.index t (1 : Fin 2) * 128 + 1 * j.val = j.val; rw [e1]; omega

/-- Weight window 4's one block is its array. -/
theorem iblk0_4_eq (c : Dev nD) (t : Fin cfg0.N) : iblk0 (F := Ideal) V c 4 t = V c main_v7 := by
  obtain ⟨e0, e1⟩ := idx0_4 t
  funext y
  obtain ⟨i, j, rfl⟩ : ∃ (i : Fin 128) (j : Fin 128), y = ix2 i j := ⟨y 0, y 1, eq_ix2 y⟩
  show V c main_v7 (((cfg0.win 4).blk t).view.emb (ix2 i j)) = V c main_v7 (ix2 i j)
  congr 1
  funext a
  apply Fin.ext
  match a with
  | ⟨0, _⟩ => show win0_4.index t (0 : Fin 2) * 128 + 1 * i.val = i.val; rw [e0]; omega
  | ⟨1, _⟩ => show win0_4.index t (1 : Fin 2) * 128 + 1 * j.val = j.val; rw [e1]; omega

/-- Weight window 5's one block is its array. -/
theorem iblk0_5_eq (c : Dev nD) (t : Fin cfg0.N) : iblk0 (F := Ideal) V c 5 t = V c main_v8 := by
  obtain ⟨e0, e1⟩ := idx0_5 t
  funext y
  obtain ⟨i, j, rfl⟩ : ∃ (i : Fin 128) (j : Fin 128), y = ix2 i j := ⟨y 0, y 1, eq_ix2 y⟩
  show V c main_v8 (((cfg0.win 5).blk t).view.emb (ix2 i j)) = V c main_v8 (ix2 i j)
  congr 1
  funext a
  apply Fin.ext
  match a with
  | ⟨0, _⟩ => show win0_5.index t (0 : Fin 2) * 128 + 1 * i.val = i.val; rw [e0]; omega
  | ⟨1, _⟩ => show win0_5.index t (1 : Fin 2) * 128 + 1 * j.val = j.val; rw [e1]; omega

/-- Weight window 6's one block is its array. -/
theorem iblk0_6_eq (c : Dev nD) (t : Fin cfg0.N) : iblk0 (F := Ideal) V c 6 t = V c main_arg4 := by
  have e0 := idx0_6 t
  funext y
  obtain ⟨i, rfl⟩ : ∃ (i : Fin 128), y = ix1 i := ⟨y 0, eq_ix1 y⟩
  show V c main_arg4 (((cfg0.win 6).blk t).view.emb (ix1 i)) = V c main_arg4 (ix1 i)
  congr 1
  funext a
  apply Fin.ext
  match a with
  | ⟨0, _⟩ => show win0_6.index t (0 : Fin 1) * 128 + 1 * i.val = i.val; rw [e0]; omega

/-- Weight window 7's one block is its array. -/
theorem iblk0_7_eq (c : Dev nD) (t : Fin cfg0.N) : iblk0 (F := Ideal) V c 7 t = V c main_arg5 := by
  obtain ⟨e0, e1⟩ := idx0_7 t
  funext y
  obtain ⟨i, j, rfl⟩ : ∃ (i : Fin 128) (j : Fin 128), y = ix2 i j := ⟨y 0, y 1, eq_ix2 y⟩
  show V c main_arg5 (((cfg0.win 7).blk t).view.emb (ix2 i j)) = V c main_arg5 (ix2 i j)
  congr 1
  funext a
  apply Fin.ext
  match a with
  | ⟨0, _⟩ => show win0_7.index t (0 : Fin 2) * 128 + 1 * i.val = i.val; rw [e0]; omega
  | ⟨1, _⟩ => show win0_7.index t (1 : Fin 2) * 128 + 1 * j.val = j.val; rw [e1]; omega

/-- Weight window 8's one block is its array. -/
theorem iblk0_8_eq (c : Dev nD) (t : Fin cfg0.N) : iblk0 (F := Ideal) V c 8 t = V c main_arg6 := by
  have e0 := idx0_8 t
  funext y
  obtain ⟨i, rfl⟩ : ∃ (i : Fin 128), y = ix1 i := ⟨y 0, eq_ix1 y⟩
  show V c main_arg6 (((cfg0.win 8).blk t).view.emb (ix1 i)) = V c main_arg6 (ix1 i)
  congr 1
  funext a
  apply Fin.ext
  match a with
  | ⟨0, _⟩ => show win0_8.index t (0 : Fin 1) * 128 + 1 * i.val = i.val; rw [e0]; omega

/-- Weight window 9's one block is its array. -/
theorem iblk0_9_eq (c : Dev nD) (t : Fin cfg0.N) : iblk0 (F := Ideal) V c 9 t = V c main_arg7 := by
  obtain ⟨e0, e1⟩ := idx0_9 t
  funext y
  obtain ⟨i, j, rfl⟩ : ∃ (i : Fin 128) (j : Fin 128), y = ix2 i j := ⟨y 0, y 1, eq_ix2 y⟩
  show V c main_arg7 (((cfg0.win 9).blk t).view.emb (ix2 i j)) = V c main_arg7 (ix2 i j)
  congr 1
  funext a
  apply Fin.ext
  match a with
  | ⟨0, _⟩ => show win0_9.index t (0 : Fin 2) * 128 + 1 * i.val = i.val; rw [e0]; omega
  | ⟨1, _⟩ => show win0_9.index t (1 : Fin 2) * 128 + 1 * j.val = j.val; rw [e1]; omega

/-- Weight window 10's one block is its array. -/
theorem iblk0_10_eq (c : Dev nD) (t : Fin cfg0.N) : iblk0 (F := Ideal) V c 10 t = V c main_arg8 := by
  have e0 := idx0_10 t
  funext y
  obtain ⟨i, rfl⟩ : ∃ (i : Fin 128), y = ix1 i := ⟨y 0, eq_ix1 y⟩
  show V c main_arg8 (((cfg0.win 10).blk t).view.emb (ix1 i)) = V c main_arg8 (ix1 i)
  congr 1
  funext a
  apply Fin.ext
  match a with
  | ⟨0, _⟩ => show win0_10.index t (0 : Fin 1) * 128 + 1 * i.val = i.val; rw [e0]; omega

/-- Weight window 11's one block is its array. -/
theorem iblk0_11_eq (c : Dev nD) (t : Fin cfg0.N) : iblk0 (F := Ideal) V c 11 t = V c main_arg9 := by
  obtain ⟨e0, e1⟩ := idx0_11 t
  funext y
  obtain ⟨i, j, rfl⟩ : ∃ (i : Fin 128) (j : Fin 128), y = ix2 i j := ⟨y 0, y 1, eq_ix2 y⟩
  show V c main_arg9 (((cfg0.win 11).blk t).view.emb (ix2 i j)) = V c main_arg9 (ix2 i j)
  congr 1
  funext a
  apply Fin.ext
  match a with
  | ⟨0, _⟩ => show win0_11.index t (0 : Fin 2) * 128 + 1 * i.val = i.val; rw [e0]; omega
  | ⟨1, _⟩ => show win0_11.index t (1 : Fin 2) * 128 + 1 * j.val = j.val; rw [e1]; omega

/-- Weight window 12's one block is its array. -/
theorem iblk0_12_eq (c : Dev nD) (t : Fin cfg0.N) : iblk0 (F := Ideal) V c 12 t = V c main_arg10 := by
  have e0 := idx0_12 t
  funext y
  obtain ⟨i, rfl⟩ : ∃ (i : Fin 128), y = ix1 i := ⟨y 0, eq_ix1 y⟩
  show V c main_arg10 (((cfg0.win 12).blk t).view.emb (ix1 i)) = V c main_arg10 (ix1 i)
  congr 1
  funext a
  apply Fin.ext
  match a with
  | ⟨0, _⟩ => show win0_12.index t (0 : Fin 1) * 128 + 1 * i.val = i.val; rw [e0]; omega

/-- Weight window 13's one block is its array. -/
theorem iblk0_13_eq (c : Dev nD) (t : Fin cfg0.N) : iblk0 (F := Ideal) V c 13 t = V c main_arg11 := by
  have e0 := idx0_13 t
  funext y
  obtain ⟨i, rfl⟩ : ∃ (i : Fin 128), y = ix1 i := ⟨y 0, eq_ix1 y⟩
  show V c main_arg11 (((cfg0.win 13).blk t).view.emb (ix1 i)) = V c main_arg11 (ix1 i)
  congr 1
  funext a
  apply Fin.ext
  match a with
  | ⟨0, _⟩ => show win0_13.index t (0 : Fin 1) * 128 + 1 * i.val = i.val; rw [e0]; omega

/-- Weight window 14's one block is its array. -/
theorem iblk0_14_eq (c : Dev nD) (t : Fin cfg0.N) : iblk0 (F := Ideal) V c 14 t = V c main_arg12 := by
  have e0 := idx0_14 t
  funext y
  obtain ⟨i, rfl⟩ : ∃ (i : Fin 128), y = ix1 i := ⟨y 0, eq_ix1 y⟩
  show V c main_arg12 (((cfg0.win 14).blk t).view.emb (ix1 i)) = V c main_arg12 (ix1 i)
  congr 1
  funext a
  apply Fin.ext
  match a with
  | ⟨0, _⟩ => show win0_14.index t (0 : Fin 1) * 128 + 1 * i.val = i.val; rw [e0]; omega

/-- Weight window 15's one block is its array. -/
theorem iblk0_15_eq (c : Dev nD) (t : Fin cfg0.N) : iblk0 (F := Ideal) V c 15 t = V c main_arg13 := by
  have e0 := idx0_15 t
  funext y
  obtain ⟨i, rfl⟩ : ∃ (i : Fin 128), y = ix1 i := ⟨y 0, eq_ix1 y⟩
  show V c main_arg13 (((cfg0.win 15).blk t).view.emb (ix1 i)) = V c main_arg13 (ix1 i)
  congr 1
  funext a
  apply Fin.ext
  match a with
  | ⟨0, _⟩ => show win0_15.index t (0 : Fin 1) * 128 + 1 * i.val = i.val; rw [e0]; omega

/-- Weight window 16's one block is its array. -/
theorem iblk0_16_eq (c : Dev nD) (t : Fin cfg0.N) : iblk0 (F := Ideal) V c 16 t = V c main_arg14 := by
  have e0 := idx0_16 t
  funext y
  obtain ⟨i, rfl⟩ : ∃ (i : Fin 128), y = ix1 i := ⟨y 0, eq_ix1 y⟩
  show V c main_arg14 (((cfg0.win 16).blk t).view.emb (ix1 i)) = V c main_arg14 (ix1 i)
  congr 1
  funext a
  apply Fin.ext
  match a with
  | ⟨0, _⟩ => show win0_16.index t (0 : Fin 1) * 128 + 1 * i.val = i.val; rw [e0]; omega

/-- Weight window 17's one block is its array. -/
theorem iblk0_17_eq (c : Dev nD) (t : Fin cfg0.N) : iblk0 (F := Ideal) V c 17 t = V c main_arg15 := by
  have e0 := idx0_17 t
  funext y
  obtain ⟨i, rfl⟩ : ∃ (i : Fin 128), y = ix1 i := ⟨y 0, eq_ix1 y⟩
  show V c main_arg15 (((cfg0.win 17).blk t).view.emb (ix1 i)) = V c main_arg15 (ix1 i)
  congr 1
  funext a
  apply Fin.ext
  match a with
  | ⟨0, _⟩ => show win0_17.index t (0 : Fin 1) * 128 + 1 * i.val = i.val; rw [e0]; omega

/-- Weight window 18's one block is its array. -/
theorem iblk0_18_eq (c : Dev nD) (t : Fin cfg0.N) : iblk0 (F := Ideal) V c 18 t = V c main_arg16 := by
  have e0 := idx0_18 t
  funext y
  obtain ⟨i, rfl⟩ : ∃ (i : Fin 128), y = ix1 i := ⟨y 0, eq_ix1 y⟩
  show V c main_arg16 (((cfg0.win 18).blk t).view.emb (ix1 i)) = V c main_arg16 (ix1 i)
  congr 1
  funext a
  apply Fin.ext
  match a with
  | ⟨0, _⟩ => show win0_18.index t (0 : Fin 1) * 128 + 1 * i.val = i.val; rw [e0]; omega

/-! ## The edge region: one entry of what a point writes back -/

/-- If row p of the three row blocks is row r of three arrays and every weight block is its array, the new-features
    block's entry (p, q) is the arrays' new edge features at (r, q). -/
theorem new_point (x0 x1 x2 : FVec Ideal S8000x128 .f32) (x3 x4 x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 x13 x14 x15 x16 x17 x18 : FVec Ideal S128 .f32)
    (Wa Wb Wc : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 128]⟩ : Shape).Idx → EReal) (b4 g1 β1 g2 β2 g3 β3 : (⟨1, ![128]⟩ : Shape).Idx → EReal)
    (EA XS XD : (⟨2, ![400000, 128]⟩ : Shape).Idx → EReal) (p : Fin 8000) (r : Fin 400000) (q : Fin 128)
    (j : (⟨2, ![400000, 128]⟩ : Shape).Idx) (hj : j = ix2 r q)
    (h0 : ∀ k, x0 (ix2 p k) = EA (ix2 r k)) (h1 : ∀ k, x1 (ix2 p k) = XS (ix2 r k)) (h2 : ∀ k, x2 (ix2 p k) = XD (ix2 r k))
    (h3 : x3 = Wa) (h4 : x4 = Wb) (h5 : x5 = Wc) (h6 : x6 = b1) (h7 : x7 = W2) (h8 : x8 = b2) (h9 : x9 = W3) (h10 : x10 = b3) (h11 : x11 = W4) (h12 : x12 = b4) (h13 : x13 = g1) (h14 : x14 = β1) (h15 : x15 = g2) (h16 : x16 = β2) (h17 : x17 = g3) (h18 : x18 = β3) :
    out0_19 (F := Ideal) x0 x1 x2 x3 x4 x5 x6 x7 x8 x9 x10 x11 x12 x13 x14 x15 x16 x17 x18 (ix2 p q)
      = Spec.edgeNewParts Wa Wb Wc b1 (Spec.TailW.mk g1 β1 W2 b2 g2 β2 W3 b3 g3 β3 W4 b4) EA XS XD j := by
  subst hj h3 h4 h5 h6 h7 h8 h9 h10 h11 h12 h13 h14 h15 h16 h17 h18
  rw [Cert.KEdge.out19_apply, Spec.edgeNewParts_apply]
  have e0 : Spec.row x0 p = Spec.row EA r := funext h0
  have e1 : Spec.row x1 p = Spec.row XS r := funext h1
  have e2 : Spec.row x2 p = Spec.row XD r := funext h2
  rw [e0, e1, e2]

/-- Likewise the residual block's entry (p, q) is the arrays' edge features plus the new ones at (r, q). -/
theorem out_point (x0 x1 x2 : FVec Ideal S8000x128 .f32) (x3 x4 x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 x13 x14 x15 x16 x17 x18 : FVec Ideal S128 .f32)
    (Wa Wb Wc : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 128]⟩ : Shape).Idx → EReal) (b4 g1 β1 g2 β2 g3 β3 : (⟨1, ![128]⟩ : Shape).Idx → EReal)
    (EA XS XD : (⟨2, ![400000, 128]⟩ : Shape).Idx → EReal) (p : Fin 8000) (r : Fin 400000) (q : Fin 128)
    (j : (⟨2, ![400000, 128]⟩ : Shape).Idx) (hj : j = ix2 r q)
    (h0 : ∀ k, x0 (ix2 p k) = EA (ix2 r k)) (h1 : ∀ k, x1 (ix2 p k) = XS (ix2 r k)) (h2 : ∀ k, x2 (ix2 p k) = XD (ix2 r k))
    (h3 : x3 = Wa) (h4 : x4 = Wb) (h5 : x5 = Wc) (h6 : x6 = b1) (h7 : x7 = W2) (h8 : x8 = b2) (h9 : x9 = W3) (h10 : x10 = b3) (h11 : x11 = W4) (h12 : x12 = b4) (h13 : x13 = g1) (h14 : x14 = β1) (h15 : x15 = g2) (h16 : x16 = β2) (h17 : x17 = g3) (h18 : x18 = β3) :
    out0_20 (F := Ideal) x0 x1 x2 x3 x4 x5 x6 x7 x8 x9 x10 x11 x12 x13 x14 x15 x16 x17 x18 (ix2 p q)
      = Spec.edgeOutParts Wa Wb Wc b1 (Spec.TailW.mk g1 β1 W2 b2 g2 β2 W3 b3 g3 β3 W4 b4) EA XS XD j := by
  subst hj h3 h4 h5 h6 h7 h8 h9 h10 h11 h12 h13 h14 h15 h16 h17 h18
  rw [Cert.KEdge.out20_apply, Spec.edgeOutParts_apply]
  have e0 : Spec.row x0 p = Spec.row EA r := funext h0
  have e1 : Spec.row x1 p = Spec.row XS r := funext h1
  have e2 : Spec.row x2 p = Spec.row XD r := funext h2
  rw [e0, e1, e2, h0 q]

/-! ## The first output: the new edge features -/

/-- Entry (p, q) of output window 19's block at point t sits at (8000 t + p, q) of its array. -/
theorem emb0_19 (t : Fin cfg0.N) (p : Fin 8000) (q : Fin 128) (hr : 8000 * t.val + p.val < 400000) :
    ((cfg0.win 19).blk t).view.emb (ix2 p q) = (ix2 ⟨8000 * t.val + p.val, hr⟩ q : (⟨2, ![400000, 128]⟩ : Shape).Idx) := by
  obtain ⟨e0, e1⟩ := idx0_19 t
  funext a
  apply Fin.ext
  match a with
  | ⟨0, _⟩ => show win0_19.index t (0 : Fin 2) * 8000 + 1 * p.val = 8000 * t.val + p.val; rw [e0]; omega
  | ⟨1, _⟩ => show win0_19.index t (1 : Fin 2) * 128 + 1 * q.val = q.val; rw [e1]; omega

/-- What point t writes back through window 19 is block t of the array of new edge features. -/
theorem flushed0_19_eq (c : Dev nD) (t : Fin cfg0.N) :
    (dat0 (F := Ideal) V c).flushed 19 t = ((cfg0.win 19).blk t).view.read (Elt Ideal)
      (Spec.edgeNewParts (V c main_v6) (V c main_v7) (V c main_v8) (V c main_arg4) (Spec.TailW.mk (V c main_arg11) (V c main_arg12) (V c main_arg5) (V c main_arg6) (V c main_arg13) (V c main_arg14) (V c main_arg7) (V c main_arg8) (V c main_arg15) (V c main_arg16) (V c main_arg9) (V c main_arg10))
          (V c main_arg1) (V c main_v4) (V c main_v5)) := by
  show (cfg0.win 19).cut (grid0.coords t) ((dat0 V c).after 19 t) = _
  rw [after0_19]
  funext y
  obtain ⟨p, q, rfl⟩ : ∃ (p : Fin 8000) (q : Fin 128), y = ix2 p q := ⟨y 0, y 1, eq_ix2 y⟩
  have ht := t_lt0 t
  have hr : 8000 * t.val + p.val < 400000 := by have := p.isLt; omega
  show out0_19 (F := Ideal) _ _ _ _ _ _ _ _ _ _ _ _ _ _ _ _ _ _ _ (ix2 p q) = (Spec.edgeNewParts (V c main_v6) (V c main_v7) (V c main_v8) (V c main_arg4) (Spec.TailW.mk (V c main_arg11) (V c main_arg12) (V c main_arg5) (V c main_arg6) (V c main_arg13) (V c main_arg14) (V c main_arg7) (V c main_arg8) (V c main_arg15) (V c main_arg16) (V c main_arg9) (V c main_arg10))
          (V c main_arg1) (V c main_v4) (V c main_v5)) (((cfg0.win 19).blk t).view.emb (ix2 p q))
  exact new_point _ _ _ _ _ _ _ _ _ _ _ _ _ _ _ _ _ _ _ _ _ _ _ _ _ _ _ _ _ _ _ _ _ _ _ _ _ _ p ⟨8000 * t.val + p.val, hr⟩ q _ (emb0_19 t p q hr)
    (fun k => iblk0_0_apply V c t p k hr) (fun k => iblk0_1_apply V c t p k hr) (fun k => iblk0_2_apply V c t p k hr)
    (iblk0_3_eq V c t) (iblk0_4_eq V c t) (iblk0_5_eq V c t) (iblk0_6_eq V c t) (iblk0_7_eq V c t) (iblk0_8_eq V c t) (iblk0_9_eq V c t) (iblk0_10_eq V c t) (iblk0_11_eq V c t) (iblk0_12_eq V c t) (iblk0_13_eq V c t) (iblk0_14_eq V c t) (iblk0_15_eq V c t) (iblk0_16_eq V c t) (iblk0_17_eq V c t) (iblk0_18_eq V c t)

/-- An index of the array is in point t's block of window 19 iff each coordinate is in the block's range. -/
theorem mem_blk0_19 (t : Fin cfg0.N) (i : (⟨2, ![400000, 128]⟩ : Shape).Idx) :
    i ∈ ((cfg0.win 19).blk t).view.set ↔ ∀ a : Fin 2, win0_19.index t a * S8000x128.size a ≤ (i a).val ∧ (i a).val < win0_19.index t a * S8000x128.size a + S8000x128.size a := by
  show i ∈ ((View.whole main_v9_0).slice (win0_19.rect t)).set ↔ _
  rw [View.set_slice_whole, Rect.mem_set_unit]
  exact Iff.rfl

/-- The 50 blocks of window 19 cover the array: row r is in the block of point r / 8000. -/
theorem cover0_19_arr (i : (⟨2, ![400000, 128]⟩ : Shape).Idx) :
    ∃ t : Fin cfg0.N, (cfg0.win 19).flush t = true ∧ i ∈ ((cfg0.win 19).blk t).view.set := by
  have hi0 : (i 0).val < 400000 := (i 0).isLt
  have hi1 : (i 1).val < 128 := (i 1).isLt
  obtain ⟨t, ht⟩ : ∃ t : Fin cfg0.N, t.val = (i 0).val / 8000 :=
    ⟨⟨(i 0).val / 8000, lt_of_lt_of_eq (show (i 0).val / 8000 < 50 by omega) N_0.symm⟩, rfl⟩
  obtain ⟨e0, e1⟩ := idx0_19 t
  refine ⟨t, flush0_19 t, ?_⟩
  rw [mem_blk0_19]
  intro a
  match a with
  | ⟨0, _⟩ => show win0_19.index t (0 : Fin 2) * 8000 ≤ (i 0).val ∧ (i 0).val < win0_19.index t (0 : Fin 2) * 8000 + 8000; rw [e0, ht]; omega
  | ⟨1, _⟩ => show win0_19.index t (1 : Fin 2) * 128 ≤ (i 1).val ∧ (i 1).val < win0_19.index t (1 : Fin 2) * 128 + 128; rw [e1]; omega

/-- After the edge region, its first output array holds the new edge features of the arrays the region found. -/
theorem edge_new_arr (c : Dev nD) :
    (dat0 (F := Ideal) V c).arrAt 19 cfg0.N
      = Spec.edgeNewParts (V c main_v6) (V c main_v7) (V c main_v8) (V c main_arg4) (Spec.TailW.mk (V c main_arg11) (V c main_arg12) (V c main_arg5) (V c main_arg6) (V c main_arg13) (V c main_arg14) (V c main_arg7) (V c main_arg8) (V c main_arg15) (V c main_arg16) (V c main_arg9) (V c main_arg10))
          (V c main_arg1) (V c main_v4) (V c main_v5) :=
  (dat0 (F := Ideal) V c).arrAt_eq_of_cover 19 _ (fun t _ => flushed0_19_eq V c t) cover0_19_arr

/-! ## The second output: the edge features plus the new ones -/

/-- Entry (p, q) of output window 20's block at point t sits at (8000 t + p, q) of its array. -/
theorem emb0_20 (t : Fin cfg0.N) (p : Fin 8000) (q : Fin 128) (hr : 8000 * t.val + p.val < 400000) :
    ((cfg0.win 20).blk t).view.emb (ix2 p q) = (ix2 ⟨8000 * t.val + p.val, hr⟩ q : (⟨2, ![400000, 128]⟩ : Shape).Idx) := by
  obtain ⟨e0, e1⟩ := idx0_20 t
  funext a
  apply Fin.ext
  match a with
  | ⟨0, _⟩ => show win0_20.index t (0 : Fin 2) * 8000 + 1 * p.val = 8000 * t.val + p.val; rw [e0]; omega
  | ⟨1, _⟩ => show win0_20.index t (1 : Fin 2) * 128 + 1 * q.val = q.val; rw [e1]; omega

/-- What point t writes back through window 20 is block t of the array of edge features plus new edge features. -/
theorem flushed0_20_eq (c : Dev nD) (t : Fin cfg0.N) :
    (dat0 (F := Ideal) V c).flushed 20 t = ((cfg0.win 20).blk t).view.read (Elt Ideal)
      (Spec.edgeOutParts (V c main_v6) (V c main_v7) (V c main_v8) (V c main_arg4) (Spec.TailW.mk (V c main_arg11) (V c main_arg12) (V c main_arg5) (V c main_arg6) (V c main_arg13) (V c main_arg14) (V c main_arg7) (V c main_arg8) (V c main_arg15) (V c main_arg16) (V c main_arg9) (V c main_arg10))
          (V c main_arg1) (V c main_v4) (V c main_v5)) := by
  show (cfg0.win 20).cut (grid0.coords t) ((dat0 V c).after 20 t) = _
  rw [after0_20]
  funext y
  obtain ⟨p, q, rfl⟩ : ∃ (p : Fin 8000) (q : Fin 128), y = ix2 p q := ⟨y 0, y 1, eq_ix2 y⟩
  have ht := t_lt0 t
  have hr : 8000 * t.val + p.val < 400000 := by have := p.isLt; omega
  show out0_20 (F := Ideal) _ _ _ _ _ _ _ _ _ _ _ _ _ _ _ _ _ _ _ (ix2 p q) = (Spec.edgeOutParts (V c main_v6) (V c main_v7) (V c main_v8) (V c main_arg4) (Spec.TailW.mk (V c main_arg11) (V c main_arg12) (V c main_arg5) (V c main_arg6) (V c main_arg13) (V c main_arg14) (V c main_arg7) (V c main_arg8) (V c main_arg15) (V c main_arg16) (V c main_arg9) (V c main_arg10))
          (V c main_arg1) (V c main_v4) (V c main_v5)) (((cfg0.win 20).blk t).view.emb (ix2 p q))
  exact out_point _ _ _ _ _ _ _ _ _ _ _ _ _ _ _ _ _ _ _ _ _ _ _ _ _ _ _ _ _ _ _ _ _ _ _ _ _ _ p ⟨8000 * t.val + p.val, hr⟩ q _ (emb0_20 t p q hr)
    (fun k => iblk0_0_apply V c t p k hr) (fun k => iblk0_1_apply V c t p k hr) (fun k => iblk0_2_apply V c t p k hr)
    (iblk0_3_eq V c t) (iblk0_4_eq V c t) (iblk0_5_eq V c t) (iblk0_6_eq V c t) (iblk0_7_eq V c t) (iblk0_8_eq V c t) (iblk0_9_eq V c t) (iblk0_10_eq V c t) (iblk0_11_eq V c t) (iblk0_12_eq V c t) (iblk0_13_eq V c t) (iblk0_14_eq V c t) (iblk0_15_eq V c t) (iblk0_16_eq V c t) (iblk0_17_eq V c t) (iblk0_18_eq V c t)

/-- An index of the array is in point t's block of window 20 iff each coordinate is in the block's range. -/
theorem mem_blk0_20 (t : Fin cfg0.N) (i : (⟨2, ![400000, 128]⟩ : Shape).Idx) :
    i ∈ ((cfg0.win 20).blk t).view.set ↔ ∀ a : Fin 2, win0_20.index t a * S8000x128.size a ≤ (i a).val ∧ (i a).val < win0_20.index t a * S8000x128.size a + S8000x128.size a := by
  show i ∈ ((View.whole main_v9_1).slice (win0_20.rect t)).set ↔ _
  rw [View.set_slice_whole, Rect.mem_set_unit]
  exact Iff.rfl

/-- The 50 blocks of window 20 cover the array: row r is in the block of point r / 8000. -/
theorem cover0_20_arr (i : (⟨2, ![400000, 128]⟩ : Shape).Idx) :
    ∃ t : Fin cfg0.N, (cfg0.win 20).flush t = true ∧ i ∈ ((cfg0.win 20).blk t).view.set := by
  have hi0 : (i 0).val < 400000 := (i 0).isLt
  have hi1 : (i 1).val < 128 := (i 1).isLt
  obtain ⟨t, ht⟩ : ∃ t : Fin cfg0.N, t.val = (i 0).val / 8000 :=
    ⟨⟨(i 0).val / 8000, lt_of_lt_of_eq (show (i 0).val / 8000 < 50 by omega) N_0.symm⟩, rfl⟩
  obtain ⟨e0, e1⟩ := idx0_20 t
  refine ⟨t, flush0_20 t, ?_⟩
  rw [mem_blk0_20]
  intro a
  match a with
  | ⟨0, _⟩ => show win0_20.index t (0 : Fin 2) * 8000 ≤ (i 0).val ∧ (i 0).val < win0_20.index t (0 : Fin 2) * 8000 + 8000; rw [e0, ht]; omega
  | ⟨1, _⟩ => show win0_20.index t (1 : Fin 2) * 128 ≤ (i 1).val ∧ (i 1).val < win0_20.index t (1 : Fin 2) * 128 + 128; rw [e1]; omega

/-- After the edge region, its second output array holds the edge features plus the new ones. -/
theorem edge_out_arr (c : Dev nD) :
    (dat0 (F := Ideal) V c).arrAt 20 cfg0.N
      = Spec.edgeOutParts (V c main_v6) (V c main_v7) (V c main_v8) (V c main_arg4) (Spec.TailW.mk (V c main_arg11) (V c main_arg12) (V c main_arg5) (V c main_arg6) (V c main_arg13) (V c main_arg14) (V c main_arg7) (V c main_arg8) (V c main_arg15) (V c main_arg16) (V c main_arg9) (V c main_arg10))
          (V c main_arg1) (V c main_v4) (V c main_v5) :=
  (dat0 (F := Ideal) V c).arrAt_eq_of_cover 20 _ (fun t _ => flushed0_20_eq V c t) cover0_20_arr

end Cert.KArr

end
-- ==== Proof.KNode.lean ====
/-
  The node kernel's block, row by row.

  At one grid point the node kernel holds a block of 10000 rows of node features x and of summed edge features agg, and
  the weights. It writes, for every row p of the block,
    out(p) = x(p) + tail (x(p) W1a + agg(p) W1b + b1),
  where tail is three (max with 0, normalisation, linear map) steps. The printed body is this composition of the layers
  of LibRowLayersKernel, operation for operation; read at entry (p, q) it is the row function of LibRowMLP.
-/
import proofs.«419719_j17008070492485_2_alg».proof.Proof.Gen.KernelIdeal.Frame
import proofs.«419719_j17008070492485_2_alg».proof.Proof.LibRowLayersKernel
import proofs.«419719_j17008070492485_2_alg».proof.Proof.Spec
import Idealize.ShloMosaic.Lib.Pipeline.Value

noncomputable section

open scoped BigOperators

namespace Cert.KNode

open Idealize.ShloMosaic Idealize.ShloMosaic.ValueIdx Cert.KernelIdeal Cert.KernelIdeal.Gen Cert.KLayer

abbrev wf1 := dot_S10000x128_S128x128_S10000x128_1_0_0_1_n_n_wf
abbrev red1 := reduces_S10000x128_S10000
abbrev sc1 := shapeCasts_S10000_S10000x1
abbrev bc1 := broadcasts_S10000x1_S10000x128
abbrev scg1 := shapeCasts_S128_S1x128
abbrev bcg1 := broadcasts_S1x128_S10000x128

/-- The first layer and its max with 0: two products summed, plus the bias. -/
theorem pay2_eq (v0 v1 : FVec Ideal S10000x128 .f32) (v3 v6 : FVec Ideal S128x128 .f32) (v10 : FVec Ideal S128 .f32) :
    k1_pay2 (F := Ideal) v0 v1 v3 v6 v10
      = kRelu (addf (addf (kMat wf1 v0 v3) (kMat wf1 v1 v6)) (kBias scg1 bcg1 v10)) := by
  unfold k1_pay2
  simp only [shapeCast_self]
  rfl

/-- The whole nest from the first layer's output h on: the body keeps h's row-sum column, divides it by the scalar
    128 it is handed, stops the second normalisation before its shift and adds the shift (cast to a row) in the last
    payload; composed, it is the three (normalisation, linear map) steps with two max-with-0 between, plus x. -/
theorem nest_eq (x0 : FVec Ideal S10000x128 .f32) (g3 β3 : FVec Ideal S128 .f32) (W3 : FVec Ideal S128x128 .f32)
    (b3 : FVec Ideal S128 .f32) (W4 : FVec Ideal S128x128 .f32) (b4 : FVec Ideal S128 .f32)
    (W2 : FVec Ideal S128x128 .f32) (b2 g1 β1 g2 β2 : FVec Ideal S128 .f32)
    (v0 v1 : FVec Ideal S10000x128 .f32) (v3 v6 : FVec Ideal S128x128 .f32) (v10 : FVec Ideal S128 .f32) :
    k1_pay1 (F := Ideal) x0 g3 β3 W3 b3 W4 b4
        (k1_pay4 W2 b2 g1 β1 g2 (k1_pay2 v0 v1 v3 v6 v10) (k1_pay3 v0 v1 v3 v6 v10) (Scalar.ofBits .f32 0x43000000#32))
        (k1_pay5 β2)
      = addf x0 (kLin wf1 scg1 bcg1 (kLN red1 sc1 bc1 scg1 bcg1
          (kRelu (kLin wf1 scg1 bcg1 (kLN red1 sc1 bc1 scg1 bcg1
            (kRelu (kLin wf1 scg1 bcg1 (kLN red1 sc1 bc1 scg1 bcg1 (k1_pay2 v0 v1 v3 v6 v10) g1 β1) W2 b2))
            g2 β2) W3 b3)) g3 β3) W4 b4) := rfl

theorem hz2 : (![0, 0] : Fin 2 → Nat) = fun _ => 0 := funext fun a => by fin_cases a <;> rfl
theorem hz1 : (![0] : Fin 1 → Nat) = fun _ => 0 := funext fun a => by fin_cases a; rfl

open Cert.Spec in
/-- What the body leaves in the output window, at entry (p, q) of the block: the node feature plus the perceptron's row. -/
theorem out17_apply (x0 x1 : FVec Ideal S10000x128 .f32) (x2 x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x128 .f32) (x10 x11 x12 x13 x14 x15 x16 : FVec Ideal S128 .f32) (p : Fin 10000) (q : Fin 128) :
    out1_17 (F := Ideal) x0 x1 x2 x3 x4 x5 x6 x7 x8 x9 x10 x11 x12 x13 x14 x15 x16 (ix2 p q)
      = x0 (ix2 p q) + Row.tail (Spec.TailW.mk x11 x12 x5 x6 x13 x14 x7 x8 x15 x16 x9 x10).rows
          (Row.first2parts (mat x2) (mat x3) (vec x4) (row x0 p) (row x1 p)) q := by
  unfold out1_17
  rw [View.canon_unit_zero hz2]
  simp only [View.ld_unit_zero (S := S10000x128) hz2, View.ld_unit_zero (S := S128x128) hz2, View.ld_unit_zero (S := S128) hz1]
  rw [nest_eq, pay2_eq]
  simp only [kLin_apply, kLN_apply, kRelu_apply, addf_apply, kMat_apply, kBias_apply]
  rfl

end Cert.KNode

end
-- ==== Proof.KArrNode.lean ====
/-
  From blocks to the array, for the node kernel.

  The node kernel runs at 5 grid points; point t stages rows 10000 t … 10000 t + 9999 of the node features and of the
  summed edge features (and every weight whole) and writes back the same rows of its output. A block's entry (p, q) is
  the array's entry (10000 t + p, q), the body's result at (p, q) depends on row p of the blocks only, and the 5 blocks
  tile the 50000 rows: so after the run the output array is, entry by entry, the row function of its own row of the
  inputs, as the region found them.
-/
import proofs.«419719_j17008070492485_2_alg».proof.Proof.Gen.KernelIdeal.Frame
import proofs.«419719_j17008070492485_2_alg».proof.Proof.KNode
import proofs.«419719_j17008070492485_2_alg».proof.Proof.Spec
import Idealize.ShloMosaic.Lib.Pipeline.Value

set_option maxRecDepth 16384

noncomputable section

namespace Cert.KArrNode

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when a region is entered
variable (V : (c : Dev nD) → (b : Ref sig .tc) → Buf (Elt Ideal) ((c : Thread nD τ).loc b))

/-- The printed index maps, decided over the grid: the two row windows and the output window have block index (t, 0),
    every weight window block index 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_17.index t (0 : Fin 2) = t.val ∧ win1_17.index t (1 : Fin 2) = 0 :=
  (by decide +kernel : ∀ t : Fin grid1.N, _)

theorem idx_w2 : ∀ t : Fin cfg1.N, win1_2.index t (0 : Fin 2) = 0 ∧ win1_2.index t (1 : Fin 2) = 0 :=
  (by decide +kernel : ∀ t : Fin grid1.N, _)

/-- Row window 0's block at point t is rows 10000 t … of the node features. -/
theorem iblk_0_apply (c : Dev nD) (t : Fin cfg1.N) (x : S10000x128.Idx) (k : S50000x128.Idx)
    (hk0 : (k 0).val = 10000 * t.val + (x 0).val) (hk1 : (k 1).val = (x 1).val) :
    (iblk1 (F := Ideal) V c 0 t : Vec Ideal S10000x128 .f32) x = (V c main_arg0 : S50000x128.Idx → Elt Ideal .f32) k := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- A weight window's one block is its array. -/
theorem iblk_2_eq (c : Dev nD) (t : Fin cfg1.N) :
    (iblk1 (F := Ideal) V c 2 t : Vec Ideal S128x128 .f32) = (V c main_v13 : S128x128.Idx → Elt Ideal .f32) := by
  obtain ⟨e0, e1⟩ := idx_w2 t
  funext x
  unfold iblk1
  rw [View.read_apply]
  show V c main_v13 _ = V c main_v13 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- Row window 1's block at point t is rows 10000 t … of the summed edge features. -/
theorem iblk_1_apply (c : Dev nD) (t : Fin cfg1.N) (x : S10000x128.Idx) (k : S50000x128.Idx)
    (hk0 : (k 0).val = 10000 * t.val + (x 0).val) (hk1 : (k 1).val = (x 1).val) :
    (iblk1 (F := Ideal) V c 1 t : Vec Ideal S10000x128 .f32) x = (V c main_v12 : S50000x128.Idx → Elt Ideal .f32) k := by
  obtain ⟨-, -, e0, e1, -⟩ := idx_facts t
  unfold iblk1
  rw [View.read_apply]
  show V c main_v12 _ = V c main_v12 _
  congr 1
  funext a
  apply Fin.ext
  match a with
  | ⟨0, _⟩ => show win1_1.index t 0 * 10000 + 1 * (x 0).val = (k 0).val; rw [e0, hk0]; omega
  | ⟨1, _⟩ => show win1_1.index t 1 * 128 + 1 * (x 1).val = (k 1).val; rw [e1, hk1]; omega

theorem idx_w3 : ∀ t : Fin cfg1.N, win1_3.index t (0 : Fin 2) = 0 ∧ win1_3.index t (1 : Fin 2) = 0 :=
  (by decide +kernel : ∀ t : Fin grid1.N, _)

theorem iblk_3_eq (c : Dev nD) (t : Fin cfg1.N) :
    (iblk1 (F := Ideal) V c 3 t : Vec Ideal S128x128 .f32) = (V c main_v14 : S128x128.Idx → Elt Ideal .f32) := by
  obtain ⟨e0, e1⟩ := idx_w3 t
  funext x
  unfold iblk1
  rw [View.read_apply]
  show V c main_v14 _ = V c main_v14 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

theorem idx_w4 : ∀ t : Fin cfg1.N, win1_4.index t (0 : Fin 1) = 0 :=
  (by decide +kernel : ∀ t : Fin grid1.N, _)

theorem iblk_4_eq (c : Dev nD) (t : Fin cfg1.N) :
    (iblk1 (F := Ideal) V c 4 t : Vec Ideal S128 .f32) = (V c main_arg18 : S128.Idx → Elt Ideal .f32) := by
  have e0 := idx_w4 t
  funext x
  unfold iblk1
  rw [View.read_apply]
  show V c main_arg18 _ = V c main_arg18 _
  congr 1
  funext a
  apply Fin.ext
  match a with
  | ⟨0, _⟩ => show win1_4.index t 0 * 128 + 1 * (x 0).val = (x 0).val; rw [e0]; omega

theorem idx_w5 : ∀ t : Fin cfg1.N, win1_5.index t (0 : Fin 2) = 0 ∧ win1_5.index t (1 : Fin 2) = 0 :=
  (by decide +kernel : ∀ t : Fin grid1.N, _)

theorem iblk_5_eq (c : Dev nD) (t : Fin cfg1.N) :
    (iblk1 (F := Ideal) V c 5 t : Vec Ideal S128x128 .f32) = (V c main_arg19 : S128x128.Idx → Elt Ideal .f32) := by
  obtain ⟨e0, e1⟩ := idx_w5 t
  funext x
  unfold iblk1
  rw [View.read_apply]
  show V c main_arg19 _ = V c main_arg19 _
  congr 1
  funext a
  apply Fin.ext
  match a with
  | ⟨0, _⟩ => show win1_5.index t 0 * 128 + 1 * (x 0).val = (x 0).val; rw [e0]; omega
  | ⟨1, _⟩ => show win1_5.index t 1 * 128 + 1 * (x 1).val = (x 1).val; rw [e1]; omega

theorem idx_w6 : ∀ t : Fin cfg1.N, win1_6.index t (0 : Fin 1) = 0 :=
  (by decide +kernel : ∀ t : Fin grid1.N, _)

theorem iblk_6_eq (c : Dev nD) (t : Fin cfg1.N) :
    (iblk1 (F := Ideal) V c 6 t : Vec Ideal S128 .f32) = (V c main_arg20 : S128.Idx → Elt Ideal .f32) := by
  have e0 := idx_w6 t
  funext x
  unfold iblk1
  rw [View.read_apply]
  show V c main_arg20 _ = V c main_arg20 _
  congr 1
  funext a
  apply Fin.ext
  match a with
  | ⟨0, _⟩ => show win1_6.index t 0 * 128 + 1 * (x 0).val = (x 0).val; rw [e0]; omega

theorem idx_w7 : ∀ t : Fin cfg1.N, win1_7.index t (0 : Fin 2) = 0 ∧ win1_7.index t (1 : Fin 2) = 0 :=
  (by decide +kernel : ∀ t : Fin grid1.N, _)

theorem iblk_7_eq (c : Dev nD) (t : Fin cfg1.N) :
    (iblk1 (F := Ideal) V c 7 t : Vec Ideal S128x128 .f32) = (V c main_arg21 : S128x128.Idx → Elt Ideal .f32) := by
  obtain ⟨e0, e1⟩ := idx_w7 t
  funext x
  unfold iblk1
  rw [View.read_apply]
  show V c main_arg21 _ = V c main_arg21 _
  congr 1
  funext a
  apply Fin.ext
  match a with
  | ⟨0, _⟩ => show win1_7.index t 0 * 128 + 1 * (x 0).val = (x 0).val; rw [e0]; omega
  | ⟨1, _⟩ => show win1_7.index t 1 * 128 + 1 * (x 1).val = (x 1).val; rw [e1]; omega

theorem idx_w8 : ∀ t : Fin cfg1.N, win1_8.index t (0 : Fin 1) = 0 :=
  (by decide +kernel : ∀ t : Fin grid1.N, _)

theorem iblk_8_eq (c : Dev nD) (t : Fin cfg1.N) :
    (iblk1 (F := Ideal) V c 8 t : Vec Ideal S128 .f32) = (V c main_arg22 : S128.Idx → Elt Ideal .f32) := by
  have e0 := idx_w8 t
  funext x
  unfold iblk1
  rw [View.read_apply]
  show V c main_arg22 _ = V c main_arg22 _
  congr 1
  funext a
  apply Fin.ext
  match a with
  | ⟨0, _⟩ => show win1_8.index t 0 * 128 + 1 * (x 0).val = (x 0).val; rw [e0]; omega

theorem idx_w9 : ∀ t : Fin cfg1.N, win1_9.index t (0 : Fin 2) = 0 ∧ win1_9.index t (1 : Fin 2) = 0 :=
  (by decide +kernel : ∀ t : Fin grid1.N, _)

theorem iblk_9_eq (c : Dev nD) (t : Fin cfg1.N) :
    (iblk1 (F := Ideal) V c 9 t : Vec Ideal S128x128 .f32) = (V c main_arg23 : S128x128.Idx → Elt Ideal .f32) := by
  obtain ⟨e0, e1⟩ := idx_w9 t
  funext x
  unfold iblk1
  rw [View.read_apply]
  show V c main_arg23 _ = V c main_arg23 _
  congr 1
  funext a
  apply Fin.ext
  match a with
  | ⟨0, _⟩ => show win1_9.index t 0 * 128 + 1 * (x 0).val = (x 0).val; rw [e0]; omega
  | ⟨1, _⟩ => show win1_9.index t 1 * 128 + 1 * (x 1).val = (x 1).val; rw [e1]; omega

theorem idx_w10 : ∀ t : Fin cfg1.N, win1_10.index t (0 : Fin 1) = 0 :=
  (by decide +kernel : ∀ t : Fin grid1.N, _)

theorem iblk_10_eq (c : Dev nD) (t : Fin cfg1.N) :
    (iblk1 (F := Ideal) V c 10 t : Vec Ideal S128 .f32) = (V c main_arg24 : S128.Idx → Elt Ideal .f32) := by
  have e0 := idx_w10 t
  funext x
  unfold iblk1
  rw [View.read_apply]
  show V c main_arg24 _ = V c main_arg24 _
  congr 1
  funext a
  apply Fin.ext
  match a with
  | ⟨0, _⟩ => show win1_10.index t 0 * 128 + 1 * (x 0).val = (x 0).val; rw [e0]; omega

theorem idx_w11 : ∀ t : Fin cfg1.N, win1_11.index t (0 : Fin 1) = 0 :=
  (by decide +kernel : ∀ t : Fin grid1.N, _)

theorem iblk_11_eq (c : Dev nD) (t : Fin cfg1.N) :
    (iblk1 (F := Ideal) V c 11 t : Vec Ideal S128 .f32) = (V c main_arg25 : S128.Idx → Elt Ideal .f32) := by
  have e0 := idx_w11 t
  funext x
  unfold iblk1
  rw [View.read_apply]
  show V c main_arg25 _ = V c main_arg25 _
  congr 1
  funext a
  apply Fin.ext
  match a with
  | ⟨0, _⟩ => show win1_11.index t 0 * 128 + 1 * (x 0).val = (x 0).val; rw [e0]; omega

theorem idx_w12 : ∀ t : Fin cfg1.N, win1_12.index t (0 : Fin 1) = 0 :=
  (by decide +kernel : ∀ t : Fin grid1.N, _)

theorem iblk_12_eq (c : Dev nD) (t : Fin cfg1.N) :
    (iblk1 (F := Ideal) V c 12 t : Vec Ideal S128 .f32) = (V c main_arg26 : S128.Idx → Elt Ideal .f32) := by
  have e0 := idx_w12 t
  funext x
  unfold iblk1
  rw [View.read_apply]
  show V c main_arg26 _ = V c main_arg26 _
  congr 1
  funext a
  apply Fin.ext
  match a with
  | ⟨0, _⟩ => show win1_12.index t 0 * 128 + 1 * (x 0).val = (x 0).val; rw [e0]; omega

theorem idx_w13 : ∀ t : Fin cfg1.N, win1_13.index t (0 : Fin 1) = 0 :=
  (by decide +kernel : ∀ t : Fin grid1.N, _)

theorem iblk_13_eq (c : Dev nD) (t : Fin cfg1.N) :
    (iblk1 (F := Ideal) V c 13 t : Vec Ideal S128 .f32) = (V c main_arg27 : S128.Idx → Elt Ideal .f32) := by
  have e0 := idx_w13 t
  funext x
  unfold iblk1
  rw [View.read_apply]
  show V c main_arg27 _ = V c main_arg27 _
  congr 1
  funext a
  apply Fin.ext
  match a with
  | ⟨0, _⟩ => show win1_13.index t 0 * 128 + 1 * (x 0).val = (x 0).val; rw [e0]; omega

theorem idx_w14 : ∀ t : Fin cfg1.N, win1_14.index t (0 : Fin 1) = 0 :=
  (by decide +kernel : ∀ t : Fin grid1.N, _)

theorem iblk_14_eq (c : Dev nD) (t : Fin cfg1.N) :
    (iblk1 (F := Ideal) V c 14 t : Vec Ideal S128 .f32) = (V c main_arg28 : S128.Idx → Elt Ideal .f32) := by
  have e0 := idx_w14 t
  funext x
  unfold iblk1
  rw [View.read_apply]
  show V c main_arg28 _ = V c main_arg28 _
  congr 1
  funext a
  apply Fin.ext
  match a with
  | ⟨0, _⟩ => show win1_14.index t 0 * 128 + 1 * (x 0).val = (x 0).val; rw [e0]; omega

theorem idx_w15 : ∀ t : Fin cfg1.N, win1_15.index t (0 : Fin 1) = 0 :=
  (by decide +kernel : ∀ t : Fin grid1.N, _)

theorem iblk_15_eq (c : Dev nD) (t : Fin cfg1.N) :
    (iblk1 (F := Ideal) V c 15 t : Vec Ideal S128 .f32) = (V c main_arg29 : S128.Idx → Elt Ideal .f32) := by
  have e0 := idx_w15 t
  funext x
  unfold iblk1
  rw [View.read_apply]
  show V c main_arg29 _ = V c main_arg29 _
  congr 1
  funext a
  apply Fin.ext
  match a with
  | ⟨0, _⟩ => show win1_15.index t 0 * 128 + 1 * (x 0).val = (x 0).val; rw [e0]; omega

theorem idx_w16 : ∀ t : Fin cfg1.N, win1_16.index t (0 : Fin 1) = 0 :=
  (by decide +kernel : ∀ t : Fin grid1.N, _)

theorem iblk_16_eq (c : Dev nD) (t : Fin cfg1.N) :
    (iblk1 (F := Ideal) V c 16 t : Vec Ideal S128 .f32) = (V c main_arg30 : S128.Idx → Elt Ideal .f32) := by
  have e0 := idx_w16 t
  funext x
  unfold iblk1
  rw [View.read_apply]
  show V c main_arg30 _ = V c main_arg30 _
  congr 1
  funext a
  apply Fin.ext
  match a with
  | ⟨0, _⟩ => show win1_16.index t 0 * 128 + 1 * (x 0).val = (x 0).val; rw [e0]; omega

/-- At one point: if the two row blocks are rows o … o + 9999 of the arrays X and AGG, what the body leaves at entry
    (p, q) of its output block is the row function of row o + p of X and AGG. -/
theorem point_eq (X AGG : S50000x128.Idx → EReal) (o : ℕ) (ho : o + 10000 ≤ 50000)
    (x0 x1 : FVec Ideal S10000x128 .f32) (x2 x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x128 .f32) (x10 x11 x12 x13 x14 x15 x16 : FVec Ideal S128 .f32)
    (h0 : ∀ (p : Fin 10000) (k : Fin 128), x0 (ix2 p k) = X (ix2 (⟨o + p.val, by omega⟩ : Fin 50000) k))
    (h1 : ∀ (p : Fin 10000) (k : Fin 128), x1 (ix2 p k) = AGG (ix2 (⟨o + p.val, by omega⟩ : Fin 50000) k))
    (p : Fin 10000) (q : Fin 128) :
    out1_17 (F := Ideal) x0 x1 x2 x3 x4 x5 x6 x7 x8 x9 x10 x11 x12 x13 x14 x15 x16 (ix2 p q)
      = Spec.nodeOutParts x2 x3 x4 (Spec.TailW.mk x11 x12 x5 x6 x13 x14 x7 x8 x15 x16 x9 x10) X AGG
          (ix2 (⟨o + p.val, by omega⟩ : Fin 50000) q) := by
  rw [Cert.KNode.out17_apply, Spec.nodeOutParts_apply, h0]
  have r0 : Spec.row x0 p = Spec.row X (⟨o + p.val, by omega⟩ : Fin 50000) := funext fun k => h0 p k
  have r1 : Spec.row x1 p = Spec.row AGG (⟨o + p.val, by omega⟩ : Fin 50000) := funext fun k => h1 p k
  rw [r0, r1]

/-- What the region leaves in its output array. -/
abbrev G (c : Dev nD) : S50000x128.Idx → EReal :=
  Spec.nodeOutParts (V c main_v13) (V c main_v14) (V c main_arg18) (Spec.TailW.mk (V c main_arg25) (V c main_arg26) (V c main_arg19) (V c main_arg20) (V c main_arg27) (V c main_arg28) (V c main_arg21) (V c main_arg22) (V c main_arg29) (V c main_arg30) (V c main_arg23) (V c main_arg24))
    (V c main_arg0) (V c main_v12)

/-- What point t writes back is block t of G. -/
theorem flushed_eq (c : Dev nD) (t : Fin cfg1.N) :
    (dat1 (F := Ideal) V c).flushed 17 t = ((cfg1.win 17).blk t).view.read (Elt Ideal) (G V c) := by
  have hN : t.val < 5 := Nat.lt_of_lt_of_eq t.isLt (show cfg1.N = 5 from N_1)
  obtain ⟨-, -, -, -, e0, e1⟩ := idx_facts t
  show (cfg1.win 17).cut (grid1.coords t) ((dat1 V c).after 17 t) = _
  rw [after1_17]
  funext y
  obtain ⟨p, q, rfl⟩ : ∃ (p : Fin 10000) (q : Fin 128), y = ix2 p q := ⟨y 0, y 1, eq_ix2 y⟩
  rw [View.read_apply]
  have hemb : ((cfg1.win 17).blk t).view.emb (ix2 p q) = (ix2 (⟨10000 * t.val + p.val, by omega⟩ : Fin 50000) q : S50000x128.Idx) := by
    funext a
    apply Fin.ext
    match a with
    | ⟨0, _⟩ => show win1_17.index t 0 * 10000 + 1 * p.val = 10000 * t.val + p.val; rw [e0]; omega
    | ⟨1, _⟩ => show win1_17.index t 1 * 128 + 1 * q.val = q.val; rw [e1]; omega
  rw [hemb]
  show out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (ix2 p q) = _
  rw [iblk_2_eq, iblk_3_eq, iblk_4_eq, iblk_5_eq, iblk_6_eq, iblk_7_eq, iblk_8_eq, iblk_9_eq, iblk_10_eq, iblk_11_eq, iblk_12_eq, iblk_13_eq, iblk_14_eq, iblk_15_eq, iblk_16_eq]
  exact point_eq (V c main_arg0) (V c main_v12) (10000 * t.val) (by omega) _ _ _ _ _ _ _ _ _ _ _ _ _ _ _ _ _
    (fun p' k => iblk_0_apply V c t (ix2 p' k) _ rfl rfl) (fun p' k => iblk_1_apply V c t (ix2 p' k) _ rfl rfl) p q

/-- An index of the array is in point t's block iff each coordinate is in the block's range on its axis. -/
theorem mem_blk (t : Fin cfg1.N) (i : S50000x128.Idx) :
    i ∈ ((cfg1.win 17).blk t).view.set ↔ ∀ a : Fin 2, win1_17.index t a * S10000x128.size a ≤ (i a).val ∧ (i a).val < win1_17.index t a * S10000x128.size a + S10000x128.size a := by
  show i ∈ ((View.whole main_v15).slice (win1_17.rect t)).set ↔ _
  rw [View.set_slice_whole, Rect.mem_set_unit]
  exact Iff.rfl

/-- The five blocks tile the 50000 rows: row r is in the block of point r / 10000. -/
theorem cover (i : S50000x128.Idx) :
    ∃ t : Fin cfg1.N, (cfg1.win 17).flush t = true ∧ i ∈ ((cfg1.win 17).blk t).view.set := by
  have hi0 : (i 0).val < 50000 := (i 0).isLt
  have hi1 : (i 1).val < 128 := (i 1).isLt
  let t : Fin cfg1.N := ⟨(i 0).val / 10000, by rw [show cfg1.N = 5 from N_1]; omega⟩
  obtain ⟨-, -, -, -, e0, e1⟩ := idx_facts t
  refine ⟨t, flush1_17 t, ?_⟩
  rw [mem_blk]
  intro a
  match a with
  | ⟨0, _⟩ =>
    show win1_17.index t 0 * 10000 ≤ (i 0).val ∧ (i 0).val < win1_17.index t 0 * 10000 + 10000
    rw [e0]
    show (i 0).val / 10000 * 10000 ≤ (i 0).val ∧ (i 0).val < (i 0).val / 10000 * 10000 + 10000
    omega
  | ⟨1, _⟩ =>
    show win1_17.index t 1 * 128 ≤ (i 1).val ∧ (i 1).val < win1_17.index t 1 * 128 + 128
    rw [e1]
    omega

/-- After the node region, its output array holds the node features plus the node perceptron's rows. -/
theorem node_out_arr (c : Dev nD) :
    (dat1 (F := Ideal) V c).arrAt 17 cfg1.N
      = Spec.nodeOutParts (V c main_v13) (V c main_v14) (V c main_arg18) (Spec.TailW.mk (V c main_arg25) (V c main_arg26) (V c main_arg19) (V c main_arg20) (V c main_arg27) (V c main_arg28) (V c main_arg21) (V c main_arg22) (V c main_arg29) (V c main_arg30) (V c main_arg23) (V c main_arg24))
          (V c main_arg0) (V c main_v12) := by
  exact (dat1 (F := Ideal) V c).arrAt_eq_of_cover 17 (G V c) (fun t _ => flushed_eq V c t) (cover)

end Cert.KArrNode

end
-- ==== Proof.LibUnitAxis.lean ====
/-
  Index broadcasts and a conjunction over a unit axis, read at an index.

  A vector laid as a column, or repeated along columns, reads the vector's entry of the row; a scalar laid over any shape
  reads its one value; the conjunction of a one-bit column [M, 1] over its unit axis, from the initial value one, is the
  column's own bit.
-/
import Idealize.ShloMosaic.Lib.ValueIdx
import Idealize.ShloMosaic.Lib.Pipeline.Value
import Idealize.ShloMosaic.Lib.ValueLayout
import Idealize.ShloMosaic.PureOps.Reduce

noncomputable section

namespace Cert.LibUnitAxis

open Idealize.ShloMosaic Idealize.ShloMosaic.ValueIdx

variable {α : Type}

/-- A vector [M] laid as one column [M, 1], read at (p, 0): the vector at p. -/
theorem bcast_col_apply {M : Nat} (h : (⟨1, ![M]⟩ : Shape).BroadcastsInDim ⟨2, ![M, 1]⟩ ![0])
    (v : (⟨1, ![M]⟩ : Shape).Idx → α) (p : Fin M) :
    broadcastInDim ⟨2, ![M, 1]⟩ ![0] h v (ix2 p (0 : Fin 1)) = v (ix1 p) := by
  refine broadcastInDim_apply _ h v _ (ix1 p) ?_
  intro a
  match a with
  | ⟨0, _⟩ =>
    show p.val = if M = 1 then 0 else p.val
    split
    · next h1 => have := p.isLt; omega
    · rfl

/-- A vector [M] repeated along C columns [M, C], read at (p, q): the vector at p. -/
theorem bcast_cols_apply {M C : Nat} (h : (⟨1, ![M]⟩ : Shape).BroadcastsInDim ⟨2, ![M, C]⟩ ![0])
    (v : (⟨1, ![M]⟩ : Shape).Idx → α) (p : Fin M) (q : Fin C) :
    broadcastInDim ⟨2, ![M, C]⟩ ![0] h v (ix2 p q) = v (ix1 p) := by
  refine broadcastInDim_apply _ h v _ (ix1 p) ?_
  intro a
  match a with
  | ⟨0, _⟩ =>
    show p.val = if M = 1 then 0 else p.val
    split
    · next h1 => have := p.isLt; omega
    · rfl

/-- A scalar constant laid over a column [M, 1] or any shape reads its one value everywhere. -/
theorem bcast_scalar_apply {t : Shape} (h : (⟨0, ![]⟩ : Shape).BroadcastsInDim t ![]) (v : (⟨0, ![]⟩ : Shape).Idx → α)
    (j : t.Idx) : broadcastInDim t ![] h v j = v ix0 := by
  exact broadcastInDim_apply _ h v j ix0 (fun a => a.elim0)

/-- THE MASK'S REDUCTION. The conjunction of a one-bit column [M, 1] over its unit axis, from an initial value 1, is
    at p the column's bit at (p, 0): one element, and 1 ∧ b = b. -/
theorem reduce_andi_unit_apply {M : Nat} {u : Shape} (x : IVec ⟨2, ![M, 1]⟩ 1) (init : u.Idx → BitVec 1)
    (h : (⟨2, ![M, 1]⟩ : Shape).ReducesTo [1] ⟨1, ![M]⟩) (hu : 0 < u.numel) (hinit : ∀ i, init i = 1#1) (p : Fin M) :
    Host.reduce IntOp.andi x init h hu (ix1 p) = x (ix2 p (0 : Fin 1)) := by
  rw [Host.reduce_eq_fold]
  have hset : (Finset.univ.filter fun i : (⟨2, ![M, 1]⟩ : Shape).Idx => h.drop i = ix1 p)
      = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      funext a
      match a with
      | ⟨0, _⟩ => exact Fin.ext hv.symm
      | ⟨1, _⟩ =>
        refine Fin.ext ?_
        have h1 : (i 1).val < 1 := (i 1).isLt
        show (i 1).val = 0
        omega
    · intro e
      subst e
      funext b
      match b with
      | ⟨0, _⟩ => exact Fin.ext hv
  rw [hset, Finset.fold_singleton, hinit]
  rcases BitVec.eq_zero_or_eq_one (x (ix2 p (0 : Fin 1))) with e | e <;> rw [e] <;> decide

end Cert.LibUnitAxis

end
-- ==== Proof.LibTakeFill.lean ====
/-
  A take of rows in fill mode is the plain gather when every index is a row number.

  jnp.take(x, idx, axis=0) on an [N, C] table, in its default mode, lowers to: wrap a negative index once (idx + N where
  idx < 0); gather the rows at the wrapped indices (the gather clamps its start index into [0, N - 1]); and replace by a
  fill value every row whose wrapped index lies outside [0, N - 1], the test being taken per index, reduced with "and"
  over the unit axis of the [M, 1] index column, and laid along the row. When every index already lies in [0, N), the
  wrap does nothing, the test holds for every row, and the whole expression is the gather at the wrapped indices.
  Stated with the lowering's own operations and its shape facts as variables, so it applies to a program's own text.
-/
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import proofs.«419719_j17008070492485_2_alg».proof.Proof.LibUnitAxis

noncomputable section

namespace Cert.LibTakeFill

open Idealize.ShloMosaic Idealize.ShloMosaic.ValueIdx

variable {N C M : ℕ}

abbrev S0 : Shape := ⟨0, ![]⟩
abbrev S1 : Shape := ⟨1, ![1]⟩
abbrev S11 : Shape := ⟨2, ![1, 1]⟩

/-- The wrapped index column: idx + n where idx < 0, else idx, laid as an [M, 1] column. (nWord is N as a 32-bit word.) -/
def wrapCol (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) : IVec ⟨2, ![M, 1]⟩ 32 :=
  broadcastInDim ⟨2, ![M, 1]⟩ ![0] bcol
    (select (cmpi .slt idx (broadcastInDim ⟨1, ![M]⟩ ![] b0 (constantI S0 32 0#32)))
      (addi idx (broadcastInDim ⟨1, ![M]⟩ ![] b0 (constantI S0 32 nWord))) idx)

/-- The in-range test of an index column, per row, laid along the C columns: 0 ≤ w ≤ maxWord, "and"-reduced over the unit axis. -/
def inRangeMask (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32) : IVec ⟨2, ![M, C]⟩ 1 :=
  broadcastInDim ⟨2, ![M, C]⟩ ![0] bc
    (Host.reduce IntOp.andi
      (andi (cmpi .sge w (broadcastInDim ⟨2, ![M, 1]⟩ ![] b01 (constantI S0 32 0#32)))
            (cmpi .sle w (broadcastInDim ⟨2, ![M, 1]⟩ ![0, 1] b11 (broadcastInDim S11 ![1] b1 (constantI S1 32 maxWord)))))
      (constantI S0 1 1#1) rt h0)

/-- A constant array broadcast into any shape reads the constant everywhere. -/
theorem bcast_const {s t : Shape} (dims : Fin s.rank → Fin t.rank) (h : s.BroadcastsInDim t dims) {w : ℕ} (b : BitVec w)
    (j : t.Idx) : broadcastInDim t dims h (constantI s w b) j = b := rfl

/-- A word that is non-negative as a signed number is not below zero. -/
theorem cmpi_slt_zero_of_nonneg (a : BitVec 32) (h : 0 ≤ a.toInt) : IntOp.cmpi .slt a 0#32 = 0#1 := by
  have h0 : (0#32 : BitVec 32).toInt = 0 := by decide
  have hs : a.slt 0#32 = false := by
    simp only [BitVec.slt, h0, decide_eq_false_iff_not]; omega
  show BitVec.ofBool (a.slt 0#32) = 0#1
  rw [hs]; rfl

/-- A word that is non-negative as a signed number is at least zero. -/
theorem cmpi_sge_zero_of_nonneg (a : BitVec 32) (h : 0 ≤ a.toInt) : IntOp.cmpi .sge a 0#32 = 1#1 := by
  have h0 : (0#32 : BitVec 32).toInt = 0 := by decide
  have hs : (0#32 : BitVec 32).sle a = true := by
    simp only [BitVec.sle, h0, decide_eq_true_eq]; exact h
  show BitVec.ofBool ((0#32 : BitVec 32).sle a) = 1#1
  rw [hs]; rfl

/-- A signed comparison that holds of the values holds of the words. -/
theorem cmpi_sle_of_le (a b : BitVec 32) (h : a.toInt ≤ b.toInt) : IntOp.cmpi .sle a b = 1#1 := by
  have hs : a.sle b = true := by
    simp only [BitVec.sle, decide_eq_true_eq]; exact h
  show BitVec.ofBool (a.sle b) = 1#1
  rw [hs]; rfl

/-- Where every index is a row number, the wrapped index is the index itself. -/
theorem wrapCol_apply (nWord : BitVec 32) (b0 : S0.BroadcastsInDim ⟨1, ![M]⟩ (![] : Fin 0 → Fin 1))
    (bcol : (⟨1, ![M]⟩ : Shape).BroadcastsInDim ⟨2, ![M, 1]⟩ (![0] : Fin 1 → Fin 2))
    (idx : IVec ⟨1, ![M]⟩ 32) (p : Fin M) (hp : 0 ≤ (idx (ix1 p)).toInt) :
    wrapCol nWord b0 bcol idx (ix2 p (0 : Fin 1)) = idx (ix1 p) := by
  unfold wrapCol
  rw [LibUnitAxis.bcast_col_apply, select_apply]
  have hc : cmpi .slt idx (broadcastInDim ⟨1, ![M]⟩ ![] b0 (constantI S0 32 0#32)) (ix1 p) = 0#1 :=
    cmpi_slt_zero_of_nonneg (idx (ix1 p)) hp
  rw [hc, select_zero]

/-- Where every wrapped index lies in [0, maxWord], the mask is all ones. -/
theorem inRangeMask_eq_ones (maxWord : BitVec 32)
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (w : IVec ⟨2, ![M, 1]⟩ 32)
    (hw : ∀ p : Fin M, 0 ≤ (w (ix2 p (0 : Fin 1))).toInt ∧ (w (ix2 p (0 : Fin 1))).toInt ≤ maxWord.toInt) :
    inRangeMask (C := C) maxWord b01 b1 b11 rt h0 bc w = fun _ => 1#1 := by
  funext j
  obtain ⟨p, q, rfl⟩ : ∃ (p : Fin M) (q : Fin C), j = ix2 p q := ⟨j 0, j 1, eq_ix2 j⟩
  unfold inRangeMask
  rw [LibUnitAxis.bcast_cols_apply,
    LibUnitAxis.reduce_andi_unit_apply _ (constantI S0 1 1#1) rt h0 (fun _ => rfl) p]
  show IntOp.andi (IntOp.cmpi .sge (w (ix2 p (0 : Fin 1))) 0#32) (IntOp.cmpi .sle (w (ix2 p (0 : Fin 1))) maxWord) = 1#1
  rw [cmpi_sge_zero_of_nonneg _ (hw p).1, cmpi_sle_of_le _ _ (hw p).2]
  rfl

/-- The take in fill mode: where every index lies in [0, maxWord] the filled select is its first branch, whatever the
    gathered array g and the fill f are. -/
theorem take_fill_eq {α : Type} (nWord maxWord : BitVec 32)
    (b0 : S0.BroadcastsInDim ⟨1, ![M]⟩ (![] : Fin 0 → Fin 1))
    (bcol : (⟨1, ![M]⟩ : Shape).BroadcastsInDim ⟨2, ![M, 1]⟩ (![0] : Fin 1 → Fin 2))
    (b01 : S0.BroadcastsInDim ⟨2, ![M, 1]⟩ (![] : Fin 0 → Fin 2))
    (b1 : S1.BroadcastsInDim S11 (![1] : Fin 1 → Fin 2))
    (b11 : S11.BroadcastsInDim ⟨2, ![M, 1]⟩ (![0, 1] : Fin 2 → Fin 2))
    (rt : (⟨2, ![M, 1]⟩ : Shape).ReducesTo [1] ⟨1, ![M]⟩) (h0 : 0 < S0.numel)
    (bc : (⟨1, ![M]⟩ : Shape).BroadcastsInDim ⟨2, ![M, C]⟩ (![0] : Fin 1 → Fin 2))
    (idx : IVec ⟨1, ![M]⟩ 32)
    (hidx : ∀ p : Fin M, 0 ≤ (idx (ix1 p)).toInt ∧ (idx (ix1 p)).toInt ≤ maxWord.toInt)
    (g f : (⟨2, ![M, C]⟩ : Shape).Idx → α) :
    select (inRangeMask (C := C) maxWord b01 b1 b11 rt h0 bc (wrapCol nWord b0 bcol idx)) g f = g := by
  have hw : ∀ p : Fin M, 0 ≤ (wrapCol nWord b0 bcol idx (ix2 p (0 : Fin 1))).toInt
      ∧ (wrapCol nWord b0 bcol idx (ix2 p (0 : Fin 1))).toInt ≤ maxWord.toInt := fun p => by
    rw [wrapCol_apply nWord b0 bcol idx p (hidx p).1]; exact hidx p
  rw [inRangeMask_eq_ones maxWord b01 b1 b11 rt h0 bc _ hw]
  funext j
  exact select_one (g j) (f j)

end Cert.LibTakeFill

end
-- ==== Proof.KHost.lean ====
/-
  What the two kernel regions find in their buffers, and where the results end.

  Before the edge region the program cuts the two rows of edge_index out as index vectors, takes the node rows at
  each (wrap of negatives, gather, fill of out-of-range rows), and cuts the first edge weight into three [128, 128]
  blocks; every other window of the region is an argument array, which no host operation writes. Between the regions it
  sums the region's first output by destination from zeros and cuts the first node weight into two blocks. At the end
  the second output of the edge region and the output of the node region are the program's two results, untouched since
  their regions wrote them.
-/
import proofs.«419719_j17008070492485_2_alg».proof.Proof.Gen.KernelIdeal.Frame
import proofs.«419719_j17008070492485_2_alg».proof.Proof.LibTakeFill
import Idealize.ShloMosaic.Lib.StableHlo.Run

set_option maxRecDepth 16384

noncomputable section

namespace Cert.KHost

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- Row r of edge_index as an index vector. -/
def srcIdx (c : Dev nD) : IVec S400000 32 :=
  shapeCast S400000 (extractStridedSlice S1x400000 ![0, 0] (m ((c : Thread nD τ).loc main_arg2)) slices_S2x400000_S1x400000_0_0)
    shapeCasts_S1x400000_S400000
def dstIdx (c : Dev nD) : IVec S400000 32 :=
  shapeCast S400000 (extractStridedSlice S1x400000 ![1, 0] (m ((c : Thread nD τ).loc main_arg2)) slices_S2x400000_S1x400000_1_0)
    shapeCasts_S1x400000_S400000

/-- The wrapped index column of an index vector, in the program's own shape facts. -/
abbrev wcol (idx : IVec S400000 32) : IVec S400000x1 32 :=
  LibTakeFill.wrapCol 50000#32 bcast_S_S400000 bcast_S400000_S400000x1_0 idx

/-- The take in fill mode of the node features at an index vector, as the program computes it. -/
def takeFill (c : Dev nD) (idx : IVec S400000 32) : FVec Ideal S400000x128 .f32 :=
  select (LibTakeFill.inRangeMask (C := 128) 49999#32 bcast_S_S400000x1 bcast_S1_S1x1_1 bcast_S1x1_S400000x1_0_1
      reducesTo_S400000x1_S400000_d1 h_S_ bcast_S400000_S400000x128_0 (wcol idx))
    (Host.gather gather_S50000x128_S400000x1_S400000x128_1_0_n_n_0_1_1128 (m ((c : Thread nD τ).loc main_arg0)) (wcol idx))
    (broadcastInDim S400000x128 ![] bcast_S_S400000x128 (constant (F := Ideal) S_ .f32 0x7FC00000#32))

/-! ## A buffer a stretch does not write -/

/-- No operation of the stretch writes the buffer: each operation's one result reference is another one. -/
macro "nw " ops:ident : tactic => `(tactic|
  exact List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem W1_keep (c : Dev nD) (r : Ref sig .tc)
    (h : ∀ op ∈ (hostOps0 : List (HloOp τ sig (Elt Ideal))), Proc.devRef (τ := τ) .tc r ∉ op.writes) :
    W1 m ρ c (Proc.devRef .tc r) = W0 m ρ c (Proc.devRef .tc r) := StableHlo.after_of_forall_not_mem _ _ h
theorem W2_keep (c : Dev nD) (r : Ref sig .tc)
    (h : ∀ op ∈ (hostOps0_1 : List (HloOp τ sig (Elt Ideal))), Proc.devRef (τ := τ) .tc r ∉ op.writes) :
    W2 m ρ c (Proc.devRef .tc r) = W1 m ρ c (Proc.devRef .tc r) := StableHlo.after_of_forall_not_mem _ _ h
theorem W3_keep (c : Dev nD) (r : Ref sig .tc)
    (h : ∀ op ∈ (hostOps0_2 : List (HloOp τ sig (Elt Ideal))), Proc.devRef (τ := τ) .tc r ∉ op.writes) :
    W3 m ρ c (Proc.devRef .tc r) = W2 m ρ c (Proc.devRef .tc r) := StableHlo.after_of_forall_not_mem _ _ h
theorem W4_keep (c : Dev nD) (r : Ref sig .tc)
    (h : ∀ op ∈ (hostOps0_3 : List (HloOp τ sig (Elt Ideal))), Proc.devRef (τ := τ) .tc r ∉ op.writes) :
    W4 m ρ c (Proc.devRef .tc r) = W3 m ρ c (Proc.devRef .tc r) := StableHlo.after_of_forall_not_mem _ _ h
theorem W6_keep (c : Dev nD) (r : Ref sig .tc)
    (h : ∀ op ∈ (hostOps1 : List (HloOp τ sig (Elt Ideal))), Proc.devRef (τ := τ) .tc r ∉ op.writes) :
    W6 m ρ c (Proc.devRef .tc r) = W5 m ρ c (Proc.devRef .tc r) := StableHlo.after_of_forall_not_mem _ _ h

/-- A buffer none of the first three stretches writes holds at the third's end what was launched. -/
theorem W3_launch (c : Dev nD) (r : Ref sig .tc)
    (h0 : ∀ op ∈ (hostOps0 : List (HloOp τ sig (Elt Ideal))), Proc.devRef (τ := τ) .tc r ∉ op.writes)
    (h1 : ∀ op ∈ (hostOps0_1 : List (HloOp τ sig (Elt Ideal))), Proc.devRef (τ := τ) .tc r ∉ op.writes)
    (h2 : ∀ op ∈ (hostOps0_2 : List (HloOp τ sig (Elt Ideal))), Proc.devRef (τ := τ) .tc r ∉ op.writes) :
    W3 m ρ c (Proc.devRef .tc r) = m ((c : Thread nD τ).loc r) :=
  (W3_keep m ρ c r h2).trans ((W2_keep m ρ c r h1).trans (W1_keep m ρ c r h0))

/-- A buffer none of the four stretches before the edge region writes holds at its entry what was launched. -/
theorem W4_launch (c : Dev nD) (r : Ref sig .tc)
    (h0 : ∀ op ∈ (hostOps0 : List (HloOp τ sig (Elt Ideal))), Proc.devRef (τ := τ) .tc r ∉ op.writes)
    (h1 : ∀ op ∈ (hostOps0_1 : List (HloOp τ sig (Elt Ideal))), Proc.devRef (τ := τ) .tc r ∉ op.writes)
    (h2 : ∀ op ∈ (hostOps0_2 : List (HloOp τ sig (Elt Ideal))), Proc.devRef (τ := τ) .tc r ∉ op.writes)
    (h3 : ∀ op ∈ (hostOps0_3 : List (HloOp τ sig (Elt Ideal))), Proc.devRef (τ := τ) .tc r ∉ op.writes) :
    W4 m ρ c (Proc.devRef .tc r) = m ((c : Thread nD τ).loc r) :=
  (W4_keep m ρ c r h3).trans (W3_launch m ρ c r h0 h1 h2)

/-- The same at the node region's entry, for a buffer that is no array of the edge region and that the stretch between
    the regions does not write either. -/
theorem W6_launch (c : Dev nD) (r : Ref sig .tc)
    (h0 : ∀ op ∈ (hostOps0 : List (HloOp τ sig (Elt Ideal))), Proc.devRef (τ := τ) .tc r ∉ op.writes)
    (h1 : ∀ op ∈ (hostOps0_1 : List (HloOp τ sig (Elt Ideal))), Proc.devRef (τ := τ) .tc r ∉ op.writes)
    (h2 : ∀ op ∈ (hostOps0_2 : List (HloOp τ sig (Elt Ideal))), Proc.devRef (τ := τ) .tc r ∉ op.writes)
    (h3 : ∀ op ∈ (hostOps0_3 : List (HloOp τ sig (Elt Ideal))), Proc.devRef (τ := τ) .tc r ∉ op.writes)
    (hr : ∀ w, Pipeline.arrRef spec0 w ≠ r)
    (h5 : ∀ op ∈ (hostOps1 : List (HloOp τ sig (Elt Ideal))), Proc.devRef (τ := τ) .tc r ∉ op.writes) :
    W6 m ρ c (Proc.devRef .tc r) = m ((c : Thread nD τ).loc r) :=
  (W6_keep m ρ c r h5).trans ((W5_of_ne m ρ c r hr).trans (W4_launch m ρ c r h0 h1 h2 h3))

/-! ## The two takes and the cut of edge_index, over any contents before the stretch -/

/-- Contents moved to a typed reference's buffer type and back are the contents. -/
theorem ofBuf_toBuf {T : BufTy} (x : StableHlo.TRef sig T) (v : T.Contents (Elt Ideal)) : x.ofBuf (x.toBuf v) = v := by
  obtain ⟨r, h, _, _⟩ := x
  subst h
  rfl

/-- At a literal reference the move to the buffer's own type is the identity. -/
theorem ofBuf_main_v1 (V : Valuation τ sig (Elt Ideal)) :
    (StableHlo.TRef.of main_v1 : StableHlo.TRef sig ⟨S400000, .i32⟩).ofBuf (V (Proc.devRef .tc main_v1))
      = V (Proc.devRef .tc main_v1) := rfl
theorem ofBuf_main_v3 (V : Valuation τ sig (Elt Ideal)) :
    (StableHlo.TRef.of main_v3 : StableHlo.TRef sig ⟨S400000, .i32⟩).ofBuf (V (Proc.devRef .tc main_v3))
      = V (Proc.devRef .tc main_v3) := rfl
theorem ofBuf_main_arg0 (V : Valuation τ sig (Elt Ideal)) :
    (StableHlo.TRef.of main_arg0 : StableHlo.TRef sig ⟨S50000x128, .f32⟩).ofBuf (V (Proc.devRef .tc main_arg0))
      = V (Proc.devRef .tc main_arg0) := rfl

theorem toBuf_main_v4 (t : FVec Ideal S400000x128 .f32) :
    (StableHlo.TRef.of main_v4 : StableHlo.TRef sig ⟨S400000x128, .f32⟩).toBuf (Val := Elt Ideal) t = t := rfl
theorem toBuf_main_v5 (t : FVec Ideal S400000x128 .f32) :
    (StableHlo.TRef.of main_v5 : StableHlo.TRef sig ⟨S400000x128, .f32⟩).toBuf (Val := Elt Ideal) t = t := rfl

/-- The take's stretch leaves, in its result buffer, the filled select over the index vector and the table it reads. -/
theorem take0_after (V : Valuation τ sig (Elt Ideal)) :
    StableHlo.after hostOps0_1 V (Proc.devRef .tc main_v4)
      = select (LibTakeFill.inRangeMask (C := 128) 49999#32 bcast_S_S400000x1 bcast_S1_S1x1_1 bcast_S1x1_S400000x1_0_1
            reducesTo_S400000x1_S400000_d1 h_S_ bcast_S400000_S400000x128_0 (wcol (V (Proc.devRef .tc main_v1))))
          (Host.gather gather_S50000x128_S400000x1_S400000x128_1_0_n_n_0_1_1128 (V (Proc.devRef .tc main_arg0))
            (wcol (V (Proc.devRef .tc main_v1))))
          (broadcastInDim S400000x128 ![] bcast_S_S400000x128 (constant (F := Ideal) S_ .f32 0x7FC00000#32)) := by
  after_results_simp
  simp only [ofBuf_toBuf]
  rw [ofBuf_main_v1 V, ofBuf_main_arg0 V]
  refine (toBuf_main_v4 _).trans ?_
  rfl

theorem take1_after (V : Valuation τ sig (Elt Ideal)) :
    StableHlo.after hostOps0_2 V (Proc.devRef .tc main_v5)
      = select (LibTakeFill.inRangeMask (C := 128) 49999#32 bcast_S_S400000x1 bcast_S1_S1x1_1 bcast_S1x1_S400000x1_0_1
            reducesTo_S400000x1_S400000_d1 h_S_ bcast_S400000_S400000x128_0 (wcol (V (Proc.devRef .tc main_v3))))
          (Host.gather gather_S50000x128_S400000x1_S400000x128_1_0_n_n_0_1_1128 (V (Proc.devRef .tc main_arg0))
            (wcol (V (Proc.devRef .tc main_v3))))
          (broadcastInDim S400000x128 ![] bcast_S_S400000x128 (constant (F := Ideal) S_ .f32 0x7FC00000#32)) := by
  after_results_simp
  simp only [ofBuf_toBuf]
  rw [ofBuf_main_v3 V, ofBuf_main_arg0 V]
  refine (toBuf_main_v5 _).trans ?_
  rfl

/-- The first stretch leaves the two rows of edge_index as index vectors. -/
theorem W1_main_v1 (c : Dev nD) : W1 m ρ c (Proc.devRef .tc main_v1) = srcIdx m c := by
  show StableHlo.after hostOps0 (W0 m ρ c) (Proc.devRef .tc main_v1) = _
  after_results
  rfl
theorem W1_main_v3 (c : Dev nD) : W1 m ρ c (Proc.devRef .tc main_v3) = dstIdx m c := by
  show StableHlo.after hostOps0 (W0 m ρ c) (Proc.devRef .tc main_v3) = _
  after_results
  rfl

/-! ## At the edge region's entry (V4) -/

theorem V4_main_v4 (c : Dev nD) : V4 m ρ c main_v4 = takeFill m c (srcIdx m c) := by
  have e : V4 m ρ c main_v4 = W2 m ρ c (Proc.devRef .tc main_v4) :=
    (W4_keep m ρ c main_v4 (by nw hostOps0_3)).trans (W3_keep m ρ c main_v4 (by nw hostOps0_2))
  rw [e]
  show StableHlo.after hostOps0_1 (W1 m ρ c) (Proc.devRef .tc main_v4) = _
  rw [take0_after, W1_main_v1, W1_keep m ρ c main_arg0 (by nw hostOps0)]
  rfl
theorem V4_main_v5 (c : Dev nD) : V4 m ρ c main_v5 = takeFill m c (dstIdx m c) := by
  have e : V4 m ρ c main_v5 = W3 m ρ c (Proc.devRef .tc main_v5) := W4_keep m ρ c main_v5 (by nw hostOps0_3)
  rw [e]
  show StableHlo.after hostOps0_2 (W2 m ρ c) (Proc.devRef .tc main_v5) = _
  rw [take1_after, W2_keep m ρ c main_v3 (by nw hostOps0_1), W1_main_v3,
    W2_keep m ρ c main_arg0 (by nw hostOps0_1), W1_keep m ρ c main_arg0 (by nw hostOps0)]
  rfl
theorem V4_main_v6 (c : Dev nD) : V4 m ρ c main_v6
    = extractStridedSlice S128x128 ![0, 0] (m ((c : Thread nD τ).loc main_arg3)) slices_S384x128_S128x128_0_0 := by
  show StableHlo.after hostOps0_3 (W3 m ρ c) (Proc.devRef .tc main_v6) = _
  after_results
theorem V4_main_v7 (c : Dev nD) : V4 m ρ c main_v7
    = extractStridedSlice S128x128 ![128, 0] (m ((c : Thread nD τ).loc main_arg3)) slices_S384x128_S128x128_128_0 := by
  show StableHlo.after hostOps0_3 (W3 m ρ c) (Proc.devRef .tc main_v7) = _
  after_results
theorem V4_main_v8 (c : Dev nD) : V4 m ρ c main_v8
    = extractStridedSlice S128x128 ![256, 0] (m ((c : Thread nD τ).loc main_arg3)) slices_S384x128_S128x128_256_0 := by
  show StableHlo.after hostOps0_3 (W3 m ρ c) (Proc.devRef .tc main_v8) = _
  after_results
/-- Every argument array is as launched when the edge region is entered. -/
theorem V4_arg (c : Dev nD) :
    V4 m ρ c main_arg1 = m ((c : Thread nD τ).loc main_arg1) ∧ V4 m ρ c main_arg4 = m ((c : Thread nD τ).loc main_arg4)
    ∧ V4 m ρ c main_arg5 = m ((c : Thread nD τ).loc main_arg5) ∧ V4 m ρ c main_arg6 = m ((c : Thread nD τ).loc main_arg6)
    ∧ V4 m ρ c main_arg7 = m ((c : Thread nD τ).loc main_arg7) ∧ V4 m ρ c main_arg8 = m ((c : Thread nD τ).loc main_arg8)
    ∧ V4 m ρ c main_arg9 = m ((c : Thread nD τ).loc main_arg9) ∧ V4 m ρ c main_arg10 = m ((c : Thread nD τ).loc main_arg10)
    ∧ V4 m ρ c main_arg11 = m ((c : Thread nD τ).loc main_arg11) ∧ V4 m ρ c main_arg12 = m ((c : Thread nD τ).loc main_arg12)
    ∧ V4 m ρ c main_arg13 = m ((c : Thread nD τ).loc main_arg13) ∧ V4 m ρ c main_arg14 = m ((c : Thread nD τ).loc main_arg14)
    ∧ V4 m ρ c main_arg15 = m ((c : Thread nD τ).loc main_arg15) ∧ V4 m ρ c main_arg16 = m ((c : Thread nD τ).loc main_arg16) := by
  refine ⟨?_, ?_, ?_, ?_, ?_, ?_, ?_, ?_, ?_, ?_, ?_, ?_, ?_, ?_⟩ <;>
    exact W4_launch m ρ c _ (by nw hostOps0) (by nw hostOps0_1) (by nw hostOps0_2) (by nw hostOps0_3)

/-! ## At the node region's entry (V6) -/

/-- The summed edge features: the scatter-add, from zeros, at the destination column, of the edge region's first output. -/
theorem V6_main_v12 (c : Dev nD) : V6 m ρ c main_v12
    = Host.scatterAdd scatter_S50000x128_S400000x1_S400000x128_1_0_0_1
        (broadcastInDim S50000x128 ![] bcast_S_S50000x128 (constant (F := Ideal) S_ .f32 0x00000000#32))
        (broadcastInDim S400000x1 ![0] bcast_S400000_S400000x1_0 (dstIdx m c))
        ((dat0 (V4 m ρ) c).arrAt 19 cfg0.N) := by
  show StableHlo.after hostOps1 (W5 m ρ c) (Proc.devRef .tc main_v12) = _
  after_results
  have h3 : W5 m ρ c (Proc.devRef .tc main_v3) = dstIdx m c :=
    (W5_of_ne m ρ c main_v3 (by decide)).trans ((W4_keep m ρ c main_v3 (by nw hostOps0_3)).trans
      ((W3_keep m ρ c main_v3 (by nw hostOps0_2)).trans ((W2_keep m ρ c main_v3 (by nw hostOps0_1)).trans
        (W1_main_v3 m ρ c))))
  have h9 : W5 m ρ c (Proc.devRef .tc main_v9_0) = (dat0 (V4 m ρ) c).arrAt 19 cfg0.N := W5_arr m ρ c 19
  rw [h3, h9]
theorem V6_main_v13 (c : Dev nD) : V6 m ρ c main_v13
    = extractStridedSlice S128x128 ![0, 0] (m ((c : Thread nD τ).loc main_arg17)) slices_S256x128_S128x128_0_0 := by
  show StableHlo.after hostOps1 (W5 m ρ c) (Proc.devRef .tc main_v13) = _
  after_results
  rw [W5_of_ne m ρ c main_arg17 (by decide),
    W4_launch m ρ c main_arg17 (by nw hostOps0) (by nw hostOps0_1) (by nw hostOps0_2) (by nw hostOps0_3)]
theorem V6_main_v14 (c : Dev nD) : V6 m ρ c main_v14
    = extractStridedSlice S128x128 ![128, 0] (m ((c : Thread nD τ).loc main_arg17)) slices_S256x128_S128x128_128_0 := by
  show StableHlo.after hostOps1 (W5 m ρ c) (Proc.devRef .tc main_v14) = _
  after_results
  rw [W5_of_ne m ρ c main_arg17 (by decide),
    W4_launch m ρ c main_arg17 (by nw hostOps0) (by nw hostOps0_1) (by nw hostOps0_2) (by nw hostOps0_3)]
/-- Every argument array is as launched when the node region is entered. -/
theorem V6_arg (c : Dev nD) :
    V6 m ρ c main_arg0 = m ((c : Thread nD τ).loc main_arg0) ∧ V6 m ρ c main_arg18 = m ((c : Thread nD τ).loc main_arg18)
    ∧ V6 m ρ c main_arg19 = m ((c : Thread nD τ).loc main_arg19) ∧ V6 m ρ c main_arg20 = m ((c : Thread nD τ).loc main_arg20)
    ∧ V6 m ρ c main_arg21 = m ((c : Thread nD τ).loc main_arg21) ∧ V6 m ρ c main_arg22 = m ((c : Thread nD τ).loc main_arg22)
    ∧ V6 m ρ c main_arg23 = m ((c : Thread nD τ).loc main_arg23) ∧ V6 m ρ c main_arg24 = m ((c : Thread nD τ).loc main_arg24)
    ∧ V6 m ρ c main_arg25 = m ((c : Thread nD τ).loc main_arg25) ∧ V6 m ρ c main_arg26 = m ((c : Thread nD τ).loc main_arg26)
    ∧ V6 m ρ c main_arg27 = m ((c : Thread nD τ).loc main_arg27) ∧ V6 m ρ c main_arg28 = m ((c : Thread nD τ).loc main_arg28)
    ∧ V6 m ρ c main_arg29 = m ((c : Thread nD τ).loc main_arg29) ∧ V6 m ρ c main_arg30 = m ((c : Thread nD τ).loc main_arg30) := by
  refine ⟨?_, ?_, ?_, ?_, ?_, ?_, ?_, ?_, ?_, ?_, ?_, ?_, ?_, ?_⟩ <;>
    exact W6_launch m ρ c _ (by nw hostOps0) (by nw hostOps0_1) (by nw hostOps0_2) (by nw hostOps0_3) (by decide)
      (by nw hostOps1)

/-! ## At the end (W7) -/

theorem W7_main_v15 (c : Dev nD) : W7 m ρ c (Proc.devRef .tc main_v15) = (dat1 (V6 m ρ) c).arrAt 17 cfg1.N := by
  exact W7_arr m ρ c 17
theorem W7_main_v9_1 (c : Dev nD) : W7 m ρ c (Proc.devRef .tc main_v9_1) = (dat0 (V4 m ρ) c).arrAt 20 cfg0.N := by
  exact (W7_of_ne m ρ c main_v9_1 (by decide)).trans ((W6_keep m ρ c main_v9_1 (by nw hostOps1)).trans (W5_arr m ρ c 20))

end Cert.KHost

end
-- ==== Proof.SpecParts.lean ====
/-
  The kernel's first layers are the reference's.

  The kernel cuts the first edge weight W1 ([384, 128]) into the three blocks of rows 0-127, 128-255, 256-383 and sums
  three products; the reference multiplies the concatenated row by W1 whole. Entry (k, j) of the block cut at row o is
  W1 (o + k, j), and a sum over 384 entries splits at 128 and 256: the two forms are one function. Likewise for the node
  perceptron with two blocks of a [256, 128] weight. Only associativity of + on the extended reals is used.
-/
import proofs.«419719_j17008070492485_2_alg».proof.Proof.Spec
import Idealize.ShloMosaic.Lib.ValueIdx
import Idealize.ShloMosaic.Lib.ValueLayout

noncomputable section

namespace Cert.SpecParts

open Idealize.ShloMosaic Idealize.ShloMosaic.ValueIdx Cert.Spec

/-- The block of 128 rows cut out of a [n, 128] weight at row o reads, at (k, j), the weight at (k + o, j). -/
theorem mat_slice {n : ℕ} (o : ℕ) (W : (⟨2, ![n, 128]⟩ : Shape).Idx → EReal)
    (h : (⟨2, ![n, 128]⟩ : Shape).Slices ![o, 0] ⟨2, ![128, 128]⟩) (k : Fin 128) (j : Fin 128) (r : Fin n)
    (hr : r.val = k.val + o) :
    mat (extractStridedSlice ⟨2, ![128, 128]⟩ ![o, 0] W h) k j = mat W r j :=
  slice2_axis0_apply o W h k j r (by rw [hr]; exact Nat.add_comm _ _)

/-- The three blocks cut out of one [384, 128] weight at rows 0, 128, 256: the block form of the first edge map is the
    map of the concatenated row by the whole weight. -/
theorem first3parts_slices (W1 : (⟨2, ![384, 128]⟩ : Shape).Idx → EReal)
    (h0 : (⟨2, ![384, 128]⟩ : Shape).Slices ![0, 0] ⟨2, ![128, 128]⟩)
    (h1 : (⟨2, ![384, 128]⟩ : Shape).Slices ![128, 0] ⟨2, ![128, 128]⟩)
    (h2 : (⟨2, ![384, 128]⟩ : Shape).Slices ![256, 0] ⟨2, ![128, 128]⟩) (b x y z : Fin 128 → EReal) :
    Row.first3parts (mat (extractStridedSlice ⟨2, ![128, 128]⟩ ![0, 0] W1 h0))
        (mat (extractStridedSlice ⟨2, ![128, 128]⟩ ![128, 0] W1 h1))
        (mat (extractStridedSlice ⟨2, ![128, 128]⟩ ![256, 0] W1 h2)) b x y z
      = Row.first3 (mat W1) b x y z := by
  have ea : mat (extractStridedSlice ⟨2, ![128, 128]⟩ ![0, 0] W1 h0) = fun k j => mat W1 ⟨k.val, by omega⟩ j := by
    funext k j; exact mat_slice 0 W1 h0 k j _ rfl
  have eb : mat (extractStridedSlice ⟨2, ![128, 128]⟩ ![128, 0] W1 h1) = fun k j => mat W1 ⟨k.val + 128, by omega⟩ j := by
    funext k j; exact mat_slice 128 W1 h1 k j _ rfl
  have ec : mat (extractStridedSlice ⟨2, ![128, 128]⟩ ![256, 0] W1 h2) = fun k j => mat W1 ⟨k.val + 256, by omega⟩ j := by
    funext k j; exact mat_slice 256 W1 h2 k j _ rfl
  rw [ea, eb, ec, Row.first3_eq]
  exact Row.first3parts_blocks (mat W1) b x y z

/-- The two blocks cut out of one [256, 128] weight at rows 0 and 128, likewise. -/
theorem first2parts_slices (W1 : (⟨2, ![256, 128]⟩ : Shape).Idx → EReal)
    (h0 : (⟨2, ![256, 128]⟩ : Shape).Slices ![0, 0] ⟨2, ![128, 128]⟩)
    (h1 : (⟨2, ![256, 128]⟩ : Shape).Slices ![128, 0] ⟨2, ![128, 128]⟩) (b x y : Fin 128 → EReal) :
    Row.first2parts (mat (extractStridedSlice ⟨2, ![128, 128]⟩ ![0, 0] W1 h0))
        (mat (extractStridedSlice ⟨2, ![128, 128]⟩ ![128, 0] W1 h1)) b x y
      = Row.first2 (mat W1) b x y := by
  have ea : mat (extractStridedSlice ⟨2, ![128, 128]⟩ ![0, 0] W1 h0) = fun k j => mat W1 ⟨k.val, by omega⟩ j := by
    funext k j; exact mat_slice 0 W1 h0 k j _ rfl
  have eb : mat (extractStridedSlice ⟨2, ![128, 128]⟩ ![128, 0] W1 h1) = fun k j => mat W1 ⟨k.val + 128, by omega⟩ j := by
    funext k j; exact mat_slice 128 W1 h1 k j _ rfl
  rw [ea, eb, Row.first2_eq]
  exact Row.first2parts_blocks (mat W1) b x y

theorem edgeNewParts_slices {E : ℕ} (W1 : (⟨2, ![384, 128]⟩ : Shape).Idx → EReal)
    (h0 : (⟨2, ![384, 128]⟩ : Shape).Slices ![0, 0] ⟨2, ![128, 128]⟩)
    (h1 : (⟨2, ![384, 128]⟩ : Shape).Slices ![128, 0] ⟨2, ![128, 128]⟩)
    (h2 : (⟨2, ![384, 128]⟩ : Shape).Slices ![256, 0] ⟨2, ![128, 128]⟩)
    (b1 : (⟨1, ![128]⟩ : Shape).Idx → EReal) (T : TailW) (EA XS XD : (⟨2, ![E, 128]⟩ : Shape).Idx → EReal) :
    edgeNewParts (extractStridedSlice ⟨2, ![128, 128]⟩ ![0, 0] W1 h0) (extractStridedSlice ⟨2, ![128, 128]⟩ ![128, 0] W1 h1)
        (extractStridedSlice ⟨2, ![128, 128]⟩ ![256, 0] W1 h2) b1 T EA XS XD
      = edgeNew W1 b1 T EA XS XD := by
  funext idx
  obtain ⟨p, q, rfl⟩ : ∃ (p : Fin E) (q : Fin 128), idx = ix2 p q := ⟨idx 0, idx 1, eq_ix2 idx⟩
  rw [edgeNewParts_apply, edgeNew_apply]
  unfold edgeRow
  rw [first3parts_slices]

theorem edgeOutParts_slices {E : ℕ} (W1 : (⟨2, ![384, 128]⟩ : Shape).Idx → EReal)
    (h0 : (⟨2, ![384, 128]⟩ : Shape).Slices ![0, 0] ⟨2, ![128, 128]⟩)
    (h1 : (⟨2, ![384, 128]⟩ : Shape).Slices ![128, 0] ⟨2, ![128, 128]⟩)
    (h2 : (⟨2, ![384, 128]⟩ : Shape).Slices ![256, 0] ⟨2, ![128, 128]⟩)
    (b1 : (⟨1, ![128]⟩ : Shape).Idx → EReal) (T : TailW) (EA XS XD : (⟨2, ![E, 128]⟩ : Shape).Idx → EReal) :
    edgeOutParts (extractStridedSlice ⟨2, ![128, 128]⟩ ![0, 0] W1 h0) (extractStridedSlice ⟨2, ![128, 128]⟩ ![128, 0] W1 h1)
        (extractStridedSlice ⟨2, ![128, 128]⟩ ![256, 0] W1 h2) b1 T EA XS XD
      = edgeOut W1 b1 T EA XS XD := by
  funext idx
  unfold edgeOutParts edgeOut
  rw [edgeNewParts_slices]

theorem nodeOutParts_slices {N : ℕ} (W1 : (⟨2, ![256, 128]⟩ : Shape).Idx → EReal)
    (h0 : (⟨2, ![256, 128]⟩ : Shape).Slices ![0, 0] ⟨2, ![128, 128]⟩)
    (h1 : (⟨2, ![256, 128]⟩ : Shape).Slices ![128, 0] ⟨2, ![128, 128]⟩)
    (b1 : (⟨1, ![128]⟩ : Shape).Idx → EReal) (T : TailW) (X AGG : (⟨2, ![N, 128]⟩ : Shape).Idx → EReal) :
    nodeOutParts (extractStridedSlice ⟨2, ![128, 128]⟩ ![0, 0] W1 h0) (extractStridedSlice ⟨2, ![128, 128]⟩ ![128, 0] W1 h1) b1 T X AGG
      = nodeOut W1 b1 T X AGG := by
  funext idx
  obtain ⟨p, q, rfl⟩ : ∃ (p : Fin N) (q : Fin 128), idx = ix2 p q := ⟨idx 0, idx 1, eq_ix2 idx⟩
  rw [nodeOutParts_apply, nodeOut_apply]
  unfold nodeRow
  rw [first2parts_slices]

end Cert.SpecParts

end
-- ==== Proof.KValue.lean ====
/-
  The kernel's two results are the functions of Spec.

  Where every entry of edge_index is a row number of x, the two takes of node rows are plain gathers (no row is filled),
  so the edge region finds: the edge features, the two gathered arrays, the three row blocks of the first edge weight
  and the other weights as launched. Its outputs are then, row by row, the edge perceptron of those rows (from blocks to
  arrays), and with the blocks read as rows of the whole weight, Spec's new edge features and result 1. The node region
  finds the node features, the sum of the new edge features by destination, and the two row blocks of the first node
  weight; its output is result 0.
-/
import proofs.«419719_j17008070492485_2_alg».proof.Proof.KernelRun
import proofs.«419719_j17008070492485_2_alg».proof.Proof.KArr
import proofs.«419719_j17008070492485_2_alg».proof.Proof.KArrNode
import proofs.«419719_j17008070492485_2_alg».proof.Proof.KHost
import proofs.«419719_j17008070492485_2_alg».proof.Proof.SpecParts
import proofs.«419719_j17008070492485_2_alg».proof.Proof.LibTakeFill
import Idealize.ShloMosaic.Lib.ValueLayout

set_option maxRecDepth 16384

noncomputable section

namespace Cert.KValue

open Idealize.ShloMosaic Idealize.ShloMosaic.TcCoe Idealize.ShloMosaic.ValueIdx Idealize.SL.Sem
open Cert.KernelIdeal Cert.KernelIdeal.Gen Cert.KHost

variable (m : (ℓ : Loc nD τ sig) → Buf (Elt Ideal) ℓ) (ρ : Dev nD → PrngReg)

/-- Every entry of edge_index is a row number of x. -/
def InRange (c : Dev nD) : Prop :=
  ∀ (r : Fin 2) (e : Fin 400000),
    0 ≤ ((m ((c : Thread nD τ).loc main_arg2) : IVec S2x400000 32) (ix2 r e)).toInt ∧ ((m ((c : Thread nD τ).loc main_arg2) : IVec S2x400000 32) (ix2 r e)).toInt < 50000

/-- Entry p of the source index vector is edge_index (0, p). -/
theorem srcIdx_apply (c : Dev nD) (p : Fin 400000) :
    srcIdx m c (ix1 p) = (m ((c : Thread nD τ).loc main_arg2) : IVec S2x400000 32) (ix2 (0 : Fin 2) p) := by
  unfold srcIdx
  rw [shapeCast_1a_a_apply]
  exact slice2_axis0_apply 0 _ _ (0 : Fin 1) p (0 : Fin 2) rfl

/-- Entry p of the destination index vector is edge_index (1, p). -/
theorem dstIdx_apply (c : Dev nD) (p : Fin 400000) :
    dstIdx m c (ix1 p) = (m ((c : Thread nD τ).loc main_arg2) : IVec S2x400000 32) (ix2 (1 : Fin 2) p) := by
  unfold dstIdx
  rw [shapeCast_1a_a_apply]
  exact slice2_axis0_apply 1 _ _ (0 : Fin 1) p (1 : Fin 2) rfl

/-- The node rows gathered at an index vector (negatives wrapped, no fill). -/
def gathered (c : Dev nD) (idx : IVec S400000 32) : FVec Ideal S400000x128 .f32 :=
  Host.gather gather_S50000x128_S400000x1_S400000x128_1_0_n_n_0_1_1128 (m ((c : Thread nD τ).loc main_arg0)) (wcol idx)

/-- In range, the take at the sources fills no row. -/
theorem take_src (c : Dev nD) (h : InRange m c) : takeFill m c (srcIdx m c) = gathered m c (srcIdx m c) := by
  refine LibTakeFill.take_fill_eq 50000#32 49999#32 _ _ _ _ _ _ _ _ (srcIdx m c) (fun p => ?_) _ _
  rw [srcIdx_apply]
  have h1 := h 0 p
  have h2 : (49999#32 : BitVec 32).toInt = 49999 := by decide
  exact ⟨h1.1, by omega⟩

/-- In range, the take at the destinations fills no row. -/
theorem take_dst (c : Dev nD) (h : InRange m c) : takeFill m c (dstIdx m c) = gathered m c (dstIdx m c) := by
  refine LibTakeFill.take_fill_eq 50000#32 49999#32 _ _ _ _ _ _ _ _ (dstIdx m c) (fun p => ?_) _ _
  rw [dstIdx_apply]
  have h1 := h 1 p
  have h2 : (49999#32 : BitVec 32).toInt = 49999 := by decide
  exact ⟨h1.1, by omega⟩

/-- The edge perceptron's weights after its first map, and the node perceptron's, as launched. -/
def eT (c : Dev nD) : Spec.TailW :=
  ⟨m ((c : Thread nD τ).loc main_arg11), m ((c : Thread nD τ).loc main_arg12), m ((c : Thread nD τ).loc main_arg5), m ((c : Thread nD τ).loc main_arg6), m ((c : Thread nD τ).loc main_arg13), m ((c : Thread nD τ).loc main_arg14), m ((c : Thread nD τ).loc main_arg7), m ((c : Thread nD τ).loc main_arg8),
   m ((c : Thread nD τ).loc main_arg15), m ((c : Thread nD τ).loc main_arg16), m ((c : Thread nD τ).loc main_arg9), m ((c : Thread nD τ).loc main_arg10)⟩
def nT (c : Dev nD) : Spec.TailW :=
  ⟨m ((c : Thread nD τ).loc main_arg25), m ((c : Thread nD τ).loc main_arg26), m ((c : Thread nD τ).loc main_arg19), m ((c : Thread nD τ).loc main_arg20), m ((c : Thread nD τ).loc main_arg27), m ((c : Thread nD τ).loc main_arg28), m ((c : Thread nD τ).loc main_arg21), m ((c : Thread nD τ).loc main_arg22),
   m ((c : Thread nD τ).loc main_arg29), m ((c : Thread nD τ).loc main_arg30), m ((c : Thread nD τ).loc main_arg23), m ((c : Thread nD τ).loc main_arg24)⟩

/-- The new edge features of the launch arrays. -/
def newE (c : Dev nD) : FVec Ideal S400000x128 .f32 :=
  Spec.edgeNew (m ((c : Thread nD τ).loc main_arg3)) (m ((c : Thread nD τ).loc main_arg4)) (eT m c) (m ((c : Thread nD τ).loc main_arg1)) (gathered m c (srcIdx m c)) (gathered m c (dstIdx m c))

/-- The sum of edge rows into node rows by destination, as the program computes it. -/
def sumByDst (c : Dev nD) (u : FVec Ideal S400000x128 .f32) : FVec Ideal S50000x128 .f32 :=
  Host.scatterAdd scatter_S50000x128_S400000x1_S400000x128_1_0_0_1
    (broadcastInDim S50000x128 ![] bcast_S_S50000x128 (constant (F := Ideal) S_ .f32 0x00000000#32))
    (broadcastInDim S400000x1 ![0] bcast_S400000_S400000x1_0 (dstIdx m c)) u

/-- Result 0 and result 1 as functions of the launch arrays. -/
def out0 (c : Dev nD) : FVec Ideal S50000x128 .f32 :=
  Spec.nodeOut (m ((c : Thread nD τ).loc main_arg17)) (m ((c : Thread nD τ).loc main_arg18)) (nT m c) (m ((c : Thread nD τ).loc main_arg0)) (sumByDst m c (newE m c))
def out1 (c : Dev nD) : FVec Ideal S400000x128 .f32 :=
  Spec.edgeOut (m ((c : Thread nD τ).loc main_arg3)) (m ((c : Thread nD τ).loc main_arg4)) (eT m c) (m ((c : Thread nD τ).loc main_arg1)) (gathered m c (srcIdx m c)) (gathered m c (dstIdx m c))

section AtAParameter
/-! The structural step at a parameter V (a region's entry contents), with what V holds at each window's array as
    hypotheses: nothing here looks inside the fold of host operations that the entry contents are. -/

variable (V : (c : Dev nD) → (b : Ref sig .tc) → Buf (Elt Ideal) ((c : Thread nD τ).loc b)) (c : Dev nD)

theorem edge_new_of (W1 : FVec Ideal S384x128 .f32) (b1 : FVec Ideal S128 .f32) (g1 β1 : FVec Ideal S128 .f32) (W2 : FVec Ideal S128x128 .f32) (b2 g2 β2 : FVec Ideal S128 .f32) (W3 : FVec Ideal S128x128 .f32)
    (b3 g3 β3 : FVec Ideal S128 .f32) (W4 : FVec Ideal S128x128 .f32) (b4 : FVec Ideal S128 .f32)
    (EAa XSa XDa : FVec Ideal S400000x128 .f32)
    (h6 : V c main_v6 = extractStridedSlice S128x128 ![0, 0] W1 slices_S384x128_S128x128_0_0)
    (h7 : V c main_v7 = extractStridedSlice S128x128 ![128, 0] W1 slices_S384x128_S128x128_128_0)
    (h8 : V c main_v8 = extractStridedSlice S128x128 ![256, 0] W1 slices_S384x128_S128x128_256_0)
    (h4 : V c main_v4 = XSa) (h5 : V c main_v5 = XDa) (a1 : V c main_arg1 = EAa) (a4 : V c main_arg4 = b1)
    (a5 : V c main_arg5 = W2) (a6 : V c main_arg6 = b2) (a7 : V c main_arg7 = W3) (a8 : V c main_arg8 = b3)
    (a9 : V c main_arg9 = W4) (a10 : V c main_arg10 = b4) (a11 : V c main_arg11 = g1) (a12 : V c main_arg12 = β1)
    (a13 : V c main_arg13 = g2) (a14 : V c main_arg14 = β2) (a15 : V c main_arg15 = g3) (a16 : V c main_arg16 = β3) :
    (dat0 (F := Ideal) V c).arrAt 19 cfg0.N = Spec.edgeNew W1 b1 (Spec.TailW.mk g1 β1 W2 b2 g2 β2 W3 b3 g3 β3 W4 b4) EAa XSa XDa := by
  subst h4 h5 a1 a4 a5 a6 a7 a8 a9 a10 a11 a12 a13 a14 a15 a16
  rw [KArr.edge_new_arr, h6, h7, h8]
  exact SpecParts.edgeNewParts_slices _ _ _ _ _ _ _ _ _

theorem edge_out_of (W1 : FVec Ideal S384x128 .f32) (b1 : FVec Ideal S128 .f32) (g1 β1 : FVec Ideal S128 .f32) (W2 : FVec Ideal S128x128 .f32) (b2 g2 β2 : FVec Ideal S128 .f32) (W3 : FVec Ideal S128x128 .f32)
    (b3 g3 β3 : FVec Ideal S128 .f32) (W4 : FVec Ideal S128x128 .f32) (b4 : FVec Ideal S128 .f32)
    (EAa XSa XDa : FVec Ideal S400000x128 .f32)
    (h6 : V c main_v6 = extractStridedSlice S128x128 ![0, 0] W1 slices_S384x128_S128x128_0_0)
    (h7 : V c main_v7 = extractStridedSlice S128x128 ![128, 0] W1 slices_S384x128_S128x128_128_0)
    (h8 : V c main_v8 = extractStridedSlice S128x128 ![256, 0] W1 slices_S384x128_S128x128_256_0)
    (h4 : V c main_v4 = XSa) (h5 : V c main_v5 = XDa) (a1 : V c main_arg1 = EAa) (a4 : V c main_arg4 = b1)
    (a5 : V c main_arg5 = W2) (a6 : V c main_arg6 = b2) (a7 : V c main_arg7 = W3) (a8 : V c main_arg8 = b3)
    (a9 : V c main_arg9 = W4) (a10 : V c main_arg10 = b4) (a11 : V c main_arg11 = g1) (a12 : V c main_arg12 = β1)
    (a13 : V c main_arg13 = g2) (a14 : V c main_arg14 = β2) (a15 : V c main_arg15 = g3) (a16 : V c main_arg16 = β3) :
    (dat0 (F := Ideal) V c).arrAt 20 cfg0.N = Spec.edgeOut W1 b1 (Spec.TailW.mk g1 β1 W2 b2 g2 β2 W3 b3 g3 β3 W4 b4) EAa XSa XDa := by
  subst h4 h5 a1 a4 a5 a6 a7 a8 a9 a10 a11 a12 a13 a14 a15 a16
  rw [KArr.edge_out_arr, h6, h7, h8]
  exact SpecParts.edgeOutParts_slices _ _ _ _ _ _ _ _ _

theorem node_out_of (W1 : FVec Ideal S256x128 .f32) (b1 : FVec Ideal S128 .f32) (g1 β1 : FVec Ideal S128 .f32) (W2 : FVec Ideal S128x128 .f32) (b2 g2 β2 : FVec Ideal S128 .f32) (W3 : FVec Ideal S128x128 .f32)
    (b3 g3 β3 : FVec Ideal S128 .f32) (W4 : FVec Ideal S128x128 .f32) (b4 : FVec Ideal S128 .f32)
    (Xa AGGa : FVec Ideal S50000x128 .f32)
    (h13 : V c main_v13 = extractStridedSlice S128x128 ![0, 0] W1 slices_S256x128_S128x128_0_0)
    (h14 : V c main_v14 = extractStridedSlice S128x128 ![128, 0] W1 slices_S256x128_S128x128_128_0)
    (h12 : V c main_v12 = AGGa) (a0 : V c main_arg0 = Xa) (a18 : V c main_arg18 = b1)
    (a19 : V c main_arg19 = W2) (a20 : V c main_arg20 = b2) (a21 : V c main_arg21 = W3) (a22 : V c main_arg22 = b3)
    (a23 : V c main_arg23 = W4) (a24 : V c main_arg24 = b4) (a25 : V c main_arg25 = g1) (a26 : V c main_arg26 = β1)
    (a27 : V c main_arg27 = g2) (a28 : V c main_arg28 = β2) (a29 : V c main_arg29 = g3) (a30 : V c main_arg30 = β3) :
    (dat1 (F := Ideal) V c).arrAt 17 cfg1.N = Spec.nodeOut W1 b1 (Spec.TailW.mk g1 β1 W2 b2 g2 β2 W3 b3 g3 β3 W4 b4) Xa AGGa := by
  subst h12 a0 a18 a19 a20 a21 a22 a23 a24 a25 a26 a27 a28 a29 a30
  rw [KArrNode.node_out_arr, h13, h14]
  exact SpecParts.nodeOutParts_slices _ _ _ _ _ _ _

end AtAParameter

/-- The edge region's first output: the new edge features. -/
theorem edge_new (c : Dev nD) (h : InRange m c) : (dat0 (V4 m ρ) c).arrAt 19 cfg0.N = newE m c := by
  obtain ⟨a1, a4, a5, a6, a7, a8, a9, a10, a11, a12, a13, a14, a15, a16⟩ := V4_arg m ρ c
  exact edge_new_of (V4 m ρ) c _ _ _ _ _ _ _ _ _ _ _ _ _ _ _ _ _ (V4_main_v6 m ρ c) (V4_main_v7 m ρ c) (V4_main_v8 m ρ c)
    ((V4_main_v4 m ρ c).trans (take_src m c h)) ((V4_main_v5 m ρ c).trans (take_dst m c h))
    a1 a4 a5 a6 a7 a8 a9 a10 a11 a12 a13 a14 a15 a16

/-- Result 1: the edge region's second output, which nothing writes afterwards. -/
theorem result1 (c : Dev nD) (h : InRange m c) :
    W7 m ρ c (Proc.devRef .tc main_v9_1) = out1 m c := by
  obtain ⟨a1, a4, a5, a6, a7, a8, a9, a10, a11, a12, a13, a14, a15, a16⟩ := V4_arg m ρ c
  exact (W7_main_v9_1 m ρ c).trans (edge_out_of (V4 m ρ) c _ _ _ _ _ _ _ _ _ _ _ _ _ _ _ _ _ (V4_main_v6 m ρ c) (V4_main_v7 m ρ c) (V4_main_v8 m ρ c)
    ((V4_main_v4 m ρ c).trans (take_src m c h)) ((V4_main_v5 m ρ c).trans (take_dst m c h))
    a1 a4 a5 a6 a7 a8 a9 a10 a11 a12 a13 a14 a15 a16)

/-- Result 0: the node region's output. -/
theorem result0 (c : Dev nD) (h : InRange m c) :
    W7 m ρ c (Proc.devRef .tc main_v15) = out0 m c := by
  obtain ⟨a0, a18, a19, a20, a21, a22, a23, a24, a25, a26, a27, a28, a29, a30⟩ := V6_arg m ρ c
  exact (W7_main_v15 m ρ c).trans (node_out_of (V6 m ρ) c _ _ _ _ _ _ _ _ _ _ _ _ _ _ _ _ (V6_main_v13 m ρ c) (V6_main_v14 m ρ c)
    ((V6_main_v12 m ρ c).trans (congrArg (sumByDst m c) (edge_new m ρ c h)))
    a0 a18 a19 a20 a21 a22 a23 a24 a25 a26 a27 a28 a29 a30)

end Cert.KValue

end
-- ==== Proof.PreRange.lean ====
/-
  The index range, read out of the precondition.

  The precondition is a conjunction, over all 31 inputs, of one "all entries" test per array, joined left to right:
  every float entry finite, and, for the [2, 400000] array of node indices (input 2), every entry at least 0 and
  every entry below 50000. The two integer tests are the last two conjuncts, so they sit outermost in the chain.
  If the whole conjunction is 1, each of the two is 1; an "all entries" test that is 1 holds at every entry; and the
  signed comparison of an entry with the constant 0 (with 50000) that is 1 says the entry, read as a signed integer,
  is at least 0 (below 50000).
-/
import proofs.«419719_j17008070492485_2_alg».proof.Pre_finite_inputs
import proofs.«419719_j17008070492485_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

namespace Cert.PreRange

open Idealize.ShloMosaic Idealize.ShloMosaic.ValueIdx
open Cert.Pre_finite_inputs

/-- The scalar shape has one index. -/
instance : Subsingleton S_.Idx := ⟨fun a b => funext fun d => d.elim0⟩

/-- A conjunction of two one-bit arrays that is 1 at an index has both operands 1 there. -/
theorem andi_apply_eq_one {s : Shape} (x y : IVec s 1) (i : s.Idx) (h : andi x y i = 1#1) : x i = 1#1 ∧ y i = 1#1 :=
  IntOp.andi_eq_one.1 h

/-- Every node index lies in [0, 50000), read signed. -/
theorem index_range
    {a0 : FVec Ideal S50000x128 .f32} {a1 : FVec Ideal S400000x128 .f32} {a2 : IVec S2x400000 32} {a3 : FVec Ideal S384x128 .f32}
    {a4 : FVec Ideal S128 .f32} {a5 : FVec Ideal S128x128 .f32} {a6 : FVec Ideal S128 .f32} {a7 : FVec Ideal S128x128 .f32}
    {a8 : FVec Ideal S128 .f32} {a9 : FVec Ideal S128x128 .f32} {a10 : FVec Ideal S128 .f32} {a11 : FVec Ideal S128 .f32}
    {a12 : FVec Ideal S128 .f32} {a13 : FVec Ideal S128 .f32} {a14 : FVec Ideal S128 .f32} {a15 : FVec Ideal S128 .f32}
    {a16 : FVec Ideal S128 .f32} {a17 : FVec Ideal S256x128 .f32} {a18 : FVec Ideal S128 .f32} {a19 : FVec Ideal S128x128 .f32}
    {a20 : FVec Ideal S128 .f32} {a21 : FVec Ideal S128x128 .f32} {a22 : FVec Ideal S128 .f32} {a23 : FVec Ideal S128x128 .f32}
    {a24 : FVec Ideal S128 .f32} {a25 : FVec Ideal S128 .f32} {a26 : FVec Ideal S128 .f32} {a27 : FVec Ideal S128 .f32}
    {a28 : FVec Ideal S128 .f32} {a29 : FVec Ideal S128 .f32} {a30 : FVec Ideal S128 .f32}
    (h : Cert.Pre_finite_inputs.fn (F := Ideal) a0 a1 a2 a3 a4 a5 a6 a7 a8 a9 a10 a11 a12 a13 a14 a15 a16 a17 a18 a19 a20 a21 a22 a23 a24 a25 a26 a27 a28 a29 a30 = fun _ => 1#1) :
    ∀ (r : Fin 2) (e : Fin 400000),
      0 ≤ (a2 (Idealize.ShloMosaic.ValueIdx.ix2 r e)).toInt ∧ (a2 (Idealize.ShloMosaic.ValueIdx.ix2 r e)).toInt < 50000 := by
  intro r e
  -- the conjunction at its one index, with the chain of conjuncts in view
  have c := congrFun h ValueIdx.ix0
  dsimp only [fn, fn_part1, fn_part2, fn_part3, fn_part4, fn_part5, fn_part6, fn_part7, fn_part8, fn_part9] at c
  -- the last conjunct (below 50000) is outermost, the one before it (at least 0) next; the float part is dropped
  obtain ⟨c1, hlt⟩ := andi_apply_eq_one _ _ _ c
  obtain ⟨-, hge⟩ := andi_apply_eq_one _ _ _ c1
  -- each "all entries" test, at entry (r, e): the comparison against the broadcast constant
  have ge : IntOp.cmpi .sge (a2 (ix2 r e)) 0#32 = 1#1 := Host.reduce_andi_all _ _ _ _ _ hge (ix2 r e)
  have lt : IntOp.cmpi .slt (a2 (ix2 r e)) 50000#32 = 1#1 := Host.reduce_andi_all _ _ _ _ _ hlt (ix2 r e)
  have ge' := IntOp.cmpi_sge.1 ge
  have lt' := IntOp.cmpi_slt.1 lt
  rw [show (0#32 : BitVec 32).toInt = 0 from StableHlo.Predicate.toInt_ofNat_small 0 (by norm_num)] at ge'
  rw [show (50000#32 : BitVec 32).toInt = 50000 from StableHlo.Predicate.toInt_ofNat_small 50000 (by norm_num)] at lt'
  exact ⟨ge', lt'⟩

end Cert.PreRange
-- ==== Proof.Join.lean ====
/-
  The two programs compute the same two results.

  Run from memories that agree on the arguments, with every float argument finite and every entry of edge_index a row
  number of x: the kernel's run ends with its results at Spec's two functions of its argument arrays (the value run,
  then KValue), the reference's at the same functions of its own arrays (its generated run, then RefValue), and the
  arrays are equal by agreement while the gather at the wrapped indices and the sum by destination are the same
  operations of equal operands in both programs. Finiteness is not used: the one law that joins the two first layers is
  the splitting of a finite sum.
-/
import proofs.«419719_j17008070492485_2_alg».proof.Defs
import proofs.«419719_j17008070492485_2_alg».proof.Proof.RefValue
import proofs.«419719_j17008070492485_2_alg».proof.Proof.KValue
import proofs.«419719_j17008070492485_2_alg».proof.Proof.PreRange
import proofs.«419719_j17008070492485_2_alg».proof.Proof.Gen.Pre_finite_inputs

set_option maxRecDepth 16384

noncomputable section

namespace Cert.Join

open Idealize.ShloMosaic Idealize.ShloMosaic.TcCoe Idealize.ShloMosaic.ValueIdx Idealize.SL.Sem Idealize.ShloMosaic.StableHlo

/-- The reference's frame: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 2000000 in
theorem algebraic : Cert.algebraic_KernelIdeal_ReferenceIdeal := by
  intro m ρ m' ρ' hpre hagree
  have hr : ∀ c, Cert.KValue.InRange m c := fun c => Cert.PreRange.index_range (hpre c)
  refine ⟨fun c => Cert.KValue.out0 m c, fun c => Cert.KValue.out1 m c, ?_, ?_⟩
  · exact (θ_run Cert.KernelIdeal.defs _ _).mono
      (fun r h c => ⟨(h c).1.trans (Cert.KValue.result0 m ρ c (hr c)), (h c).2.1.trans (Cert.KValue.result1 m ρ c (hr c)), (h c).2.2⟩)
      (Cert.KernelIdeal.Gen.run_values m ρ)
  · refine (θ_run Cert.ReferenceIdeal.defs _ _).mono (fun r h c => ⟨(h c).1.trans ?_, (h c).2.1.trans ?_, (h c).2.2⟩)
      (Cert.ReferenceIdeal.Value.run (F := Ideal) m' ρ')
    · -- result 0: the reference's term is Spec's function of its own arrays, which are the kernel's
      refine ((Cert.ReferenceIdeal.Value.val5_main_v211 _).symm.trans (Cert.RefValue.out0_eq _)).trans ?_
      obtain ⟨e0, e1, e2, e3, e4, e5, e6, e7, e8, e9, e10, e11, e12, e13, e14, e15, e16, e17, e18, e19, e20, e21, e22, e23, e24, e25, e26, e27, e28, e29, e30⟩ := hagree c
      unfold Cert.KValue.out0 Cert.RefValue.nT Cert.RefValue.sumByDst Cert.RefValue.newE Cert.RefValue.eT Cert.RefValue.EA Cert.RefValue.XS
        Cert.RefValue.XD Cert.RefValue.X Cert.ReferenceIdeal.Value.res_main_v1 Cert.ReferenceIdeal.Value.res_main_v3
      simp only [show ∀ b : Ref Cert.ReferenceIdeal.sig .tc, launchContents m' c (Proc.devRef .tc b)
        = m' ((c.tc : Thread Cert.ReferenceIdeal.nD Cert.ReferenceIdeal.τ).loc b) from fun _ => rfl]
      rw [e0, e1, e2, e3, e4, e5, e6, e7, e8, e9, e10, e11, e12, e13, e14, e15, e16, e17, e18, e19, e20, e21, e22, e23, e24, e25, e26, e27, e28, e29, e30]
      rfl
    · -- result 1
      refine ((Cert.ReferenceIdeal.Value.val5_main_v212 _).symm.trans (Cert.RefValue.out1_eq _)).trans ?_
      obtain ⟨e0, e1, e2, e3, e4, e5, e6, e7, e8, e9, e10, e11, e12, e13, e14, e15, e16, e17, e18, e19, e20, e21, e22, e23, e24, e25, e26, e27, e28, e29, e30⟩ := hagree c
      unfold Cert.KValue.out1 Cert.RefValue.eT Cert.RefValue.EA Cert.RefValue.XS Cert.RefValue.XD Cert.RefValue.X
        Cert.ReferenceIdeal.Value.res_main_v1 Cert.ReferenceIdeal.Value.res_main_v3
      simp only [show ∀ b : Ref Cert.ReferenceIdeal.sig .tc, launchContents m' c (Proc.devRef .tc b)
        = m' ((c.tc : Thread Cert.ReferenceIdeal.nD Cert.ReferenceIdeal.τ).loc b) from fun _ => rfl]
      rw [e0, e1, e2, e3, e4, e5, e6, e7, e8, e9, e10, e11, e12, e13, e14, e15, e16]
      rfl

end Cert.Join

end
-- ==== Proof.lean ====
/-
  The claim: both frames of the kernel, the reference's frame, the (empty) idealization ledger, and the equality of the
  two programs' results over the extended reals, under the precondition that every float argument is finite and every
  entry of edge_index is a row number of x (outside that range the reference itself indexes x out of range).

  The kernel's frames are the generated frame certificates. The value claim is Join.algebraic: a graph-network block
  (edge perceptron of gathered rows, sum by destination, node perceptron, two residual additions) computed by two
  row-blocked kernels with the first weight split into row blocks, against the same block computed on whole arrays.
-/
import proofs.«419719_j17008070492485_2_alg».proof.Defs
import proofs.«419719_j17008070492485_2_alg».proof.Proof.Join
import proofs.«419719_j17008070492485_2_alg».proof.Proof.Gen.Kernel
import proofs.«419719_j17008070492485_2_alg».proof.Proof.Gen.Kernel.Frame
import proofs.«419719_j17008070492485_2_alg».proof.Proof.Gen.KernelIdeal
import proofs.«419719_j17008070492485_2_alg».proof.Proof.Gen.KernelIdeal.Frame
import proofs.«419719_j17008070492485_2_alg».proof.Proof.Gen.ReferenceIdeal
import proofs.«419719_j17008070492485_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, Cert.Join.frame_ri, trivial,
    Cert.Join.algebraic⟩

end Cert.Proof

end
